-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4096x2048 .f32) (main_arg1 : FVec F S2048x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  main_v8
-- ==== Kernel.lean ====
abbrev S4096x2048 : Shape := ⟨2, ![4096, 2048]⟩
abbrev S2048x2048 : Shape := ⟨2, ![2048, 2048]⟩
abbrev S512x2048 : Shape := ⟨2, ![512, 2048]⟩
abbrev S4096x4096 : Shape := ⟨2, ![4096, 4096]⟩
abbrev S4096x1 : Shape := ⟨2, ![4096, 1]⟩
abbrev S256x2048 : Shape := ⟨2, ![256, 2048]⟩
abbrev S256x256 : Shape := ⟨2, ![256, 256]⟩
abbrev S256x1 : Shape := ⟨2, ![256, 1]⟩
abbrev S256 : Shape := ⟨1, ![256]⟩
abbrev S1x256 : Shape := ⟨2, ![1, 256]⟩
abbrev S512x512 : Shape := ⟨2, ![512, 512]⟩
abbrev S512x1 : Shape := ⟨2, ![512, 1]⟩
abbrev S1x512 : Shape := ⟨2, ![1, 512]⟩

abbrev nBuf : Space → Nat
  | .hbm => 8
  | .vmem => 21
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .bf16⟩
  | .hbm, ⟨3, _⟩ => ⟨S2048x2048, .bf16⟩
  | .hbm, ⟨4, _⟩ => ⟨S4096x2048, .bf16⟩
  | .hbm, ⟨5, _⟩ => ⟨S4096x4096, .f32⟩
  | .hbm, ⟨6, _⟩ => ⟨S4096x1, .f32⟩
  | .hbm, ⟨7, _⟩ => ⟨S4096x4096, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .bf16⟩
  | .local _ .vmem, ⟨4, _⟩ => ⟨S512x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x256, .f32⟩
  | .local _ .vmem, ⟨10, _⟩ => ⟨S256x256, .f32⟩
  | .local _ .vmem, ⟨11, _⟩ => ⟨S256x1, .f32⟩
  | .local _ .vmem, ⟨12, _⟩ => ⟨S256x1, .f32⟩
  | .local _ .vmem, ⟨13, _⟩ => ⟨S512x512, .f32⟩
  | .local _ .vmem, ⟨14, _⟩ => ⟨S512x512, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x512, .f32⟩
  | .local _ .vmem, ⟨20, _⟩ => ⟨S512x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  packedbf16_S512x2048_S512x2048_0_0 : (Rect.unit (s := S512x2048) ![0, 0] S512x2048.size inb_S512x2048_S512x2048_0_0).PackedRows (EltTy.packing .bf16)
  inb_S256x1_S256x1_0_0 : ∀ a, (![0, 0] : Fin 2 → Nat) a + S256x1.size a ≤ S256x1.size a
  h_S256x1 : 0 < S256x1.numel
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  reduces_S256x2048_S256 : S256x2048.Reduces [1] S256
  shapeCasts_S256_S256x1 : S256.ShapeCasts S256x1
  transposes_S256x1_p1_0_S1x256 : S256x1.Transposes [1, 0] S1x256
  broadcasts_S256x1_S256x256 : S256x1.Broadcasts S256x256
  broadcasts_S1x256_S256x256 : S1x256.Broadcasts S256x256
  iota_S256x256_d0_w32 : S256x256.Iotas .tc 32 [0]
  iota_S256x256_d1_w32 : S256x256.Iotas .tc 32 [1]
  inb_S256x256_S256x256_0_0 : ∀ a, (![0, 0] : Fin 2 → Nat) a + S256x256.size a ≤ S256x256.size a
  h_S256x256 : 0 < S256x256.numel
  shapeCasts_S256x1_S256x1 : S256x1.ShapeCasts S256x1
  reduces_S256x256_S256 : S256x256.Reduces [1] S256
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  transposes_S512x1_p1_0_S1x512 : S512x1.Transposes [1, 0] S1x512
  broadcasts_S512x1_S512x512 : S512x1.Broadcasts S512x512
  broadcasts_S1x512_S512x512 : S1x512.Broadcasts S512x512
  dot_S512x2048_S2048x2048_S512x2048_1_0_0_1_n_n_wf : DotDims.WF S512x2048 S2048x2048 S512x2048 [1] [0] [0] [1] [] []
  dot_S256x2048_S256x2048_S256x256_1_1_0_0_n_n_wf : DotDims.WF S256x2048 S256x2048 S256x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .bf16 = 32 ∨ (Rect.block (s := S4096x2048) S512x2048.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S4096x2048.size a
  hwx0_2 : ∀ i : grid0.Coords, EltTy.bits .bf16 = 32 ∨ (Rect.block (s := S4096x2048) S512x2048.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x2048.size a ≤ S4096x2048.size a
  hwx1_0 : ∀ i : grid1.Coords, EltTy.bits .bf16 = 32 ∨ (Rect.block (s := S4096x2048) S256x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x2048.size a ≤ S4096x2048.size a
  hwx1_1 : ∀ i : grid1.Coords, EltTy.bits .bf16 = 32 ∨ (Rect.block (s := S4096x2048) S256x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S4096x4096.size a
  hwx1_2 : ∀ i : grid1.Coords, EltTy.bits .f32 = 32 ∨ (Rect.block (s := S4096x4096) S256x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S4096x1.size a
  hwx1_3 : ∀ i : grid1.Coords, EltTy.bits .f32 = 32 ∨ (Rect.block (s := S4096x1) S256x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S4096x4096.size a
  hwx2_0 : ∀ i : grid2.Coords, EltTy.bits .f32 = 32 ∨ (Rect.block (s := S4096x4096) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1.size a ≤ S4096x1.size a
  hwx2_1 : ∀ i : grid2.Coords, EltTy.bits .f32 = 32 ∨ (Rect.block (s := S4096x1) S512x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S4096x1.size a
  hwx2_2 : ∀ i : grid2.Coords, EltTy.bits .f32 = 32 ∨ (Rect.block (s := S4096x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S4096x4096.size a
  hwx2_3 : ∀ i : grid2.Coords, EltTy.bits .f32 = 32 ∨ (Rect.block (s := S4096x4096) S512x512.size (cc2_transform_3 i) (hinb2_3 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf
def dot_S256x2048_S256x2048_S256x256_1_1_0_0_n_n : DotDims S256x2048 S256x2048 S256x256 where
  lhsContracting := [1]
  rhsContracting := [1]
  lhsNonContracting := [0]
  rhsNonContracting := [0]
  lhsBatch := []
  rhsBatch := []
  wf := dot_S256x2048_S256x2048_S256x256_1_1_0_0_n_n_wf

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v2) S256x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S256x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_0) S256x256.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3_1) S256x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v3_0) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3_1) S512x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3_1) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S512x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2048x4096 : Shape := ⟨2, ![2048, 4096]⟩

abbrev nBuf : Space → Nat
  | .hbm => 48
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S1x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S2048x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .i32⟩
  | .hbm, ⟨21, _⟩ => ⟨S4096x4096, .i32⟩
  | .hbm, ⟨22, _⟩ => ⟨S_, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S4096, .f32⟩
  | .hbm, ⟨42, _⟩ => ⟨S4096x1, .f32⟩
  | .hbm, ⟨43, _⟩ => ⟨S4096x4096, .f32⟩
  | .hbm, ⟨44, _⟩ => ⟨S4096x4096, .f32⟩
  | .hbm, ⟨45, _⟩ => ⟨S1x4096, .f32⟩
  | .hbm, ⟨46, _⟩ => ⟨S4096x4096, .f32⟩
  | .hbm, ⟨47, _⟩ => ⟨S4096x4096, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x2048_S2048x4096_1_0 : S4096x2048.Transposes [1, 0] S2048x4096
  bcast_S_S4096x4096 : S_.BroadcastsInDim S4096x4096 (![] : Fin 0 → Fin S4096x4096.rank)
  reducesTo_S4096x4096_S4096_d1 : S4096x4096.ReducesTo [1] S4096
  dot_S4096x2048_S2048x2048_S4096x2048_1_0_0_1_n_n_wf : DotDims.WF S4096x2048 S2048x2048 S4096x2048 [1] [0] [0] [1] [] []
  dot_S4096x2048_S2048x4096_S4096x4096_1_0_0_1_n_n_wf : DotDims.WF S4096x2048 S2048x4096 S4096x4096 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf
def dot_S4096x2048_S2048x4096_S4096x4096_1_0_0_1_n_n : DotDims S4096x2048 S2048x4096 S4096x4096 where
  lhsContracting := [1]
  rhsContracting := [0]
  lhsNonContracting := [0]
  rhsNonContracting := [1]
  lhsBatch := []
  rhsBatch := []
  wf := dot_S4096x2048_S2048x4096_S4096x4096_1_0_0_1_n_n_wf

class Facts : Prop extends Facts₀ where

variable [Facts]
-- ==== Proof.KbData.lean ====
/-
  The proof data of the three kernel regions, each at the buffer contents V its region is entered from.
  Region 0 (z = x·p): a point's output block is the product of its row block of x with all of p.
  Region 1 (adjacency and degree): a point (i, j) holds row block i and row block j of z; its adjacency tile is
    exp of the distance chain of the two blocks; the degree column of row block i is carried across j: zero plus the
    tile's row sums at j = 0, the previous column plus the row sums after, and at the last j the inverse square root
    of that sum.
  Region 2 (normalisation): a point's output tile is (row scale · tile) · column scale, the two scales two blocks of
    the one degree column.
  The two windows that read one array hold it at complementary halves of the full share.
-/
import proofs.«126364_j5334349382038_1_alg».proof.Proof.Gen.Kernel.Launch
import proofs.«126364_j5334349382038_1_alg».proof.Proof.Gen.Kernel.Skeleton
import proofs.«126364_j5334349382038_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window w's block at point t of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the inputs stay at their blocks, the output block is the product's payload of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

/-! ## Region 1 -/

/-- Window w's block at point t of region 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The exponent tile of point t: minus the distance between the rows of its two blocks. -/
def tile1 (c : Dev nD) (t : Fin cfg1.N) : FVec F S256x256 .f32 :=
  k1_pay5 (grid1.coords t) (iblk1 V c 0 t) (iblk1 V c 1 t)

/-- The degree column's staging contents after position n: reset-and-add at the first column tile of a row block,
    add after, and at the last column tile the inverse square root of the sum. -/
def degAt (c : Dev nD) : (n : ℕ) → n < cfg1.N → Vec F S256x1 .f32
  | 0, hn => k1_pay2 (tile1 V c ⟨0, hn⟩) (k1_pay4 (F := F))
  | n + 1, hn =>
    if (n + 1) % 16 = 0 then k1_pay2 (tile1 V c ⟨n + 1, hn⟩) (k1_pay4 (F := F))
    else if (n + 1) % 16 = 15 then k1_pay3 (k1_pay2 (tile1 V c ⟨n + 1, hn⟩) (degAt c n (Nat.lt_of_succ_lt hn)))
    else k1_pay2 (tile1 V c ⟨n + 1, hn⟩) (degAt c n (Nat.lt_of_succ_lt hn))

/-- Region 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (tile1 V c t)
    | ⟨3, _⟩ => degAt V c t.val t.isLt
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (tile1 V c t) := by dsimp only [dat1]
theorem after1_3 (c : Dev nD) (t : Fin cfg1.N) : (dat1 V c).after 3 t = degAt V c t.val t.isLt := by dsimp only [dat1]

/-! ## Region 2 -/

/-- Window w's block at point t of region 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 2's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q w := match w with
    | ⟨0, _⟩ => fullShare
    | ⟨1, _⟩ => fullShare.left
    | ⟨2, _⟩ => fullShare.right
    | ⟨3, _⟩ => fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay1 (iblk2 V c 0 t) (iblk2 V c 1 t) (iblk2 V c 2 t) := by dsimp only [dat2]

end Cert.Kernel.Hand

end
-- ==== Proof.KbRun.lean ====
/-
  What the run is stated over: the buffer contents between the program's items, the proof-data family of the three
  regions (each at its own entry contents), and the thread state that rides beside the buffers.
  Between items every unscoped buffer is held whole: at launch the memory; after the host stretch its two casts; after each
  region that region's output arrays at what its write-backs leave.
-/
import proofs.«126364_j5334349382038_1_alg».proof.Proof.KbData
import proofs.«126364_j5334349382038_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffer contents between items -/

/-- After the host stretch (region 0's entry). -/
abbrev W1 (c : Dev nD) : Valuation τ sig (Elt F) := Gen.V1 m c
abbrev E1 (c : Dev nD) (b : Ref sig .tc) : Buf (Elt F) ((c : Thread nD τ).loc b) := W1 m c b
/-- What region 0 leaves in z's array. -/
def zOut (c : Dev nD) : Buf (Elt F) ((c : Thread nD τ).loc main_v2) := (dat0 (E1 m) c).arrAt 2 cfg0.N
/-- After region 0 (region 1's entry). -/
abbrev W2 (c : Dev nD) : Valuation τ sig (Elt F) := Function.update (W1 m c) main_v2 (zOut m c)
abbrev E2 (c : Dev nD) (b : Ref sig .tc) : Buf (Elt F) ((c : Thread nD τ).loc b) := W2 m c b
/-- What region 1 leaves in the adjacency's and the degree column's arrays. -/
def adjOut (c : Dev nD) : Buf (Elt F) ((c : Thread nD τ).loc main_v3_0) := (dat1 (E2 m) c).arrAt 2 cfg1.N
def degOut (c : Dev nD) : Buf (Elt F) ((c : Thread nD τ).loc main_v3_1) := (dat1 (E2 m) c).arrAt 3 cfg1.N
/-- After region 1 (region 2's entry). -/
abbrev W3 (c : Dev nD) : Valuation τ sig (Elt F) :=
  Function.update (Function.update (W2 m c) main_v3_0 (adjOut m c)) main_v3_1 (degOut m c)
abbrev E3 (c : Dev nD) (b : Ref sig .tc) : Buf (Elt F) ((c : Thread nD τ).loc b) := W3 m c b
/-- What region 2 leaves in the normalised adjacency's array. -/
def nrmOut (c : Dev nD) : Buf (Elt F) ((c : Thread nD τ).loc main_v4) := (dat2 (E3 m) c).arrAt 3 cfg2.N
/-- After region 2 (the end). -/
abbrev W4 (c : Dev nD) : Valuation τ sig (Elt F) := Function.update (W3 m c) main_v4 (nrmOut m c)

/-! ## The proof-data family and the thread state -/

/-- Every pipeline's proof data, each at its region's entry contents: a literal match on the pipeline. -/
def pdats : (p : Fin 3) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
  | ⟨2, _⟩ => fun c => dat2 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its owing nothing. -/
abbrev R (c : Dev nD) : sProp 𝕄 := iprop((∃ r, prngReg c r) ∗ ∃ W, owes (c : Thread nD τ) (0 : CellTallies nD τ sig Unit) W)
/-- The thread state between items: every unscoped buffer held at the contents W, beside R. -/
abbrev TS (W : Dev nD → Valuation τ sig (Elt F)) (c : Dev nD) : sProp 𝕄 :=
  iprop(StableHlo.held (c : Thread nD τ) (Pipeline.ucRefs τ sig) (W c) ∗ R c)

end Cert.Kernel.Hand

end
-- ==== Proof.KbBody0.lean ====
/-
  Region 0's body obligation: at every grid point the kernel body, started from the invariant and its windows' current
  staging buffers at what the proof data says they hold, ends with each buffer at what the proof data says it leaves.
  The body loads the row block of x and all of p, and stores the rounded product over the whole output block.
-/
import proofs.«126364_j5334349382038_1_alg».proof.Proof.KbData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- The offsets of every rectangle the body touches are the zero offsets. -/
theorem origin0 : (![0, 0] : Fin 2 → Nat) = fun _ => 0 := funext fun a => by fin_cases a <;> rfl

/-- The row block of x sits in window 0's current staging buffer at every point: the body leaves it in place,
    so what was fetched last is still there. -/
theorem holds0_x (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- All of p sits in window 1's staging buffer at every point: fetched at the first point, its block index never
    moves and the body leaves it in place. -/
theorem holds0_p (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's triple -/

set_option maxHeartbeats 1000000 in
/-- The body on whole staging memrefs, the two inputs at contents x and p and the output at anything, runs to the
    continuation holding the inputs as they were and the output at the product's payload of x and p: its one store
    covers the whole block, so the block afterwards is the stored payload, and each load through the whole block
    reads the contents. -/
theorem product_triple (c : Dev nD) (E : Set ℕ) (i : grid0.Coords)
    (a1 : Memref sig .tc .vmem S512x2048 .bf16) (ha1 : a1.IsWhole)
    (a2 : Memref sig .tc .vmem S2048x2048 .bf16) (ha2 : a2.IsWhole)
    (a3 : Memref sig .tc .vmem S512x2048 .bf16) (ha3 : a3.IsWhole)
    (x : Vec F S512x2048 .bf16) (p : Vec F S2048x2048 .bf16) (K : PUnit → sProp 𝕄) :
    iprop(owns (c : Thread nD τ) a1 fullShare x ∗ owns (c : Thread nD τ) a2 fullShare p
        ∗ (∃ d, owns (c : Thread nD τ) a3 fullShare d)
        ∗ (iprop(owns (c : Thread nD τ) a1 fullShare x ∗ owns (c : Thread nD τ) a2 fullShare p
            ∗ owns (c : Thread nD τ) a3 fullShare (k0_pay1 x p)) -∗ K ⟨⟩))
      ⊢ wp frame (wpE (defs₀ (F := F)) Variants.none c none) E (cc0__k1 i a1 ha1 a2 ha2 a3 ha3) K := by
  simp only [cc0__k1_eq_skeleton]; unfold cc0__k1_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _
    (fun y => ⟨_, List.mem_singleton_self _, View.mem_set_unit_zero origin0 inb_S512x2048_S512x2048_0_0 y⟩)).trans ?_
  rw [View.canon_unit_zero origin0]
  simp only [View.readAt_eq_ld, View.ld_unit_zero (S := S512x2048) origin0, View.ld_unit_zero (S := S2048x2048) origin0]

/-! ## The body obligation, at a generic point -/

/-- What the body is called with at point t: the invariant, what the core owes, and each window's current staging
    buffer at what it then holds. -/
def enter0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt, each buffer at what the body leaves. -/
def leave0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the triple applies at those blocks; the invariant
    and the debt pass through unread. -/
theorem body_at0 (c : Dev nD) (t : Fin cfg0.N) :
    enter0 V c t ⊢ wp frame (wpE (defs₀ (F := F)) Variants.none c none) Set.univ (bodyAt0 t) (fun _ => leave0 V c t) := by
  unfold enter0 leave0 bodyAt0
  simp only [holds0_x, holds0_p]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (product_triple c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0, at every point. -/
theorem body_obligation0 (c : Dev nD) : BodyObligation (dat0 (F := F) V c) (defs₀ (F := F)) Variants.none () Set.univ := by
  intro t
  rw [bigSep_W0, bigSep_W0]
  exact body_at0 V c t

end Cert.Kernel.Hand

end
-- ==== Proof.KbSeg0.lean ====
/-
  Region 0 as a segment of the run: entered from every unscoped buffer at the contents the item before it left, it leaves
  them at those contents with its output arrays replaced by what its write-backs leave. Its windows' arrays are split out of
  the unscoped buffers on entry and put back on exit; the generator register goes into the invariant and comes back;
  nothing is owed; the kernel has no semaphore of its own.
-/
import proofs.«126364_j5334349382038_1_alg».proof.Proof.KbRun
import proofs.«126364_j5334349382038_1_alg».proof.Proof.KbBody0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The exit contents at region 0's arrays and off them -/

/-- The two input arrays are not the output array. -/
private theorem v0_ne_v2 : (Proc.devRef .tc main_v0 : DevRef τ sig) ≠ Proc.devRef .tc main_v2 :=
  StableHlo.devRef_ne_of_ne (by decide)
private theorem v1_ne_v2 : (Proc.devRef .tc main_v1 : DevRef τ sig) ≠ Proc.devRef .tc main_v2 :=
  StableHlo.devRef_ne_of_ne (by decide)

/-- At region 0's exit each of its arrays holds what the pipeline leaves: an input array is never written, so it is
    the entry contents, which the update at z's array leaves alone; z's array is the update itself. -/
theorem reg0_hF (c : Dev nD) (w : Fin cfg0.W) : (dat0 (E1 m) c).arrAt w cfg0.N = E2 m c (Pipeline.arrRef spec0 w) := by
  match w with
  | ⟨0, _⟩ =>
    refine (((dat0 (E1 m) c).arrAt_in 0 rfl _).trans (A_eq0 (E1 m) c 0)).trans ?_
    exact (Function.update_of_ne (f := W1 m c) v0_ne_v2 (zOut m c)).symm
  | ⟨1, _⟩ =>
    refine (((dat0 (E1 m) c).arrAt_in 1 rfl _).trans (A_eq0 (E1 m) c 1)).trans ?_
    exact (Function.update_of_ne (f := W1 m c) v1_ne_v2 (zOut m c)).symm
  | ⟨2, _⟩ =>
    exact (Function.update_self (Proc.devRef .tc main_v2 : DevRef τ sig) (zOut m c) (W1 m c)).symm

/-- Every buffer that is no array of region 0 holds at its exit what it held at entry. -/
theorem reg0_hrest (c : Dev nD) : ∀ b, b ∉ Finset.univ.image (Pipeline.arrRef spec0) → E2 m c b = E1 m c b :=
  fun b hb => Function.update_of_ne (f := W1 m c) (StableHlo.devRef_ne_of_ne fun e =>
    hb (Finset.mem_image.mpr ⟨2, Finset.mem_univ _, e.symm⟩)) (zOut m c)

set_option backward.isDefEq.respectTransparency.types false in
/-- Region 0 over the thread state. -/
def reg0 : Pipeline.RegionSeg (pcfgs (F := F)) Gen.adm (pdats m) () defs₀ 𝒱₀ L lv 0 where
  win := Gen.launch0.win.to₀
  block_pos := Gen.block_pos0
  stage_whole := Gen.stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := TS (W1 m) c
  post c := TS (W2 m) c
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (E1 m c) (E2 m c) ((pdats m 0 c).arrAt · cfg0.N) (reg0_hF m c) (reg0_hrest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.KbBody1.lean ====
/-
  Region 1's body obligation: at every grid point the kernel body, started from the invariant and its windows' current
  staging buffers at what the proof data says they hold, ends with each buffer at what the proof data says it leaves.

  A point (i, j) is in one of three cases by its column coordinate j, which is its position modulo 16:
    j = 0       the body first stores the zero column over the degree column's buffer, then adds the tile's row sums to
                what it reads back: the buffer may come in at anything;
    0 < j < 15  the body adds the tile's row sums to the column the point before left;
    j = 15      it does the same, reads the sum back, and stores its inverse square root.
  In every case the adjacency tile's buffer is stored whole once, with the exponential of the exponent tile, and the two
  input buffers are only read. Every store is of a whole block at the zero offset, so what a buffer holds after the body
  is the payload of its last store, and a load after a store reads that store's payload back.
-/
import proofs.«126364_j5334349382038_1_alg».proof.Proof.KbData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch condition, from the grid coordinates: the column coordinate is 0. -/
abbrev cond1First (i : grid1.Coords) : Prop :=
  (Scalar.cmpi .ne (Scalar.extui (Scalar.cmpi .eq (BitVec.ofNat 32 (i 1).val) 0#32)) 0#32) = 1#1
/-- The body's second branch condition: the column coordinate is 15, the last. -/
abbrev cond1Last (i : grid1.Coords) : Prop :=
  (Scalar.cmpi .ne (Scalar.extui (Scalar.cmpi .eq (BitVec.ofNat 32 (i 1).val) 15#32)) 0#32) = 1#1

/-- The first holds exactly at the points whose position is 0 modulo 16. -/
theorem cond1First_iff : ∀ t : Fin cfg1.N, cond1First (grid1.coords t) ↔ t.val % 16 = 0 :=
  (by decide +kernel : ∀ t : Fin grid1.N, cond1First (grid1.coords t) ↔ t.val % 16 = 0)
/-- The second holds exactly at the points whose position is 15 modulo 16. -/
theorem cond1Last_iff : ∀ t : Fin cfg1.N, cond1Last (grid1.coords t) ↔ t.val % 16 = 15 :=
  (by decide +kernel : ∀ t : Fin grid1.N, cond1Last (grid1.coords t) ↔ t.val % 16 = 15)

/-- Every store and load of the body is at the zero offset. -/
theorem off1_zero : (![0, 0] : Fin 2 → Nat) = fun _ => 0 := funext fun a => by fin_cases a <;> rfl

/-! ## The body's run, case by case -/

set_option maxHeartbeats 1000000 in
/-- The body at a first column tile (the reset taken, the finish not): on whole staging memrefs, the two inputs' at their blocks and the two outputs' at anything, it runs to the continuation holding the inputs' as they were and each output's buffer with the pieces its stores wrote, last first. -/
noncomputable def run1First (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : cond1First i) (hc1 : ¬cond1Last i)
    (x0 : Vec F S256x2048 .bf16) (x1 : Vec F S256x2048 .bf16) :
    Σ' (L2 : List (View.Piece (Elt F) S256x256 .f32)), { L3 : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc1__k2 i arg2 harg2 arg3 harg3 arg4 harg4 arg5 harg5) K } := by
  refine ⟨?_, ?_, fun E K => ?run⟩
  case run =>
    simp only [cc1__k2_eq_skeleton]; unfold cc1__k2_skel
    simp only [k1_part1_eq_skeleton]; unfold k1_part1_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- The body at a middle column tile (neither branch taken): the degree column's buffer comes in at the carried contents, which the body reads before its one store there. -/
noncomputable def run1Middle (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : ¬cond1Last i)
    (x0 : Vec F S256x2048 .bf16) (x1 : Vec F S256x2048 .bf16) (xo3 : Vec F S256x1 .f32) :
    Σ' (L2 : List (View.Piece (Elt F) S256x256 .f32)), { L3 : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc1__k2 i arg2 harg2 arg3 harg3 arg4 harg4 arg5 harg5) K } := by
  refine ⟨?_, ?_, fun E K => ?run⟩
  case run =>
    simp only [cc1__k2_eq_skeleton]; unfold cc1__k2_skel
    simp only [k1_part1_eq_skeleton]; unfold k1_part1_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- The body at the last column tile of a row block (the reset not taken, the finish taken): the degree column's buffer comes in at the carried contents; the body adds to it, reads the sum back and stores its inverse square root. -/
noncomputable def run1Last (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : cond1Last i)
    (x0 : Vec F S256x2048 .bf16) (x1 : Vec F S256x2048 .bf16) (xo3 : Vec F S256x1 .f32) :
    Σ' (L2 : List (View.Piece (Elt F) S256x256 .f32)), { L3 : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc1__k2 i arg2 harg2 arg3 harg3 arg4 harg4 arg5 harg5) K } := by
  refine ⟨?_, ?_, fun E K => ?run⟩
  case run =>
    simp only [cc1__k2_eq_skeleton]; unfold cc1__k2_skel
    simp only [k1_part1_eq_skeleton]; unfold k1_part1_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

/-! ## What each case leaves, read back -/

/-- The adjacency tile's pieces at such a point cover its block (one store of the whole block). -/
theorem cover1First2 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : cond1First i) (hc1 : ¬cond1Last i) (x0 : Vec F S256x2048 .bf16) (x1 : Vec F S256x2048 .bf16) (y : S256x256.Idx) :
    ∃ pc ∈ (run1First c i arg2 harg2 arg3 harg3 arg4 harg4 arg5 harg5 hc0 hc1 x0 x1).1, y ∈ pc.1.set :=
  View.cover_of_tiledL (run1First c i arg2 harg2 arg3 harg3 arg4 harg4 arg5 harg5 hc0 hc1 x0 x1).1 S256x256.size (by sl_kernel_rfl) y

/-- The degree column's pieces at such a point cover its block (every store is of the whole block). -/
theorem cover1First3 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : cond1First i) (hc1 : ¬cond1Last i) (x0 : Vec F S256x2048 .bf16) (x1 : Vec F S256x2048 .bf16) (y : S256x1.Idx) :
    ∃ pc ∈ (run1First c i arg2 harg2 arg3 harg3 arg4 harg4 arg5 harg5 hc0 hc1 x0 x1).2.1, y ∈ pc.1.set :=
  View.cover_of_tiledL (run1First c i arg2 harg2 arg3 harg3 arg4 harg4 arg5 harg5 hc0 hc1 x0 x1).2.1 S256x1.size (by sl_kernel_rfl) y

/-- At a first column tile the adjacency tile's buffer, read back, is the exponential of the point's exponent tile: one store of the whole block, whose payload reads the two input blocks whole. -/
theorem read1First2 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : cond1First i) (hc1 : ¬cond1Last i) (x0 : Vec F S256x2048 .bf16) (x1 : Vec F S256x2048 .bf16)
    (v : View sig .tc .vmem S256x256 .f32) (f : v.ty.Contents (Elt F)) :
    v.read (Elt F) (v.writes (Elt F) f (run1First c i arg2 harg2 arg3 harg3 arg4 harg4 arg5 harg5 hc0 hc1 x0 x1).1) = k1_pay1 (k1_pay5 i x0 x1) := by
  rw [View.read_writes_eq_canon _ _ _ (cover1First2 c i arg2 harg2 arg3 harg3 arg4 harg4 arg5 harg5 hc0 hc1 x0 x1)]
  unfold run1First
  dsimp only
  rw [View.canon_unit_zero off1_zero]
  simp only [View.readAt_eq_ld, harg2.read_unread, harg3.read_unread, View.ld_unit_zero (S := S256x2048) off1_zero]

/-- At a first column tile the degree column's buffer, read back, is the zero column plus the tile's row sums: the later store covers, and the column it adds to is the zero column the reset stored, read back. -/
theorem read1First3 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : cond1First i) (hc1 : ¬cond1Last i) (x0 : Vec F S256x2048 .bf16) (x1 : Vec F S256x2048 .bf16)
    (v : View sig .tc .vmem S256x1 .f32) (f : v.ty.Contents (Elt F)) :
    v.read (Elt F) (v.writes (Elt F) f (run1First c i arg2 harg2 arg3 harg3 arg4 harg4 arg5 harg5 hc0 hc1 x0 x1).2.1) = k1_pay2 (k1_pay5 i x0 x1) (k1_pay4 (F := F)) := by
  rw [View.read_writes_eq_canon _ _ _ (cover1First3 c i arg2 harg2 arg3 harg3 arg4 harg4 arg5 harg5 hc0 hc1 x0 x1)]
  unfold run1First
  dsimp only
  sl_unfold_words
  rw [View.canon_cons_unit_zero (S := S256x1) off1_zero]
  simp only [View.readAt_eq_ld, harg2.read_unread, harg3.read_unread, View.ld_unit_zero (S := S256x2048) off1_zero,
    View.readCov_unit_zero (S := S256x1) _ off1_zero]

/-- The adjacency tile's pieces at such a point cover its block (one store of the whole block). -/
theorem cover1Middle2 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : ¬cond1Last i) (x0 : Vec F S256x2048 .bf16) (x1 : Vec F S256x2048 .bf16) (xo3 : Vec F S256x1 .f32) (y : S256x256.Idx) :
    ∃ pc ∈ (run1Middle c i arg2 harg2 arg3 harg3 arg4 harg4 arg5 harg5 hc0 hc1 x0 x1 xo3).1, y ∈ pc.1.set :=
  View.cover_of_tiledL (run1Middle c i arg2 harg2 arg3 harg3 arg4 harg4 arg5 harg5 hc0 hc1 x0 x1 xo3).1 S256x256.size (by sl_kernel_rfl) y

/-- The degree column's pieces at such a point cover its block (every store is of the whole block). -/
theorem cover1Middle3 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : ¬cond1Last i) (x0 : Vec F S256x2048 .bf16) (x1 : Vec F S256x2048 .bf16) (xo3 : Vec F S256x1 .f32) (y : S256x1.Idx) :
    ∃ pc ∈ (run1Middle c i arg2 harg2 arg3 harg3 arg4 harg4 arg5 harg5 hc0 hc1 x0 x1 xo3).2.1, y ∈ pc.1.set :=
  View.cover_of_tiledL (run1Middle c i arg2 harg2 arg3 harg3 arg4 harg4 arg5 harg5 hc0 hc1 x0 x1 xo3).2.1 S256x1.size (by sl_kernel_rfl) y

/-- At a middle column tile the adjacency tile's buffer, read back, is the exponential of the point's exponent tile. -/
theorem read1Middle2 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : ¬cond1Last i) (x0 : Vec F S256x2048 .bf16) (x1 : Vec F S256x2048 .bf16) (xo3 : Vec F S256x1 .f32)
    (v : View sig .tc .vmem S256x256 .f32) (f : v.ty.Contents (Elt F)) :
    v.read (Elt F) (v.writes (Elt F) f (run1Middle c i arg2 harg2 arg3 harg3 arg4 harg4 arg5 harg5 hc0 hc1 x0 x1 xo3).1) = k1_pay1 (k1_pay5 i x0 x1) := by
  rw [View.read_writes_eq_canon _ _ _ (cover1Middle2 c i arg2 harg2 arg3 harg3 arg4 harg4 arg5 harg5 hc0 hc1 x0 x1 xo3)]
  unfold run1Middle
  dsimp only
  rw [View.canon_unit_zero off1_zero]
  simp only [View.readAt_eq_ld, harg2.read_unread, harg3.read_unread, View.ld_unit_zero (S := S256x2048) off1_zero]

/-- At a middle column tile the degree column's buffer, read back, is the carried column plus the tile's row sums: one store of the whole block, whose payload reads the carried column whole. -/
theorem read1Middle3 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : ¬cond1Last i) (x0 : Vec F S256x2048 .bf16) (x1 : Vec F S256x2048 .bf16) (xo3 : Vec F S256x1 .f32)
    (v : View sig .tc .vmem S256x1 .f32) (f : v.ty.Contents (Elt F)) :
    v.read (Elt F) (v.writes (Elt F) f (run1Middle c i arg2 harg2 arg3 harg3 arg4 harg4 arg5 harg5 hc0 hc1 x0 x1 xo3).2.1) = k1_pay2 (k1_pay5 i x0 x1) xo3 := by
  rw [View.read_writes_eq_canon _ _ _ (cover1Middle3 c i arg2 harg2 arg3 harg3 arg4 harg4 arg5 harg5 hc0 hc1 x0 x1 xo3)]
  unfold run1Middle
  dsimp only
  rw [View.canon_unit_zero off1_zero]
  simp only [View.readAt_eq_ld, harg2.read_unread, harg3.read_unread, View.ld_unit_zero (S := S256x2048) off1_zero, harg5.read_unread, View.ld_unit_zero (S := S256x1) off1_zero]

/-- The adjacency tile's pieces at such a point cover its block (one store of the whole block). -/
theorem cover1Last2 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : cond1Last i) (x0 : Vec F S256x2048 .bf16) (x1 : Vec F S256x2048 .bf16) (xo3 : Vec F S256x1 .f32) (y : S256x256.Idx) :
    ∃ pc ∈ (run1Last c i arg2 harg2 arg3 harg3 arg4 harg4 arg5 harg5 hc0 hc1 x0 x1 xo3).1, y ∈ pc.1.set :=
  View.cover_of_tiledL (run1Last c i arg2 harg2 arg3 harg3 arg4 harg4 arg5 harg5 hc0 hc1 x0 x1 xo3).1 S256x256.size (by sl_kernel_rfl) y

/-- The degree column's pieces at such a point cover its block (every store is of the whole block). -/
theorem cover1Last3 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : cond1Last i) (x0 : Vec F S256x2048 .bf16) (x1 : Vec F S256x2048 .bf16) (xo3 : Vec F S256x1 .f32) (y : S256x1.Idx) :
    ∃ pc ∈ (run1Last c i arg2 harg2 arg3 harg3 arg4 harg4 arg5 harg5 hc0 hc1 x0 x1 xo3).2.1, y ∈ pc.1.set :=
  View.cover_of_tiledL (run1Last c i arg2 harg2 arg3 harg3 arg4 harg4 arg5 harg5 hc0 hc1 x0 x1 xo3).2.1 S256x1.size (by sl_kernel_rfl) y

/-- At the last column tile the adjacency tile's buffer, read back, is the exponential of the point's exponent tile. -/
theorem read1Last2 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : cond1Last i) (x0 : Vec F S256x2048 .bf16) (x1 : Vec F S256x2048 .bf16) (xo3 : Vec F S256x1 .f32)
    (v : View sig .tc .vmem S256x256 .f32) (f : v.ty.Contents (Elt F)) :
    v.read (Elt F) (v.writes (Elt F) f (run1Last c i arg2 harg2 arg3 harg3 arg4 harg4 arg5 harg5 hc0 hc1 x0 x1 xo3).1) = k1_pay1 (k1_pay5 i x0 x1) := by
  rw [View.read_writes_eq_canon _ _ _ (cover1Last2 c i arg2 harg2 arg3 harg3 arg4 harg4 arg5 harg5 hc0 hc1 x0 x1 xo3)]
  unfold run1Last
  dsimp only
  rw [View.canon_unit_zero off1_zero]
  simp only [View.readAt_eq_ld, harg2.read_unread, harg3.read_unread, View.ld_unit_zero (S := S256x2048) off1_zero]

/-- At the last column tile the degree column's buffer, read back, is the inverse square root of the carried column plus the tile's row sums: the later store covers, and the column it takes the root of is the sum the earlier store left, read back. -/
theorem read1Last3 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : cond1Last i) (x0 : Vec F S256x2048 .bf16) (x1 : Vec F S256x2048 .bf16) (xo3 : Vec F S256x1 .f32)
    (v : View sig .tc .vmem S256x1 .f32) (f : v.ty.Contents (Elt F)) :
    v.read (Elt F) (v.writes (Elt F) f (run1Last c i arg2 harg2 arg3 harg3 arg4 harg4 arg5 harg5 hc0 hc1 x0 x1 xo3).2.1) = k1_pay3 (k1_pay2 (k1_pay5 i x0 x1) xo3) := by
  rw [View.read_writes_eq_canon _ _ _ (cover1Last3 c i arg2 harg2 arg3 harg3 arg4 harg4 arg5 harg5 hc0 hc1 x0 x1 xo3)]
  unfold run1Last
  dsimp only
  sl_unfold_words
  rw [View.canon_cons_unit_zero (S := S256x1) off1_zero]
  simp only [View.readAt_eq_ld, harg2.read_unread, harg3.read_unread, View.ld_unit_zero (S := S256x2048) off1_zero, harg5.read_unread, View.ld_unit_zero (S := S256x1) off1_zero,
    View.readCov_unit_zero (S := S256x1) _ off1_zero]

variable (V : (c : Dev nD) → (b : Ref sig .tc) → Buf (Elt F) ((c : Thread nD τ).loc b))

/-! ## What the body finds in each staging buffer -/

/-- Each window's current staging memref at point t, as the pipeline passes it to the body, and its wholeness. -/
abbrev stg1_0 (t : Fin cfg1.N) : Memref sig .tc .vmem S256x2048 .bf16 := win1_0.stage (cfg1.slots t 0)
abbrev stgWhole1_0 (t : Fin cfg1.N) : (stg1_0 t).IsWhole := hstage1_0 ((cfg1.slots t 0).cast nbuf1_0)
abbrev stg1_1 (t : Fin cfg1.N) : Memref sig .tc .vmem S256x2048 .bf16 := win1_1.stage (cfg1.slots t 1)
abbrev stgWhole1_1 (t : Fin cfg1.N) : (stg1_1 t).IsWhole := hstage1_1 ((cfg1.slots t 1).cast nbuf1_1)
abbrev stg1_2 (t : Fin cfg1.N) : Memref sig .tc .vmem S256x256 .f32 := win1_2.stage (cfg1.slots t 2)
abbrev stgWhole1_2 (t : Fin cfg1.N) : (stg1_2 t).IsWhole := hstage1_2 ((cfg1.slots t 2).cast nbuf1_2)
abbrev stg1_3 (t : Fin cfg1.N) : Memref sig .tc .vmem S256x1 .f32 := win1_3.stage (cfg1.slots t 3)
abbrev stgWhole1_3 (t : Fin cfg1.N) : (stg1_3 t).IsWhole := hstage1_3 ((cfg1.slots t 3).cast nbuf1_3)

/-- The row block's buffer holds row block i of z at every point, fetched there or not: unfetched, the block index has
    not moved, and the body leaves the block in place. -/
theorem before1_rows (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The column block's buffer holds row block j of z at every point. -/
theorem before1_cols (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Past the first column tile of a row block the degree column's buffer holds what the body left at the point before:
    the point is not the first, the buffer was not written back between (that happens after a last column tile only),
    the window is live and uncut. -/
theorem before1_deg_kept (c : Dev nD) (t : Fin cfg1.N) (h0 : ¬t.val % 16 = 0) (d) :
    (dat1 V c).before 3 t d = degAt V c (t.val - 1) (Nat.lt_of_le_of_lt (Nat.sub_le _ _) t.isLt) := by
  have hN : t.val < 256 := lt_of_lt_of_eq t.isLt (show cfg1.N = 256 from N_1)
  rw [Dat.before_out_kept _ 3 rfl t (by omega)
    (Bool.eq_false_iff.mpr fun h => by have := (flush1_3 _).mp h; dsimp only at this; omega)
    (fun _ => rfl) (fun _ _ => rfl)]
  rw [after1_3]

/-! ## The degree recursion at a point of each case -/

/-- At a first column tile: the zero column plus the tile's row sums. -/
theorem degAt1_first (c : Dev nD) (t : Fin cfg1.N) (h0 : t.val % 16 = 0) :
    degAt V c t.val t.isLt = k1_pay2 (tile1 V c t) (k1_pay4 (F := F)) := by
  obtain ⟨n, hn⟩ := t
  cases n with
  | zero => exact rfl
  | succ n => exact (if_pos h0).trans rfl

/-- At a middle column tile: the column the point before left plus the tile's row sums. -/
theorem degAt1_middle (c : Dev nD) (t : Fin cfg1.N) (h0 : ¬t.val % 16 = 0) (h1 : ¬t.val % 16 = 15) :
    degAt V c t.val t.isLt
      = k1_pay2 (tile1 V c t) (degAt V c (t.val - 1) (Nat.lt_of_le_of_lt (Nat.sub_le _ _) t.isLt)) := by
  obtain ⟨n, hn⟩ := t
  cases n with
  | zero => exact absurd (Nat.zero_mod _) h0
  | succ n => exact (if_neg h0).trans ((if_neg h1).trans rfl)

/-- At the last column tile: the inverse square root of that sum. -/
theorem degAt1_last (c : Dev nD) (t : Fin cfg1.N) (h1 : t.val % 16 = 15) :
    degAt V c t.val t.isLt
      = k1_pay3 (k1_pay2 (tile1 V c t) (degAt V c (t.val - 1) (Nat.lt_of_le_of_lt (Nat.sub_le _ _) t.isLt))) := by
  obtain ⟨n, hn⟩ := t
  cases n with
  | zero => exact absurd ((Nat.zero_mod 16).symm.trans h1) (by decide)
  | succ n =>
    have h0 : ¬(n + 1) % 16 = 0 := fun h => by dsimp only at h1; omega
    exact (if_neg h0).trans ((if_pos h1).trans rfl)

/-! ## The body obligation, at a generic point -/

/-- What the body is called with at point t: the invariant, what the core owes, and each window's current staging buffer
    at what the proof data says it then holds, -/
def bodyPre1 (c : Dev nD) (t : Fin cfg1.N) : sProp 𝕄 :=
  iprop((dat1 V c).Φ t.castSucc ∗ (dat1 V c).owesAt () t.castSucc
    ∗ (∃ d, owns (c : Thread nD τ) (stg1_0 t) fullShare ((dat1 V c).before 0 t d))
    ∗ (∃ d, owns (c : Thread nD τ) (stg1_1 t) fullShare ((dat1 V c).before 1 t d))
    ∗ (∃ d, owns (c : Thread nD τ) (stg1_2 t) fullShare ((dat1 V c).before 2 t d))
    ∗ (∃ d, owns (c : Thread nD τ) (stg1_3 t) fullShare ((dat1 V c).before 3 t d)))

/-- and what it returns: each buffer at what the proof data says the body leaves. -/
def bodyPost1 (c : Dev nD) (t : Fin cfg1.N) : sProp 𝕄 :=
  iprop((dat1 V c).Φ t.succ ∗ (dat1 V c).owesAt () t.succ
    ∗ owns (c : Thread nD τ) (stg1_0 t) fullShare ((dat1 V c).after 0 t)
    ∗ owns (c : Thread nD τ) (stg1_1 t) fullShare ((dat1 V c).after 1 t)
    ∗ owns (c : Thread nD τ) (stg1_2 t) fullShare ((dat1 V c).after 2 t)
    ∗ owns (c : Thread nD τ) (stg1_3 t) fullShare ((dat1 V c).after 3 t))

set_option maxHeartbeats 1600000 in
/-- The body at any point. The two input buffers hold their blocks; the position modulo 16 says which of the three cases
    the point is in; past a first column tile the degree column's buffer holds what the point before left; so that case's
    run applies, and what it leaves in each output buffer, read back, is the closed form the proof data names. The
    invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_rows, before1_cols]
  rw [show (dat1 V c).Φ t.succ = (dat1 V c).Φ t.castSucc from rfl,
    show (dat1 V c).owesAt () t.succ = (dat1 V c).owesAt () t.castSucc from rfl,
    after1_0, after1_1, after1_2, after1_3]
  have hN : t.val < 256 := lt_of_lt_of_eq t.isLt (show cfg1.N = 256 from N_1)
  by_cases h0 : t.val % 16 = 0
  · have h1 : ¬t.val % 16 = 15 := by omega
    rw [degAt1_first V c t h0]; unfold tile1
    iintro ⟨HΦ, Ho, ⟨%d0, H0⟩, ⟨%d1, H1⟩, ⟨%d2, H2⟩, ⟨%d3, H3⟩⟩
    iapply ((run1First c (grid1.coords t) (stg1_0 t) (stgWhole1_0 t) (stg1_1 t) (stgWhole1_1 t) (stg1_2 t) (stgWhole1_2 t) (stg1_3 t) (stgWhole1_3 t) ((cond1First_iff t).mpr h0) (fun h => h1 ((cond1Last_iff t).mp h)) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact read1First2 c (grid1.coords t) (stg1_0 t) (stgWhole1_0 t) (stg1_1 t) (stgWhole1_1 t) (stg1_2 t) (stgWhole1_2 t) (stg1_3 t) (stgWhole1_3 t) ((cond1First_iff t).mpr h0) (fun h => h1 ((cond1Last_iff t).mp h)) (iblk1 V c 0 t) (iblk1 V c 1 t) _ _
    unfold owns; iexists _; isplitr
    swap; · iexact H3
    ipureintro
    exact read1First3 c (grid1.coords t) (stg1_0 t) (stgWhole1_0 t) (stg1_1 t) (stgWhole1_1 t) (stg1_2 t) (stgWhole1_2 t) (stg1_3 t) (stgWhole1_3 t) ((cond1First_iff t).mpr h0) (fun h => h1 ((cond1Last_iff t).mp h)) (iblk1 V c 0 t) (iblk1 V c 1 t) _ _
  · by_cases h1 : t.val % 16 = 15
    · rw [degAt1_last V c t h1]; unfold tile1
      simp only [before1_deg_kept V c t h0]
      iintro ⟨HΦ, Ho, ⟨%d0, H0⟩, ⟨%d1, H1⟩, ⟨%d2, H2⟩, ⟨%d3, H3⟩⟩
      iapply ((run1Last c (grid1.coords t) (stg1_0 t) (stgWhole1_0 t) (stg1_1 t) (stgWhole1_1 t) (stg1_2 t) (stgWhole1_2 t) (stg1_3 t) (stgWhole1_3 t) (fun h => h0 ((cond1First_iff t).mp h)) ((cond1Last_iff t).mpr h1) (iblk1 V c 0 t) (iblk1 V c 1 t) (degAt V c (t.val - 1) (Nat.lt_of_le_of_lt (Nat.sub_le _ _) t.isLt))).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro
        exact read1Last2 c (grid1.coords t) (stg1_0 t) (stgWhole1_0 t) (stg1_1 t) (stgWhole1_1 t) (stg1_2 t) (stgWhole1_2 t) (stg1_3 t) (stgWhole1_3 t) (fun h => h0 ((cond1First_iff t).mp h)) ((cond1Last_iff t).mpr h1) (iblk1 V c 0 t) (iblk1 V c 1 t) (degAt V c (t.val - 1) (Nat.lt_of_le_of_lt (Nat.sub_le _ _) t.isLt)) _ _
      unfold owns; iexists _; isplitr
      swap; · iexact H3
      ipureintro
      exact read1Last3 c (grid1.coords t) (stg1_0 t) (stgWhole1_0 t) (stg1_1 t) (stgWhole1_1 t) (stg1_2 t) (stgWhole1_2 t) (stg1_3 t) (stgWhole1_3 t) (fun h => h0 ((cond1First_iff t).mp h)) ((cond1Last_iff t).mpr h1) (iblk1 V c 0 t) (iblk1 V c 1 t) (degAt V c (t.val - 1) (Nat.lt_of_le_of_lt (Nat.sub_le _ _) t.isLt)) _ _
    · rw [degAt1_middle V c t h0 h1]; unfold tile1
      simp only [before1_deg_kept V c t h0]
      iintro ⟨HΦ, Ho, ⟨%d0, H0⟩, ⟨%d1, H1⟩, ⟨%d2, H2⟩, ⟨%d3, H3⟩⟩
      iapply ((run1Middle c (grid1.coords t) (stg1_0 t) (stgWhole1_0 t) (stg1_1 t) (stgWhole1_1 t) (stg1_2 t) (stgWhole1_2 t) (stg1_3 t) (stgWhole1_3 t) (fun h => h0 ((cond1First_iff t).mp h)) (fun h => h1 ((cond1Last_iff t).mp h)) (iblk1 V c 0 t) (iblk1 V c 1 t) (degAt V c (t.val - 1) (Nat.lt_of_le_of_lt (Nat.sub_le _ _) t.isLt))).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro
        exact read1Middle2 c (grid1.coords t) (stg1_0 t) (stgWhole1_0 t) (stg1_1 t) (stgWhole1_1 t) (stg1_2 t) (stgWhole1_2 t) (stg1_3 t) (stgWhole1_3 t) (fun h => h0 ((cond1First_iff t).mp h)) (fun h => h1 ((cond1Last_iff t).mp h)) (iblk1 V c 0 t) (iblk1 V c 1 t) (degAt V c (t.val - 1) (Nat.lt_of_le_of_lt (Nat.sub_le _ _) t.isLt)) _ _
      unfold owns; iexists _; isplitr
      swap; · iexact H3
      ipureintro
      exact read1Middle3 c (grid1.coords t) (stg1_0 t) (stgWhole1_0 t) (stg1_1 t) (stgWhole1_1 t) (stg1_2 t) (stgWhole1_2 t) (stg1_3 t) (stgWhole1_3 t) (fun h => h0 ((cond1First_iff t).mp h)) (fun h => h1 ((cond1Last_iff t).mp h)) (iblk1 V c 0 t) (iblk1 V c 1 t) (degAt V c (t.val - 1) (Nat.lt_of_le_of_lt (Nat.sub_le _ _) t.isLt)) _ _

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KbSeg1.lean ====
/-
  Region 1 as a segment of the run: entered from every unscoped buffer at the contents the item before it left, it leaves
  them at those contents with its output arrays replaced by what its write-backs leave. Its windows' arrays are split out of
  the unscoped buffers on entry and put back on exit; the one array that two of its windows read is dealt to them at
  complementary halves of the full share, and joined again on exit; the generator register goes into the invariant and comes back;
  nothing is owed; the kernel has no semaphore of its own.
-/
import proofs.«126364_j5334349382038_1_alg».proof.Proof.KbRun
import proofs.«126364_j5334349382038_1_alg».proof.Proof.KbBody1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 1's arrays, listed. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3_0) ↦{fullShare} V main_v3_0) ∗ (((c : Thread nD τ).loc main_v3_1) ↦{fullShare} V main_v3_1)) := by
  unfold Pipeline.arrBufs
  exact bigSep_eq_bigSepL_of_eq [main_v2, main_v3_0, main_v3_1] (by decide) (by decide) _

/-- Region 1's arrays window by window: the two windows on z's array hold it at the two halves of the full share,
    the two output windows hold theirs whole. -/
theorem arrays1_eq (c : Dev nD)
    (G : (w : Fin cfg1.W) → Buf (Elt F) ((cfg1.win w).arr.view.loc (c : Thread nD τ))) :
    ((dat1 V c).arrays G : sProp 𝕄)
      = iprop((((c : Thread nD τ).loc main_v2) ↦{fullShare.left} G 0) ∗ (((c : Thread nD τ).loc main_v2) ↦{fullShare.right} G 1)
          ∗ (((c : Thread nD τ).loc main_v3_0) ↦{fullShare} G 2) ∗ (((c : Thread nD τ).loc main_v3_1) ↦{fullShare} G 3)) := by
  unfold Dat.arrays
  rw [Gen.bigSep_W1]
  rw [(Gen.arr_whole1 0).set_eq_univ, (Gen.arr_whole1 2).set_eq_univ, (Gen.arr_whole1 3).set_eq_univ]
  rfl

/-- A core's unscoped buffers are the buffers behind region 1's arrays and the rest. -/
theorem unscopedBufs1_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec1 c V
          ∗ Pipeline.unscopedRest (Ix := Unit) (Name := ℕ) (U := UR sig nD τ) (Lvl := ℕ) spec1 c V) :=
  Pipeline.unscopedBufs_split₀ cfgs 1 Gen.winFacts₀1.arr_unscoped c V

/-- ENTRY, the arrays' part: a core's unscoped buffers at contents V are region 1's arrays at the proof data's entry
    contents and the unscoped rest; the one array two windows read is dealt to them at the two halves of the full share. -/
theorem arrays1_of_unscopedBufs (c : Dev nD) :
    (unscopedBufs (Ix := Unit) (Name := ℕ) (U := UR sig nD τ) (Lvl := ℕ) c (V c) : sProp 𝕄)
      ⊢ iprop((dat1 V c).arrays (dat1 V c).A ∗ Pipeline.unscopedRest (Ix := Unit) (Name := ℕ) (U := UR sig nD τ) (Lvl := ℕ) spec1 c (V c)) := by
  rw [unscopedBufs1_split, arrBufs1_eq, arrays1_eq]
  iintro ⟨⟨Hz, Ha, Hd⟩, Hrest⟩
  ihave Hz2 := (pointsTo_share (PosShare.mem_left_op_right fullShare)).1 $$ Hz
  icases Hz2 with ⟨Hl, Hr⟩
  isplitr [Hrest]
  · isplitl [Hl]; · iexact Hl
    isplitl [Hr]; · iexact Hr
    isplitl [Ha]; · iexact Ha
    iexact Hd
  iexact Hrest

/-- EXIT, the arrays' part: region 1's arrays at contents G and the unscoped rest at V₀ are the core's unscoped buffers at
    any contents V' that has the arrays at G and agrees with V₀ off them; the two halves of the shared array, at the
    same contents, join to its full share. -/
theorem unscopedBufs_of_arrays1 (c : Dev nD) (V₀ V' : (b : Ref sig .tc) → Buf (Elt F) ((c : Thread nD τ).loc b))
    (G : (w : Fin cfg1.W) → Buf (Elt F) ((cfg1.win w).arr.view.loc (c : Thread nD τ)))
    (h0 : G 0 = V' main_v2) (h1 : G 1 = V' main_v2) (h2 : G 2 = V' main_v3_0) (h3 : G 3 = V' main_v3_1)
    (hrest : ∀ b, b ∉ Finset.univ.image (Pipeline.arrRef spec1) → V' b = V₀ b) :
    iprop((dat1 V c).arrays G ∗ Pipeline.unscopedRest (Ix := Unit) (Name := ℕ) (U := UR sig nD τ) (Lvl := ℕ) spec1 c V₀)
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec1 c V₀ : sProp 𝕄)
      = Pipeline.unscopedRest (Ix := Unit) (Name := ℕ) (U := UR sig nD τ) (Lvl := ℕ) spec1 c V' := by
    unfold Pipeline.unscopedRest
    exact bigSep_congr fun b hb => by rw [hrest b (Finset.mem_sdiff.mp hb).2]
  rw [unscopedBufs1_split, arrBufs1_eq, arrays1_eq, h0, h1, h2, h3, hr]
  iintro ⟨⟨Hl, Hr, Ha, Hd⟩, Hrest⟩
  isplitr [Hrest]
  · isplitl [Hl Hr]
    · iapply (pointsTo_share (PosShare.mem_left_op_right fullShare)).2
      isplitl [Hl]; · iexact Hl
      iexact Hr
    isplitl [Ha]; · iexact Ha
    iexact Hd
  iexact Hrest

variable (m : (ℓ : Loc nD τ sig) → Buf (Elt F) ℓ)

/-- Region 1 leaves z's array as it found it, -/
theorem W3_v2 (c : Dev nD) : W3 m c (Proc.devRef .tc main_v2) = W2 m c (Proc.devRef .tc main_v2) := by
  show Function.update (Function.update (W2 m c) _ _) _ _ _ = _
  rw [Function.update_of_ne (StableHlo.devRef_ne_of_ne (by decide)), Function.update_of_ne (StableHlo.devRef_ne_of_ne (by decide))]
/-- the adjacency's array at what its write-backs leave, -/
theorem W3_v3_0 (c : Dev nD) : W3 m c (Proc.devRef .tc main_v3_0) = adjOut m c := by
  show Function.update (Function.update (W2 m c) _ _) _ _ _ = _
  rw [Function.update_of_ne (StableHlo.devRef_ne_of_ne (by decide)), Function.update_self]
/-- the degree column's array at what its write-backs leave, -/
theorem W3_v3_1 (c : Dev nD) : W3 m c (Proc.devRef .tc main_v3_1) = degOut m c := by
  show Function.update (Function.update (W2 m c) _ _) _ _ _ = _
  rw [Function.update_self]
/-- and every buffer that is no array of its windows as it found it. -/
theorem W3_rest (c : Dev nD) (b : Ref sig .tc) (hb : b ∉ Finset.univ.image (Pipeline.arrRef spec1)) :
    W3 m c (Proc.devRef .tc b) = W2 m c (Proc.devRef .tc b) := by
  have h30 : b ≠ main_v3_0 := fun e => hb (Finset.mem_image.mpr ⟨2, Finset.mem_univ _, e.symm⟩)
  have h31 : b ≠ main_v3_1 := fun e => hb (Finset.mem_image.mpr ⟨3, Finset.mem_univ _, e.symm⟩)
  show Function.update (Function.update (W2 m c) _ _) _ _ _ = _
  rw [Function.update_of_ne (StableHlo.devRef_ne_of_ne h31), Function.update_of_ne (StableHlo.devRef_ne_of_ne h30)]

set_option backward.isDefEq.respectTransparency.types false in
/-- Region 1 over the thread state. -/
def reg1 : Pipeline.RegionSeg (pcfgs (F := F)) Gen.adm (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := TS (W2 m) c
  post c := TS (W3 m) c
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := arrays1_of_unscopedBufs (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (E2 m) c (E2 m c) (E3 m c) ((dat1 (E2 m) c).arrAt · cfg1.N)
      (((dat1 (E2 m) c).arrAt_in 0 rfl _).trans (W3_v2 m c).symm)
      (((dat1 (E2 m) c).arrAt_in 1 rfl _).trans (W3_v2 m c).symm)
      (W3_v3_0 m c).symm (W3_v3_1 m c).symm (W3_rest m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.Kernel.Hand

end
-- ==== Proof.KbBody2.lean ====
/-
  Region 2's body obligation: at every grid point the kernel body, started from the invariant and its windows' current
  staging buffers at what the proof data says they hold, ends with each buffer at what the proof data says it leaves.
  The body loads the adjacency tile and the two degree blocks, and stores (row scale · tile) · column scale over the
  whole output tile.
-/
import proofs.«126364_j5334349382038_1_alg».proof.Proof.KbData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- The offsets of every rectangle the body touches are the zero offsets. -/
theorem origin2 : (![0, 0] : Fin 2 → Nat) = fun _ => 0 := funext fun a => by fin_cases a <;> rfl

/-- The adjacency tile sits in window 0's current staging buffer at every point: the body leaves it in place. -/
theorem holds2_adj (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The degree block of the tile's rows sits in window 1's staging buffer at every point: fetched when the row block
    changes, its block index does not move in between and the body leaves it in place. -/
theorem holds2_row (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The degree block of the tile's columns sits in window 2's current staging buffer at every point. -/
theorem holds2_col (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's triple -/

set_option maxHeartbeats 1000000 in
/-- The body on whole staging memrefs, the three inputs at contents a (tile), r (row degrees) and s (column degrees)
    and the output at anything, runs to the continuation holding the inputs as they were and the output at the scaled
    tile's payload of a, r and s: its one store covers the whole tile, so the tile afterwards is the stored payload,
    and each load through the whole block reads the contents. -/
theorem scale_triple (c : Dev nD) (E : Set ℕ) (i : grid2.Coords)
    (a2 : Memref sig .tc .vmem S512x512 .f32) (ha2 : a2.IsWhole)
    (a3 : Memref sig .tc .vmem S512x1 .f32) (ha3 : a3.IsWhole)
    (a4 : Memref sig .tc .vmem S512x1 .f32) (ha4 : a4.IsWhole)
    (a5 : Memref sig .tc .vmem S512x512 .f32) (ha5 : a5.IsWhole)
    (a : Vec F S512x512 .f32) (r : Vec F S512x1 .f32) (s : Vec F S512x1 .f32) (K : PUnit → sProp 𝕄) :
    iprop(owns (c : Thread nD τ) a2 fullShare a ∗ owns (c : Thread nD τ) a3 fullShare r
        ∗ owns (c : Thread nD τ) a4 fullShare s
        ∗ (∃ d, owns (c : Thread nD τ) a5 fullShare d)
        ∗ (iprop(owns (c : Thread nD τ) a2 fullShare a ∗ owns (c : Thread nD τ) a3 fullShare r
            ∗ owns (c : Thread nD τ) a4 fullShare s
            ∗ owns (c : Thread nD τ) a5 fullShare (k2_pay1 a r s)) -∗ K ⟨⟩))
      ⊢ wp frame (wpE (defs₀ (F := F)) Variants.none c none) E (cc2__k3 i a2 ha2 a3 ha3 a4 ha4 a5 ha5) K := by
  simp only [cc2__k3_eq_skeleton]; unfold cc2__k3_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _
    (fun y => ⟨_, List.mem_singleton_self _, View.mem_set_unit_zero origin2 inb_S512x512_S512x512_0_0 y⟩)).trans ?_
  rw [View.canon_unit_zero origin2]
  simp only [View.readAt_eq_ld, View.ld_unit_zero (S := S512x512) origin2, View.ld_unit_zero (S := S512x1) origin2]

/-! ## The body obligation, at a generic point -/

/-- What the body is called with at point t: the invariant, what the core owes, and each window's current staging
    buffer at what it then holds. -/
def enter2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns: the same invariant and debt, each buffer at what the body leaves. -/
def leave2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the triple applies at those blocks; the invariant
    and the debt pass through unread. -/
theorem body_at2 (c : Dev nD) (t : Fin cfg2.N) :
    enter2 V c t ⊢ wp frame (wpE (defs₀ (F := F)) Variants.none c none) Set.univ (bodyAt2 t) (fun _ => leave2 V c t) := by
  unfold enter2 leave2 bodyAt2
  simp only [holds2_adj, holds2_row, holds2_col]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (scale_triple c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 2, at every point. -/
theorem body_obligation2 (c : Dev nD) : BodyObligation (dat2 (F := F) V c) (defs₀ (F := F)) Variants.none () Set.univ := by
  intro t
  rw [bigSep_W2, bigSep_W2]
  exact body_at2 V c t

end Cert.Kernel.Hand

end
-- ==== Proof.KbSeg2.lean ====
/-
  Region 2 as a segment of the run: entered from every unscoped buffer at the contents the item before it left, it leaves
  them at those contents with its output arrays replaced by what its write-backs leave. Its windows' arrays are split out of
  the unscoped buffers on entry and put back on exit; the one array that two of its windows read is dealt to them at
  complementary halves of the full share, and joined again on exit; the generator register goes into the invariant and comes back;
  nothing is owed; the kernel has no semaphore of its own.
-/
import proofs.«126364_j5334349382038_1_alg».proof.Proof.KbRun
import proofs.«126364_j5334349382038_1_alg».proof.Proof.KbBody2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 2's arrays among a core's unscoped buffers

Four windows stand on three buffers: the adjacency (window 0), the degree column (windows 1 and 2, its row block and
its column block) and the normalised adjacency (window 3, the output). The proof data holds the degree column at
the left half of the full share for window 1 and at the right half for window 2; the two halves compose to the
full share, so the buffer is dealt to the two windows on entry and the two parts, at equal contents, rejoin on exit. -/

section Arrays

variable (B : (c : Dev nD) → (b : Ref sig .tc) → Buf (Elt F) ((c : Thread nD τ).loc b))

/-- The buffers behind region 2's windows, each once. -/
theorem reg2_arrBufs_eq (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      = iprop((((c : Thread nD τ).loc main_v3_0) ↦{fullShare} X main_v3_0)
          ∗ (((c : Thread nD τ).loc main_v3_1) ↦{fullShare} X main_v3_1)
          ∗ (((c : Thread nD τ).loc main_v4) ↦{fullShare} X main_v4)) := by
  unfold Pipeline.arrBufs
  exact bigSep_eq_bigSepL_of_eq [main_v3_0, main_v3_1, main_v4] (by decide) (by decide) _

/-- The proof data's arrays window by window, each a whole buffer at its window's share. -/
theorem reg2_arrays_eq (c : Dev nD)
    (G : (w : Fin cfg2.W) → Buf (Elt F) ((cfg2.win w).arr.view.loc (c : Thread nD τ))) :
    ((dat2 B c).arrays G : sProp 𝕄)
      = iprop((((c : Thread nD τ).loc main_v3_0) ↦{fullShare} G 0)
          ∗ (((c : Thread nD τ).loc main_v3_1) ↦{fullShare.left} G 1)
          ∗ (((c : Thread nD τ).loc main_v3_1) ↦{fullShare.right} G 2)
          ∗ (((c : Thread nD τ).loc main_v4) ↦{fullShare} G 3)) := by
  unfold Dat.arrays
  rw [Gen.bigSep_W2]
  rw [(Gen.arr_whole2 0).set_eq_univ, (Gen.arr_whole2 1).set_eq_univ, (Gen.arr_whole2 3).set_eq_univ]
  rfl

/-- A core's unscoped buffers are those three buffers and the rest. -/
theorem reg2_unscopedBufs_split (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs (Ix := Unit) (Name := ℕ) (U := UR sig nD τ) (Lvl := ℕ) spec2 c X
          ∗ Pipeline.unscopedRest (Ix := Unit) (Name := ℕ) (U := UR sig nD τ) (Lvl := ℕ) spec2 c X) :=
  Pipeline.unscopedBufs_split₀ cfgs 2 Gen.winFacts₀2.arr_unscoped c X

/-- Entry: a core's unscoped buffers at the contents the region is entered from are the proof data's arrays at their
    entry contents beside the rest, the degree column's full share cut in its two halves. -/
theorem reg2_arrays_of_unscopedBufs (c : Dev nD) :
    (unscopedBufs (Ix := Unit) (Name := ℕ) (U := UR sig nD τ) (Lvl := ℕ) c (B c) : sProp 𝕄)
      ⊢ iprop((dat2 B c).arrays (dat2 B c).A
          ∗ Pipeline.unscopedRest (Ix := Unit) (Name := ℕ) (U := UR sig nD τ) (Lvl := ℕ) spec2 c (B c)) := by
  rw [reg2_unscopedBufs_split, reg2_arrBufs_eq, reg2_arrays_eq]
  iintro ⟨⟨Hadj, Hdeg, Hout⟩, Hoff⟩
  ihave Hhalves := (pointsTo_share (PosShare.mem_left_op_right fullShare)).1 $$ Hdeg
  icases Hhalves with ⟨Hrow, Hcol⟩
  isplitr [Hoff]
  · isplitl [Hadj]; · iexact Hadj
    isplitl [Hrow]; · iexact Hrow
    isplitl [Hcol]; · iexact Hcol
    iexact Hout
  iexact Hoff

/-- Exit: the arrays at contents G beside the rest at contents X₀ are the core's unscoped buffers at any contents X₁ that
    holds G at the arrays (the two windows on the degree column at one and the same contents, so that the halves
    join) and X₀ everywhere else. -/
theorem reg2_unscopedBufs_of_arrays (c : Dev nD) (X₀ X₁ : (b : Ref sig .tc) → Buf (Elt F) ((c : Thread nD τ).loc b))
    (G : (w : Fin cfg2.W) → Buf (Elt F) ((cfg2.win w).arr.view.loc (c : Thread nD τ)))
    (hadj : G 0 = X₁ main_v3_0) (hrow : G 1 = X₁ main_v3_1) (hcol : G 2 = X₁ main_v3_1) (hout : G 3 = X₁ main_v4)
    (hoff : ∀ b, b ∉ Finset.univ.image (Pipeline.arrRef spec2) → X₁ b = X₀ b) :
    iprop((dat2 B c).arrays G ∗ Pipeline.unscopedRest (Ix := Unit) (Name := ℕ) (U := UR sig nD τ) (Lvl := ℕ) spec2 c X₀)
      ⊢ (unscopedBufs (Ix := Unit) (Name := ℕ) (U := UR sig nD τ) (Lvl := ℕ) c X₁ : sProp 𝕄) := by
  have hrest : (Pipeline.unscopedRest (Ix := Unit) (Name := ℕ) (U := UR sig nD τ) (Lvl := ℕ) spec2 c X₀ : sProp 𝕄)
      = Pipeline.unscopedRest (Ix := Unit) (Name := ℕ) (U := UR sig nD τ) (Lvl := ℕ) spec2 c X₁ := by
    unfold Pipeline.unscopedRest
    exact bigSep_congr fun b hb => by rw [hoff b (Finset.mem_sdiff.mp hb).2]
  rw [reg2_unscopedBufs_split, reg2_arrBufs_eq, reg2_arrays_eq, hadj, hrow, hcol, hout, hrest]
  iintro ⟨⟨Hadj, Hrow, Hcol, Hout⟩, Hoff⟩
  isplitr [Hoff]
  · isplitl [Hadj]; · iexact Hadj
    isplitl [Hrow Hcol]
    · iapply (pointsTo_share (PosShare.mem_left_op_right fullShare)).2
      isplitl [Hrow]; · iexact Hrow
      iexact Hcol
    iexact Hout
  iexact Hoff

end Arrays

variable (m : (ℓ : Loc nD τ sig) → Buf (Elt F) ℓ)

/-! ## The exit contents at region 2's arrays and off them -/

/-- The update at the output array leaves the adjacency's array alone, -/
theorem reg2_exit_adj (c : Dev nD) : E3 m c main_v3_0 = W4 m c main_v3_0 :=
  (Function.update_of_ne (f := W3 m c) (StableHlo.devRef_ne_of_ne (by decide)) (nrmOut m c)).symm
/-- and the degree column's; -/
theorem reg2_exit_deg (c : Dev nD) : E3 m c main_v3_1 = W4 m c main_v3_1 :=
  (Function.update_of_ne (f := W3 m c) (StableHlo.devRef_ne_of_ne (by decide)) (nrmOut m c)).symm
/-- at the output array it is what the write-backs leave there; -/
theorem reg2_exit_out (c : Dev nD) : nrmOut m c = W4 m c main_v4 :=
  (Function.update_self (Proc.devRef .tc main_v4 : DevRef τ sig) (nrmOut m c) (W3 m c)).symm
/-- and it leaves every buffer that is no array of the region alone. -/
theorem reg2_exit_off (c : Dev nD) (b : Ref sig .tc) (hb : b ∉ Finset.univ.image (Pipeline.arrRef spec2)) :
    W4 m c b = E3 m c b :=
  Function.update_of_ne (f := W3 m c) (StableHlo.devRef_ne_of_ne fun e =>
    hb (Finset.mem_image.mpr ⟨3, Finset.mem_univ _, e.symm⟩)) (nrmOut m c)

set_option backward.isDefEq.respectTransparency.types false in
/-- Region 2 over the thread state. -/
def reg2 : Pipeline.RegionSeg (pcfgs (F := F)) Gen.adm (pdats m) () defs₀ 𝒱₀ L lv 2 where
  win := Gen.winFacts₀2
  block_pos := Gen.block_pos2
  stage_whole := Gen.stage_whole2
  K := PEmpty
  osem k := k.elim
  ho := Pipeline.OwnSemFacts.none _
  hbody c := (body_obligation2 (E3 m) c).loose
  hwaits := Pipeline.hwaits_of_owed_zero _ _ _ _ L lv 2 fun _ _ => rfl
  pre c := TS (W3 m) c
  post c := TS (W4 m) c
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hdeal := reg2_arrays_of_unscopedBufs (E3 m) c
    rw [Pipeline.unscopedBufs_held] at hdeal
    iintro ⟨⟨Hbufs, Hreg, Howes⟩, -, -⟩
    ihave H := hdeal $$ Hbufs
    icases H with ⟨Harr, Hoff⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hoff
  hin c := by
    rw [show (pdats m 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    have hjoin : iprop((pdats m 2 c).arrays ((pdats m 2 c).arrAt · cfg2.N)
          ∗ Pipeline.unscopedRest (Ix := Unit) (Name := ℕ) (U := UR sig nD τ) (Lvl := ℕ) spec2 c (E3 m c))
        ⊢ (unscopedBufs (Ix := Unit) (Name := ℕ) (U := UR sig nD τ) (Lvl := ℕ) c (fun b => W4 m c b) : sProp 𝕄) :=
      reg2_unscopedBufs_of_arrays (E3 m) c (E3 m c) (fun b => W4 m c b) ((dat2 (E3 m) c).arrAt · cfg2.N)
      (((dat2 (E3 m) c).arrAt_in 0 rfl _).trans (reg2_exit_adj m c))
      (((dat2 (E3 m) c).arrAt_in 1 rfl _).trans (reg2_exit_deg m c))
      (((dat2 (E3 m) c).arrAt_in 2 rfl _).trans (reg2_exit_deg m c))
      (reg2_exit_out m c) (reg2_exit_off m c)
    rw [Pipeline.unscopedBufs_held] at hjoin
    iintro ⟨Harr, Howes, Hreg, Hoff⟩
    imodintro
    isplitl [Harr Hoff]
    · iapply hjoin; isplitl [Harr] <;> iassumption
    isplitl [Hreg]; · iexact Hreg
    unfold Pipeline.Dat.owesAt Pipeline.owesWithin
    icases Howes with ⟨%W, -, Howes⟩; iexists W; iexact Howes

end Cert.Kernel.Hand

end
-- ==== Proof.KbSegs.lean ====
/-
  The whole run of the program: the host stretch, then the three kernel regions in order, each entered from the buffer
  contents the item before it left; at the end every unscoped buffer is read back off the last contents.
-/
import proofs.«126364_j5334349382038_1_alg».proof.Proof.KbSeg0
import proofs.«126364_j5334349382038_1_alg».proof.Proof.KbSeg1
import proofs.«126364_j5334349382038_1_alg».proof.Proof.KbSeg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The last contents read at the results and at the arguments -/

/-- An unscoped reference of the core is among those the thread state holds. -/
private theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The normalised adjacency's array ends at what region 2 leaves: the last update is at it. -/
private theorem W4_v4 (c : Dev nD) : W4 m c main_v4 = nrmOut m c :=
  Function.update_self (Proc.devRef .tc main_v4 : DevRef τ sig) (nrmOut m c) (W3 m c)

/-- The adjacency's array ends at what region 1 leaves: region 2's update and the degree column's are elsewhere. -/
private theorem W4_v3_0 (c : Dev nD) : W4 m c main_v3_0 = adjOut m c :=
  (Function.update_of_ne (f := W3 m c) (StableHlo.devRef_ne_of_ne (by decide)) (nrmOut m c)).trans <|
    (Function.update_of_ne (f := Function.update (W2 m c) main_v3_0 (adjOut m c)) (StableHlo.devRef_ne_of_ne (by decide)) (degOut m c)).trans <|
      Function.update_self (Proc.devRef .tc main_v3_0 : DevRef τ sig) (adjOut m c) (W2 m c)

/-- A buffer no region's update is at and the host stretch does not write ends as launched. -/
private theorem W4_of (c : Dev nD) (r : Ref sig .tc) (h4 : r ≠ main_v4) (h31 : r ≠ main_v3_1) (h30 : r ≠ main_v3_0) (h2 : r ≠ main_v2)
    (hh : r ∉ Gen.hostOps0_W) : W4 m c r = m ((c.tc : Thread nD τ).loc r) :=
  (Function.update_of_ne (f := W3 m c) (StableHlo.devRef_ne_of_ne h4) (nrmOut m c)).trans <|
    (Function.update_of_ne (f := Function.update (W2 m c) main_v3_0 (adjOut m c)) (StableHlo.devRef_ne_of_ne h31) (degOut m c)).trans <|
      (Function.update_of_ne (f := W2 m c) (StableHlo.devRef_ne_of_ne h30) (adjOut m c)).trans <|
        (Function.update_of_ne (f := W1 m c) (StableHlo.devRef_ne_of_ne h2) (zOut m c)).trans <|
          (Gen.V1_of m c r hh).trans rfl

/-! ## The program as its items, and the launch -/

/-- The program's four items in order: the host stretch from the launch contents, then the three regions. -/
private abbrev runSegs : List (Pipeline.Seg (pcfgs (F := F)) Gen.adm (pdats m) () defs₀ 𝒱₀ L lv) :=
  [ .host (Gen.seg0 m 𝒱₀ L lv (fun _ => R)),
    .region (reg0 m),
    .region (reg1 m),
    .region (reg2 m) ]

set_option backward.isDefEq.respectTransparency.types false in
/-- Every weakly fair execution of the program terminates, faulting nowhere, with the two results at what regions 2 and 1
    leave and the two arguments as launched. -/
theorem run_all : θ_run defs (onTc (τ := τ) (main (F := F))) ⟨m, fun _ => 0, ρ⟩ (fun r => ∀ c : Dev nD,
      r.2.mem ((c.tc : Thread nD τ).loc main_v4) = nrmOut m c
      ∧ r.2.mem ((c.tc : Thread nD τ).loc main_v3_0) = adjOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) Gen.adm (pdats m) () Gen.cellOf_inj emb₁ defs₀ 𝒱₀ L lv m ρ main (runSegs m)
    (fun c Q => by
      rewrite [Gen.main_chain c, Pipeline.Seg.run_eq_chain,
        show (runSegs m).map Pipeline.Seg.prog = [
          StableHlo.seq Gen.hostOps0,
          Prog.lift (.customCall (Pipeline.entry 0) ()),
          Prog.lift (.customCall (Pipeline.entry 1) ()),
          Prog.lift (.customCall (Pipeline.entry 2) ()) ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => TS (fun c => Gen.V0 m c) c)
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show TS (W4 m) c ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v4 (by decide))).trans (W4_v4 m c),
       (h c _ (mem_uc main_v3_0 (by decide))).trans (W4_v3_0 m c),
       (h c _ (mem_uc main_arg0 (by decide))).trans (W4_of m c main_arg0 (by decide) (by decide) (by decide) (by decide) (by decide)),
       (h c _ (mem_uc main_arg1 (by decide))).trans (W4_of m c main_arg1 (by decide) (by decide) (by decide) (by decide) (by decide))⟩)

end Cert.Kernel.Hand

end
-- ==== Proof.KiData.lean ====
/-
  The proof data of the three kernel regions, each at the buffer contents V its region is entered from.
  Region 0 (z = x·p): a point's output block is the product of its row block of x with all of p.
  Region 1 (adjacency and degree): a point (i, j) holds row block i and row block j of z; its adjacency tile is
    exp of the distance chain of the two blocks; the degree column of row block i is carried across j: zero plus the
    tile's row sums at j = 0, the previous column plus the row sums after, and at the last j the inverse square root
    of that sum.
  Region 2 (normalisation): a point's output tile is (row scale · tile) · column scale, the two scales two blocks of
    the one degree column.
  The two windows that read one array hold it at complementary halves of the full share.
-/
import proofs.«126364_j5334349382038_1_alg».proof.Proof.Gen.KernelIdeal.Launch
import proofs.«126364_j5334349382038_1_alg».proof.Proof.Gen.KernelIdeal.Skeleton
import proofs.«126364_j5334349382038_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window w's block at point t of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the inputs stay at their blocks, the output block is the product's payload of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay1 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay1 (iblk0 V c 0 t) (iblk0 V c 1 t) := by dsimp only [dat0]

/-! ## Region 1 -/

/-- Window w's block at point t of region 1. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The exponent tile of point t: minus the distance between the rows of its two blocks. -/
def tile1 (c : Dev nD) (t : Fin cfg1.N) : FVec F S256x256 .f32 :=
  k1_pay5 (grid1.coords t) (iblk1 V c 0 t) (iblk1 V c 1 t)

/-- The degree column's staging contents after position n: reset-and-add at the first column tile of a row block,
    add after, and at the last column tile the inverse square root of the sum. -/
def degAt (c : Dev nD) : (n : ℕ) → n < cfg1.N → Vec F S256x1 .f32
  | 0, hn => k1_pay2 (tile1 V c ⟨0, hn⟩) (k1_pay4 (F := F))
  | n + 1, hn =>
    if (n + 1) % 16 = 0 then k1_pay2 (tile1 V c ⟨n + 1, hn⟩) (k1_pay4 (F := F))
    else if (n + 1) % 16 = 15 then k1_pay3 (k1_pay2 (tile1 V c ⟨n + 1, hn⟩) (degAt c n (Nat.lt_of_succ_lt hn)))
    else k1_pay2 (tile1 V c ⟨n + 1, hn⟩) (degAt c n (Nat.lt_of_succ_lt hn))

/-- Region 1's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (tile1 V c t)
    | ⟨3, _⟩ => degAt V c t.val t.isLt
  Φ _ := Pipeline.ΦA spec1 c
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (tile1 V c t) := by dsimp only [dat1]
theorem after1_3 (c : Dev nD) (t : Fin cfg1.N) : (dat1 V c).after 3 t = degAt V c t.val t.isLt := by dsimp only [dat1]

/-! ## Region 2 -/

/-- Window w's block at point t of region 2. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 2's proof data. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay1 (iblk2 V c 0 t) (iblk2 V c 1 t) (iblk2 V c 2 t)
  Φ _ := Pipeline.ΦA spec2 c
  q w := match w with
    | ⟨0, _⟩ => fullShare
    | ⟨1, _⟩ => fullShare.left
    | ⟨2, _⟩ => fullShare.right
    | ⟨3, _⟩ => fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay1 (iblk2 V c 0 t) (iblk2 V c 1 t) (iblk2 V c 2 t) := by dsimp only [dat2]

end Cert.KernelIdeal.Hand

end
-- ==== Proof.KiRun.lean ====
/-
  What the run is stated over: the buffer contents between the program's items, the proof-data family of the three
  regions (each at its own entry contents), and the thread state that rides beside the buffers.
  Between items every unscoped buffer is held whole: at launch the memory; after the host stretch its two casts; after each
  region that region's output arrays at what its write-backs leave.
-/
import proofs.«126364_j5334349382038_1_alg».proof.Proof.KiData
import proofs.«126364_j5334349382038_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffer contents between items -/

/-- After the host stretch (region 0's entry). -/
abbrev W1 (c : Dev nD) : Valuation τ sig (Elt F) := Gen.V1 m c
abbrev E1 (c : Dev nD) (b : Ref sig .tc) : Buf (Elt F) ((c : Thread nD τ).loc b) := W1 m c b
/-- What region 0 leaves in z's array. -/
def zOut (c : Dev nD) : Buf (Elt F) ((c : Thread nD τ).loc main_v2) := (dat0 (E1 m) c).arrAt 2 cfg0.N
/-- After region 0 (region 1's entry). -/
abbrev W2 (c : Dev nD) : Valuation τ sig (Elt F) := Function.update (W1 m c) main_v2 (zOut m c)
abbrev E2 (c : Dev nD) (b : Ref sig .tc) : Buf (Elt F) ((c : Thread nD τ).loc b) := W2 m c b
/-- What region 1 leaves in the adjacency's and the degree column's arrays. -/
def adjOut (c : Dev nD) : Buf (Elt F) ((c : Thread nD τ).loc main_v3_0) := (dat1 (E2 m) c).arrAt 2 cfg1.N
def degOut (c : Dev nD) : Buf (Elt F) ((c : Thread nD τ).loc main_v3_1) := (dat1 (E2 m) c).arrAt 3 cfg1.N
/-- After region 1 (region 2's entry). -/
abbrev W3 (c : Dev nD) : Valuation τ sig (Elt F) :=
  Function.update (Function.update (W2 m c) main_v3_0 (adjOut m c)) main_v3_1 (degOut m c)
abbrev E3 (c : Dev nD) (b : Ref sig .tc) : Buf (Elt F) ((c : Thread nD τ).loc b) := W3 m c b
/-- What region 2 leaves in the normalised adjacency's array. -/
def nrmOut (c : Dev nD) : Buf (Elt F) ((c : Thread nD τ).loc main_v4) := (dat2 (E3 m) c).arrAt 3 cfg2.N
/-- After region 2 (the end). -/
abbrev W4 (c : Dev nD) : Valuation τ sig (Elt F) := Function.update (W3 m c) main_v4 (nrmOut m c)

/-! ## The proof-data family and the thread state -/

/-- Every pipeline's proof data, each at its region's entry contents: a literal match on the pipeline. -/
def pdats : (p : Fin 3) → (c : Dev nD) → Dat τ (Elt F) Unit ℕ (UR sig nD τ) ℕ (Pipeline.pin (pcfgs (F := F)) Gen.adm p) c
  | ⟨0, _⟩ => fun c => dat0 (E1 m) c
  | ⟨1, _⟩ => fun c => dat1 (E2 m) c
  | ⟨2, _⟩ => fun c => dat2 (E3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its owing nothing. -/
abbrev R (c : Dev nD) : sProp 𝕄 := iprop((∃ r, prngReg c r) ∗ ∃ W, owes (c : Thread nD τ) (0 : CellTallies nD τ sig Unit) W)
/-- The thread state between items: every unscoped buffer held at the contents W, beside R. -/
abbrev TS (W : Dev nD → Valuation τ sig (Elt F)) (c : Dev nD) : sProp 𝕄 :=
  iprop(StableHlo.held (c : Thread nD τ) (Pipeline.ucRefs τ sig) (W c) ∗ R c)

end Cert.KernelIdeal.Hand

end
-- ==== Proof.KiBody0.lean ====
/-
  Region 0's body obligation: at every grid point the kernel body, started from the invariant and its windows' current
  staging buffers at what the proof data says they hold, ends with each buffer at what the proof data says it leaves.
  The body loads the row block of x and all of p, and stores the rounded product over the whole output block.
-/
import proofs.«126364_j5334349382038_1_alg».proof.Proof.KiData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- The offsets of every rectangle the body touches are the zero offsets. -/
theorem origin0 : (![0, 0] : Fin 2 → Nat) = fun _ => 0 := funext fun a => by fin_cases a <;> rfl

/-- The row block of x sits in window 0's current staging buffer at every point: the body leaves it in place,
    so what was fetched last is still there. -/
theorem holds0_x (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- All of p sits in window 1's staging buffer at every point: fetched at the first point, its block index never
    moves and the body leaves it in place. -/
theorem holds0_p (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! ## The body's triple -/

set_option maxHeartbeats 1000000 in
/-- The body on whole staging memrefs, the two inputs at contents x and p and the output at anything, runs to the
    continuation holding the inputs as they were and the output at the product's payload of x and p: its one store
    covers the whole block, so the block afterwards is the stored payload, and each load through the whole block
    reads the contents. -/
theorem product_triple (c : Dev nD) (E : Set ℕ) (i : grid0.Coords)
    (a1 : Memref sig .tc .vmem S512x2048 .bf16) (ha1 : a1.IsWhole)
    (a2 : Memref sig .tc .vmem S2048x2048 .bf16) (ha2 : a2.IsWhole)
    (a3 : Memref sig .tc .vmem S512x2048 .bf16) (ha3 : a3.IsWhole)
    (x : Vec F S512x2048 .bf16) (p : Vec F S2048x2048 .bf16) (K : PUnit → sProp 𝕄) :
    iprop(owns (c : Thread nD τ) a1 fullShare x ∗ owns (c : Thread nD τ) a2 fullShare p
        ∗ (∃ d, owns (c : Thread nD τ) a3 fullShare d)
        ∗ (iprop(owns (c : Thread nD τ) a1 fullShare x ∗ owns (c : Thread nD τ) a2 fullShare p
            ∗ owns (c : Thread nD τ) a3 fullShare (k0_pay1 x p)) -∗ K ⟨⟩))
      ⊢ wp frame (wpE (defs₀ (F := F)) Variants.none c none) E (cc0__k1 i a1 ha1 a2 ha2 a3 ha3) K := by
  simp only [cc0__k1_eq_skeleton]; unfold cc0__k1_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _
    (fun y => ⟨_, List.mem_singleton_self _, View.mem_set_unit_zero origin0 inb_S512x2048_S512x2048_0_0 y⟩)).trans ?_
  rw [View.canon_unit_zero origin0]
  simp only [View.readAt_eq_ld, View.ld_unit_zero (S := S512x2048) origin0, View.ld_unit_zero (S := S2048x2048) origin0]

/-! ## The body obligation, at a generic point -/

/-- What the body is called with at point t: the invariant, what the core owes, and each window's current staging
    buffer at what it then holds. -/
def enter0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- What it returns: the same invariant and debt, each buffer at what the body leaves. -/
def leave0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so the triple applies at those blocks; the invariant
    and the debt pass through unread. -/
theorem body_at0 (c : Dev nD) (t : Fin cfg0.N) :
    enter0 V c t ⊢ wp frame (wpE (defs₀ (F := F)) Variants.none c none) Set.univ (bodyAt0 t) (fun _ => leave0 V c t) := by
  unfold enter0 leave0 bodyAt0
  simp only [holds0_x, holds0_p]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (product_triple c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation for region 0, at every point. -/
theorem body_obligation0 (c : Dev nD) : BodyObligation (dat0 (F := F) V c) (defs₀ (F := F)) Variants.none () Set.univ := by
  intro t
  rw [bigSep_W0, bigSep_W0]
  exact body_at0 V c t

end Cert.KernelIdeal.Hand

end
-- ==== Proof.KiSeg0.lean ====
/-
  Region 0 as a segment of the run: entered from every unscoped buffer at the contents the item before it left, it leaves
  them at those contents with its output arrays replaced by what its write-backs leave. Its windows' arrays are split out of
  the unscoped buffers on entry and put back on exit; the generator register goes into the invariant and comes back;
  nothing is owed; the kernel has no semaphore of its own.
-/
import proofs.«126364_j5334349382038_1_alg».proof.Proof.KiRun
import proofs.«126364_j5334349382038_1_alg».proof.Proof.KiBody0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The exit contents at region 0's arrays and off them -/

/-- The two input arrays are not the output array. -/
private theorem v0_ne_v2 : (Proc.devRef .tc main_v0 : DevRef τ sig) ≠ Proc.devRef .tc main_v2 :=
  StableHlo.devRef_ne_of_ne (by decide)
private theorem v1_ne_v2 : (Proc.devRef .tc main_v1 : DevRef τ sig) ≠ Proc.devRef .tc main_v2 :=
  StableHlo.devRef_ne_of_ne (by decide)

/-- At region 0's exit each of its arrays holds what the pipeline leaves: an input array is never written, so it is
    the entry contents, which the update at z's array leaves alone; z's array is the update itself. -/
theorem reg0_hF (c : Dev nD) (w : Fin cfg0.W) : (dat0 (E1 m) c).arrAt w cfg0.N = E2 m c (Pipeline.arrRef spec0 w) := by
  match w with
  | ⟨0, _⟩ =>
    refine (((dat0 (E1 m) c).arrAt_in 0 rfl _).trans (A_eq0 (E1 m) c 0)).trans ?_
    exact (Function.update_of_ne (f := W1 m c) v0_ne_v2 (zOut m c)).symm
  | ⟨1, _⟩ =>
    refine (((dat0 (E1 m) c).arrAt_in 1 rfl _).trans (A_eq0 (E1 m) c 1)).trans ?_
    exact (Function.update_of_ne (f := W1 m c) v1_ne_v2 (zOut m c)).symm
  | ⟨2, _⟩ =>
    exact (Function.update_self (Proc.devRef .tc main_v2 : DevRef τ sig) (zOut m c) (W1 m c)).symm

/-- Every buffer that is no array of region 0 holds at its exit what it held at entry. -/
theorem reg0_hrest (c : Dev nD) : ∀ b, b ∉ Finset.univ.image (Pipeline.arrRef spec0) → E2 m c b = E1 m c b :=
  fun b hb => Function.update_of_ne (f := W1 m c) (StableHlo.devRef_ne_of_ne fun e =>
    hb (Finset.mem_image.mpr ⟨2, Finset.mem_univ _, e.symm⟩)) (zOut m c)

set_option backward.isDefEq.respectTransparency.types false in
/-- Region 0 over the thread state. -/
def reg0 : Pipeline.RegionSeg (pcfgs (F := F)) Gen.adm (pdats m) () defs₀ 𝒱₀ L lv 0 where
  win := Gen.launch0.win.to₀
  block_pos := Gen.block_pos0
  stage_whole := Gen.stage_whole0
  K := PEmpty
  osem k := k.elim
  ho := Pipeline.OwnSemFacts.none _
  hbody c := (body_obligation0 (E1 m) c).loose
  hwaits := Pipeline.hwaits_of_owed_zero _ _ _ _ L lv 0 fun _ _ => rfl
  pre c := TS (W1 m) c
  post c := TS (W2 m) c
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (E1 m c) (E2 m c) ((pdats m 0 c).arrAt · cfg0.N) (reg0_hF m c) (reg0_hrest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KiBody1.lean ====
/-
  Region 1's body obligation: at every grid point the kernel body, started from the invariant and its windows' current
  staging buffers at what the proof data says they hold, ends with each buffer at what the proof data says it leaves.

  A point (i, j) is in one of three cases by its column coordinate j, which is its position modulo 16:
    j = 0       the body first stores the zero column over the degree column's buffer, then adds the tile's row sums to
                what it reads back: the buffer may come in at anything;
    0 < j < 15  the body adds the tile's row sums to the column the point before left;
    j = 15      it does the same, reads the sum back, and stores its inverse square root.
  In every case the adjacency tile's buffer is stored whole once, with the exponential of the exponent tile, and the two
  input buffers are only read. Every store is of a whole block at the zero offset, so what a buffer holds after the body
  is the payload of its last store, and a load after a store reads that store's payload back.
-/
import proofs.«126364_j5334349382038_1_alg».proof.Proof.KiData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch condition, from the grid coordinates: the column coordinate is 0. -/
abbrev cond1First (i : grid1.Coords) : Prop :=
  (Scalar.cmpi .ne (Scalar.extui (Scalar.cmpi .eq (BitVec.ofNat 32 (i 1).val) 0#32)) 0#32) = 1#1
/-- The body's second branch condition: the column coordinate is 15, the last. -/
abbrev cond1Last (i : grid1.Coords) : Prop :=
  (Scalar.cmpi .ne (Scalar.extui (Scalar.cmpi .eq (BitVec.ofNat 32 (i 1).val) 15#32)) 0#32) = 1#1

/-- The first holds exactly at the points whose position is 0 modulo 16. -/
theorem cond1First_iff : ∀ t : Fin cfg1.N, cond1First (grid1.coords t) ↔ t.val % 16 = 0 :=
  (by decide +kernel : ∀ t : Fin grid1.N, cond1First (grid1.coords t) ↔ t.val % 16 = 0)
/-- The second holds exactly at the points whose position is 15 modulo 16. -/
theorem cond1Last_iff : ∀ t : Fin cfg1.N, cond1Last (grid1.coords t) ↔ t.val % 16 = 15 :=
  (by decide +kernel : ∀ t : Fin grid1.N, cond1Last (grid1.coords t) ↔ t.val % 16 = 15)

/-- Every store and load of the body is at the zero offset. -/
theorem off1_zero : (![0, 0] : Fin 2 → Nat) = fun _ => 0 := funext fun a => by fin_cases a <;> rfl

/-! ## The body's run, case by case -/

set_option maxHeartbeats 1000000 in
/-- The body at a first column tile (the reset taken, the finish not): on whole staging memrefs, the two inputs' at their blocks and the two outputs' at anything, it runs to the continuation holding the inputs' as they were and each output's buffer with the pieces its stores wrote, last first. -/
noncomputable def run1First (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : cond1First i) (hc1 : ¬cond1Last i)
    (x0 : Vec F S256x2048 .bf16) (x1 : Vec F S256x2048 .bf16) :
    Σ' (L2 : List (View.Piece (Elt F) S256x256 .f32)), { L3 : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc1__k2 i arg2 harg2 arg3 harg3 arg4 harg4 arg5 harg5) K } := by
  refine ⟨?_, ?_, fun E K => ?run⟩
  case run =>
    simp only [cc1__k2_eq_skeleton]; unfold cc1__k2_skel
    simp only [k1_part1_eq_skeleton]; unfold k1_part1_skel
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- The body at a middle column tile (neither branch taken): the degree column's buffer comes in at the carried contents, which the body reads before its one store there. -/
noncomputable def run1Middle (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : ¬cond1Last i)
    (x0 : Vec F S256x2048 .bf16) (x1 : Vec F S256x2048 .bf16) (xo3 : Vec F S256x1 .f32) :
    Σ' (L2 : List (View.Piece (Elt F) S256x256 .f32)), { L3 : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc1__k2 i arg2 harg2 arg3 harg3 arg4 harg4 arg5 harg5) K } := by
  refine ⟨?_, ?_, fun E K => ?run⟩
  case run =>
    simp only [cc1__k2_eq_skeleton]; unfold cc1__k2_skel
    simp only [k1_part1_eq_skeleton]; unfold k1_part1_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

set_option maxHeartbeats 1000000 in
/-- The body at the last column tile of a row block (the reset not taken, the finish taken): the degree column's buffer comes in at the carried contents; the body adds to it, reads the sum back and stores its inverse square root. -/
noncomputable def run1Last (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : cond1Last i)
    (x0 : Vec F S256x2048 .bf16) (x1 : Vec F S256x2048 .bf16) (xo3 : Vec F S256x1 .f32) :
    Σ' (L2 : List (View.Piece (Elt F) S256x256 .f32)), { L3 : List (View.Piece (Elt F) S256x1 .f32) //
      ∀ (E : Set ℕ) (K : PUnit → sProp 𝕄),
        iprop(owns (c : Thread nD τ) arg2 fullShare x0 ∗ owns (c : Thread nD τ) arg3 fullShare x1
            ∗ (∃ d, owns (c : Thread nD τ) arg4 fullShare d) ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc1__k2 i arg2 harg2 arg3 harg3 arg4 harg4 arg5 harg5) K } := by
  refine ⟨?_, ?_, fun E K => ?run⟩
  case run =>
    simp only [cc1__k2_eq_skeleton]; unfold cc1__k2_skel
    simp only [k1_part1_eq_skeleton]; unfold k1_part1_skel
    unfold owns
    iintro ⟨⟨%f0, %hf0, H0⟩, ⟨%f1, %hf1, H1⟩, ⟨%d2, %f2, -, H2⟩, ⟨%f3, %hf3, H3⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

/-! ## What each case leaves, read back -/

/-- The adjacency tile's pieces at such a point cover its block (one store of the whole block). -/
theorem cover1First2 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : cond1First i) (hc1 : ¬cond1Last i) (x0 : Vec F S256x2048 .bf16) (x1 : Vec F S256x2048 .bf16) (y : S256x256.Idx) :
    ∃ pc ∈ (run1First c i arg2 harg2 arg3 harg3 arg4 harg4 arg5 harg5 hc0 hc1 x0 x1).1, y ∈ pc.1.set :=
  View.cover_of_tiledL (run1First c i arg2 harg2 arg3 harg3 arg4 harg4 arg5 harg5 hc0 hc1 x0 x1).1 S256x256.size (by sl_kernel_rfl) y

/-- The degree column's pieces at such a point cover its block (every store is of the whole block). -/
theorem cover1First3 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : cond1First i) (hc1 : ¬cond1Last i) (x0 : Vec F S256x2048 .bf16) (x1 : Vec F S256x2048 .bf16) (y : S256x1.Idx) :
    ∃ pc ∈ (run1First c i arg2 harg2 arg3 harg3 arg4 harg4 arg5 harg5 hc0 hc1 x0 x1).2.1, y ∈ pc.1.set :=
  View.cover_of_tiledL (run1First c i arg2 harg2 arg3 harg3 arg4 harg4 arg5 harg5 hc0 hc1 x0 x1).2.1 S256x1.size (by sl_kernel_rfl) y

/-- At a first column tile the adjacency tile's buffer, read back, is the exponential of the point's exponent tile: one store of the whole block, whose payload reads the two input blocks whole. -/
theorem read1First2 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : cond1First i) (hc1 : ¬cond1Last i) (x0 : Vec F S256x2048 .bf16) (x1 : Vec F S256x2048 .bf16)
    (v : View sig .tc .vmem S256x256 .f32) (f : v.ty.Contents (Elt F)) :
    v.read (Elt F) (v.writes (Elt F) f (run1First c i arg2 harg2 arg3 harg3 arg4 harg4 arg5 harg5 hc0 hc1 x0 x1).1) = k1_pay1 (k1_pay5 i x0 x1) := by
  rw [View.read_writes_eq_canon _ _ _ (cover1First2 c i arg2 harg2 arg3 harg3 arg4 harg4 arg5 harg5 hc0 hc1 x0 x1)]
  unfold run1First
  dsimp only
  rw [View.canon_unit_zero off1_zero]
  simp only [View.readAt_eq_ld, harg2.read_unread, harg3.read_unread, View.ld_unit_zero (S := S256x2048) off1_zero]

/-- At a first column tile the degree column's buffer, read back, is the zero column plus the tile's row sums: the later store covers, and the column it adds to is the zero column the reset stored, read back. -/
theorem read1First3 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : cond1First i) (hc1 : ¬cond1Last i) (x0 : Vec F S256x2048 .bf16) (x1 : Vec F S256x2048 .bf16)
    (v : View sig .tc .vmem S256x1 .f32) (f : v.ty.Contents (Elt F)) :
    v.read (Elt F) (v.writes (Elt F) f (run1First c i arg2 harg2 arg3 harg3 arg4 harg4 arg5 harg5 hc0 hc1 x0 x1).2.1) = k1_pay2 (k1_pay5 i x0 x1) (k1_pay4 (F := F)) := by
  rw [View.read_writes_eq_canon _ _ _ (cover1First3 c i arg2 harg2 arg3 harg3 arg4 harg4 arg5 harg5 hc0 hc1 x0 x1)]
  unfold run1First
  dsimp only
  sl_unfold_words
  rw [View.canon_cons_unit_zero (S := S256x1) off1_zero]
  simp only [View.readAt_eq_ld, harg2.read_unread, harg3.read_unread, View.ld_unit_zero (S := S256x2048) off1_zero,
    View.readCov_unit_zero (S := S256x1) _ off1_zero]

/-- The adjacency tile's pieces at such a point cover its block (one store of the whole block). -/
theorem cover1Middle2 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : ¬cond1Last i) (x0 : Vec F S256x2048 .bf16) (x1 : Vec F S256x2048 .bf16) (xo3 : Vec F S256x1 .f32) (y : S256x256.Idx) :
    ∃ pc ∈ (run1Middle c i arg2 harg2 arg3 harg3 arg4 harg4 arg5 harg5 hc0 hc1 x0 x1 xo3).1, y ∈ pc.1.set :=
  View.cover_of_tiledL (run1Middle c i arg2 harg2 arg3 harg3 arg4 harg4 arg5 harg5 hc0 hc1 x0 x1 xo3).1 S256x256.size (by sl_kernel_rfl) y

/-- The degree column's pieces at such a point cover its block (every store is of the whole block). -/
theorem cover1Middle3 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : ¬cond1Last i) (x0 : Vec F S256x2048 .bf16) (x1 : Vec F S256x2048 .bf16) (xo3 : Vec F S256x1 .f32) (y : S256x1.Idx) :
    ∃ pc ∈ (run1Middle c i arg2 harg2 arg3 harg3 arg4 harg4 arg5 harg5 hc0 hc1 x0 x1 xo3).2.1, y ∈ pc.1.set :=
  View.cover_of_tiledL (run1Middle c i arg2 harg2 arg3 harg3 arg4 harg4 arg5 harg5 hc0 hc1 x0 x1 xo3).2.1 S256x1.size (by sl_kernel_rfl) y

/-- At a middle column tile the adjacency tile's buffer, read back, is the exponential of the point's exponent tile. -/
theorem read1Middle2 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : ¬cond1Last i) (x0 : Vec F S256x2048 .bf16) (x1 : Vec F S256x2048 .bf16) (xo3 : Vec F S256x1 .f32)
    (v : View sig .tc .vmem S256x256 .f32) (f : v.ty.Contents (Elt F)) :
    v.read (Elt F) (v.writes (Elt F) f (run1Middle c i arg2 harg2 arg3 harg3 arg4 harg4 arg5 harg5 hc0 hc1 x0 x1 xo3).1) = k1_pay1 (k1_pay5 i x0 x1) := by
  rw [View.read_writes_eq_canon _ _ _ (cover1Middle2 c i arg2 harg2 arg3 harg3 arg4 harg4 arg5 harg5 hc0 hc1 x0 x1 xo3)]
  unfold run1Middle
  dsimp only
  rw [View.canon_unit_zero off1_zero]
  simp only [View.readAt_eq_ld, harg2.read_unread, harg3.read_unread, View.ld_unit_zero (S := S256x2048) off1_zero]

/-- At a middle column tile the degree column's buffer, read back, is the carried column plus the tile's row sums: one store of the whole block, whose payload reads the carried column whole. -/
theorem read1Middle3 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : ¬cond1Last i) (x0 : Vec F S256x2048 .bf16) (x1 : Vec F S256x2048 .bf16) (xo3 : Vec F S256x1 .f32)
    (v : View sig .tc .vmem S256x1 .f32) (f : v.ty.Contents (Elt F)) :
    v.read (Elt F) (v.writes (Elt F) f (run1Middle c i arg2 harg2 arg3 harg3 arg4 harg4 arg5 harg5 hc0 hc1 x0 x1 xo3).2.1) = k1_pay2 (k1_pay5 i x0 x1) xo3 := by
  rw [View.read_writes_eq_canon _ _ _ (cover1Middle3 c i arg2 harg2 arg3 harg3 arg4 harg4 arg5 harg5 hc0 hc1 x0 x1 xo3)]
  unfold run1Middle
  dsimp only
  rw [View.canon_unit_zero off1_zero]
  simp only [View.readAt_eq_ld, harg2.read_unread, harg3.read_unread, View.ld_unit_zero (S := S256x2048) off1_zero, harg5.read_unread, View.ld_unit_zero (S := S256x1) off1_zero]

/-- The adjacency tile's pieces at such a point cover its block (one store of the whole block). -/
theorem cover1Last2 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : cond1Last i) (x0 : Vec F S256x2048 .bf16) (x1 : Vec F S256x2048 .bf16) (xo3 : Vec F S256x1 .f32) (y : S256x256.Idx) :
    ∃ pc ∈ (run1Last c i arg2 harg2 arg3 harg3 arg4 harg4 arg5 harg5 hc0 hc1 x0 x1 xo3).1, y ∈ pc.1.set :=
  View.cover_of_tiledL (run1Last c i arg2 harg2 arg3 harg3 arg4 harg4 arg5 harg5 hc0 hc1 x0 x1 xo3).1 S256x256.size (by sl_kernel_rfl) y

/-- The degree column's pieces at such a point cover its block (every store is of the whole block). -/
theorem cover1Last3 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : cond1Last i) (x0 : Vec F S256x2048 .bf16) (x1 : Vec F S256x2048 .bf16) (xo3 : Vec F S256x1 .f32) (y : S256x1.Idx) :
    ∃ pc ∈ (run1Last c i arg2 harg2 arg3 harg3 arg4 harg4 arg5 harg5 hc0 hc1 x0 x1 xo3).2.1, y ∈ pc.1.set :=
  View.cover_of_tiledL (run1Last c i arg2 harg2 arg3 harg3 arg4 harg4 arg5 harg5 hc0 hc1 x0 x1 xo3).2.1 S256x1.size (by sl_kernel_rfl) y

/-- At the last column tile the adjacency tile's buffer, read back, is the exponential of the point's exponent tile. -/
theorem read1Last2 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : cond1Last i) (x0 : Vec F S256x2048 .bf16) (x1 : Vec F S256x2048 .bf16) (xo3 : Vec F S256x1 .f32)
    (v : View sig .tc .vmem S256x256 .f32) (f : v.ty.Contents (Elt F)) :
    v.read (Elt F) (v.writes (Elt F) f (run1Last c i arg2 harg2 arg3 harg3 arg4 harg4 arg5 harg5 hc0 hc1 x0 x1 xo3).1) = k1_pay1 (k1_pay5 i x0 x1) := by
  rw [View.read_writes_eq_canon _ _ _ (cover1Last2 c i arg2 harg2 arg3 harg3 arg4 harg4 arg5 harg5 hc0 hc1 x0 x1 xo3)]
  unfold run1Last
  dsimp only
  rw [View.canon_unit_zero off1_zero]
  simp only [View.readAt_eq_ld, harg2.read_unread, harg3.read_unread, View.ld_unit_zero (S := S256x2048) off1_zero]

/-- At the last column tile the degree column's buffer, read back, is the inverse square root of the carried column plus the tile's row sums: the later store covers, and the column it takes the root of is the sum the earlier store left, read back. -/
theorem read1Last3 (c : Dev nD) (i : grid1.Coords)
    (arg2 : Memref sig .tc .vmem S256x2048 .bf16) (harg2 : arg2.IsWhole) (arg3 : Memref sig .tc .vmem S256x2048 .bf16) (harg3 : arg3.IsWhole)
    (arg4 : Memref sig .tc .vmem S256x256 .f32) (harg4 : arg4.IsWhole) (arg5 : Memref sig .tc .vmem S256x1 .f32) (harg5 : arg5.IsWhole)
    (hc0 : ¬cond1First i) (hc1 : cond1Last i) (x0 : Vec F S256x2048 .bf16) (x1 : Vec F S256x2048 .bf16) (xo3 : Vec F S256x1 .f32)
    (v : View sig .tc .vmem S256x1 .f32) (f : v.ty.Contents (Elt F)) :
    v.read (Elt F) (v.writes (Elt F) f (run1Last c i arg2 harg2 arg3 harg3 arg4 harg4 arg5 harg5 hc0 hc1 x0 x1 xo3).2.1) = k1_pay3 (k1_pay2 (k1_pay5 i x0 x1) xo3) := by
  rw [View.read_writes_eq_canon _ _ _ (cover1Last3 c i arg2 harg2 arg3 harg3 arg4 harg4 arg5 harg5 hc0 hc1 x0 x1 xo3)]
  unfold run1Last
  dsimp only
  sl_unfold_words
  rw [View.canon_cons_unit_zero (S := S256x1) off1_zero]
  simp only [View.readAt_eq_ld, harg2.read_unread, harg3.read_unread, View.ld_unit_zero (S := S256x2048) off1_zero, harg5.read_unread, View.ld_unit_zero (S := S256x1) off1_zero,
    View.readCov_unit_zero (S := S256x1) _ off1_zero]

variable (V : (c : Dev nD) → (b : Ref sig .tc) → Buf (Elt F) ((c : Thread nD τ).loc b))

/-! ## What the body finds in each staging buffer -/

/-- Each window's current staging memref at point t, as the pipeline passes it to the body, and its wholeness. -/
abbrev stg1_0 (t : Fin cfg1.N) : Memref sig .tc .vmem S256x2048 .bf16 := win1_0.stage (cfg1.slots t 0)
abbrev stgWhole1_0 (t : Fin cfg1.N) : (stg1_0 t).IsWhole := hstage1_0 ((cfg1.slots t 0).cast nbuf1_0)
abbrev stg1_1 (t : Fin cfg1.N) : Memref sig .tc .vmem S256x2048 .bf16 := win1_1.stage (cfg1.slots t 1)
abbrev stgWhole1_1 (t : Fin cfg1.N) : (stg1_1 t).IsWhole := hstage1_1 ((cfg1.slots t 1).cast nbuf1_1)
abbrev stg1_2 (t : Fin cfg1.N) : Memref sig .tc .vmem S256x256 .f32 := win1_2.stage (cfg1.slots t 2)
abbrev stgWhole1_2 (t : Fin cfg1.N) : (stg1_2 t).IsWhole := hstage1_2 ((cfg1.slots t 2).cast nbuf1_2)
abbrev stg1_3 (t : Fin cfg1.N) : Memref sig .tc .vmem S256x1 .f32 := win1_3.stage (cfg1.slots t 3)
abbrev stgWhole1_3 (t : Fin cfg1.N) : (stg1_3 t).IsWhole := hstage1_3 ((cfg1.slots t 3).cast nbuf1_3)

/-- The row block's buffer holds row block i of z at every point, fetched there or not: unfetched, the block index has
    not moved, and the body leaves the block in place. -/
theorem before1_rows (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- The column block's buffer holds row block j of z at every point. -/
theorem before1_cols (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)

/-- Past the first column tile of a row block the degree column's buffer holds what the body left at the point before:
    the point is not the first, the buffer was not written back between (that happens after a last column tile only),
    the window is live and uncut. -/
theorem before1_deg_kept (c : Dev nD) (t : Fin cfg1.N) (h0 : ¬t.val % 16 = 0) (d) :
    (dat1 V c).before 3 t d = degAt V c (t.val - 1) (Nat.lt_of_le_of_lt (Nat.sub_le _ _) t.isLt) := by
  have hN : t.val < 256 := lt_of_lt_of_eq t.isLt (show cfg1.N = 256 from N_1)
  rw [Dat.before_out_kept _ 3 rfl t (by omega)
    (Bool.eq_false_iff.mpr fun h => by have := (flush1_3 _).mp h; dsimp only at this; omega)
    (fun _ => rfl) (fun _ _ => rfl)]
  rw [after1_3]

/-! ## The degree recursion at a point of each case -/

/-- At a first column tile: the zero column plus the tile's row sums. -/
theorem degAt1_first (c : Dev nD) (t : Fin cfg1.N) (h0 : t.val % 16 = 0) :
    degAt V c t.val t.isLt = k1_pay2 (tile1 V c t) (k1_pay4 (F := F)) := by
  obtain ⟨n, hn⟩ := t
  cases n with
  | zero => exact rfl
  | succ n => exact (if_pos h0).trans rfl

/-- At a middle column tile: the column the point before left plus the tile's row sums. -/
theorem degAt1_middle (c : Dev nD) (t : Fin cfg1.N) (h0 : ¬t.val % 16 = 0) (h1 : ¬t.val % 16 = 15) :
    degAt V c t.val t.isLt
      = k1_pay2 (tile1 V c t) (degAt V c (t.val - 1) (Nat.lt_of_le_of_lt (Nat.sub_le _ _) t.isLt)) := by
  obtain ⟨n, hn⟩ := t
  cases n with
  | zero => exact absurd (Nat.zero_mod _) h0
  | succ n => exact (if_neg h0).trans ((if_neg h1).trans rfl)

/-- At the last column tile: the inverse square root of that sum. -/
theorem degAt1_last (c : Dev nD) (t : Fin cfg1.N) (h1 : t.val % 16 = 15) :
    degAt V c t.val t.isLt
      = k1_pay3 (k1_pay2 (tile1 V c t) (degAt V c (t.val - 1) (Nat.lt_of_le_of_lt (Nat.sub_le _ _) t.isLt))) := by
  obtain ⟨n, hn⟩ := t
  cases n with
  | zero => exact absurd ((Nat.zero_mod 16).symm.trans h1) (by decide)
  | succ n =>
    have h0 : ¬(n + 1) % 16 = 0 := fun h => by dsimp only at h1; omega
    exact (if_neg h0).trans ((if_pos h1).trans rfl)

/-! ## The body obligation, at a generic point -/

/-- What the body is called with at point t: the invariant, what the core owes, and each window's current staging buffer
    at what the proof data says it then holds, -/
def bodyPre1 (c : Dev nD) (t : Fin cfg1.N) : sProp 𝕄 :=
  iprop((dat1 V c).Φ t.castSucc ∗ (dat1 V c).owesAt () t.castSucc
    ∗ (∃ d, owns (c : Thread nD τ) (stg1_0 t) fullShare ((dat1 V c).before 0 t d))
    ∗ (∃ d, owns (c : Thread nD τ) (stg1_1 t) fullShare ((dat1 V c).before 1 t d))
    ∗ (∃ d, owns (c : Thread nD τ) (stg1_2 t) fullShare ((dat1 V c).before 2 t d))
    ∗ (∃ d, owns (c : Thread nD τ) (stg1_3 t) fullShare ((dat1 V c).before 3 t d)))

/-- and what it returns: each buffer at what the proof data says the body leaves. -/
def bodyPost1 (c : Dev nD) (t : Fin cfg1.N) : sProp 𝕄 :=
  iprop((dat1 V c).Φ t.succ ∗ (dat1 V c).owesAt () t.succ
    ∗ owns (c : Thread nD τ) (stg1_0 t) fullShare ((dat1 V c).after 0 t)
    ∗ owns (c : Thread nD τ) (stg1_1 t) fullShare ((dat1 V c).after 1 t)
    ∗ owns (c : Thread nD τ) (stg1_2 t) fullShare ((dat1 V c).after 2 t)
    ∗ owns (c : Thread nD τ) (stg1_3 t) fullShare ((dat1 V c).after 3 t))

set_option maxHeartbeats 1600000 in
/-- The body at any point. The two input buffers hold their blocks; the position modulo 16 says which of the three cases
    the point is in; past a first column tile the degree column's buffer holds what the point before left; so that case's
    run applies, and what it leaves in each output buffer, read back, is the closed form the proof data names. The
    invariant passes through unread and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_rows, before1_cols]
  rw [show (dat1 V c).Φ t.succ = (dat1 V c).Φ t.castSucc from rfl,
    show (dat1 V c).owesAt () t.succ = (dat1 V c).owesAt () t.castSucc from rfl,
    after1_0, after1_1, after1_2, after1_3]
  have hN : t.val < 256 := lt_of_lt_of_eq t.isLt (show cfg1.N = 256 from N_1)
  by_cases h0 : t.val % 16 = 0
  · have h1 : ¬t.val % 16 = 15 := by omega
    rw [degAt1_first V c t h0]; unfold tile1
    iintro ⟨HΦ, Ho, ⟨%d0, H0⟩, ⟨%d1, H1⟩, ⟨%d2, H2⟩, ⟨%d3, H3⟩⟩
    iapply ((run1First c (grid1.coords t) (stg1_0 t) (stgWhole1_0 t) (stg1_1 t) (stgWhole1_1 t) (stg1_2 t) (stgWhole1_2 t) (stg1_3 t) (stgWhole1_3 t) ((cond1First_iff t).mpr h0) (fun h => h1 ((cond1Last_iff t).mp h)) (iblk1 V c 0 t) (iblk1 V c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro
      exact read1First2 c (grid1.coords t) (stg1_0 t) (stgWhole1_0 t) (stg1_1 t) (stgWhole1_1 t) (stg1_2 t) (stgWhole1_2 t) (stg1_3 t) (stgWhole1_3 t) ((cond1First_iff t).mpr h0) (fun h => h1 ((cond1Last_iff t).mp h)) (iblk1 V c 0 t) (iblk1 V c 1 t) _ _
    unfold owns; iexists _; isplitr
    swap; · iexact H3
    ipureintro
    exact read1First3 c (grid1.coords t) (stg1_0 t) (stgWhole1_0 t) (stg1_1 t) (stgWhole1_1 t) (stg1_2 t) (stgWhole1_2 t) (stg1_3 t) (stgWhole1_3 t) ((cond1First_iff t).mpr h0) (fun h => h1 ((cond1Last_iff t).mp h)) (iblk1 V c 0 t) (iblk1 V c 1 t) _ _
  · by_cases h1 : t.val % 16 = 15
    · rw [degAt1_last V c t h1]; unfold tile1
      simp only [before1_deg_kept V c t h0]
      iintro ⟨HΦ, Ho, ⟨%d0, H0⟩, ⟨%d1, H1⟩, ⟨%d2, H2⟩, ⟨%d3, H3⟩⟩
      iapply ((run1Last c (grid1.coords t) (stg1_0 t) (stgWhole1_0 t) (stg1_1 t) (stgWhole1_1 t) (stg1_2 t) (stgWhole1_2 t) (stg1_3 t) (stgWhole1_3 t) (fun h => h0 ((cond1First_iff t).mp h)) ((cond1Last_iff t).mpr h1) (iblk1 V c 0 t) (iblk1 V c 1 t) (degAt V c (t.val - 1) (Nat.lt_of_le_of_lt (Nat.sub_le _ _) t.isLt))).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro
        exact read1Last2 c (grid1.coords t) (stg1_0 t) (stgWhole1_0 t) (stg1_1 t) (stgWhole1_1 t) (stg1_2 t) (stgWhole1_2 t) (stg1_3 t) (stgWhole1_3 t) (fun h => h0 ((cond1First_iff t).mp h)) ((cond1Last_iff t).mpr h1) (iblk1 V c 0 t) (iblk1 V c 1 t) (degAt V c (t.val - 1) (Nat.lt_of_le_of_lt (Nat.sub_le _ _) t.isLt)) _ _
      unfold owns; iexists _; isplitr
      swap; · iexact H3
      ipureintro
      exact read1Last3 c (grid1.coords t) (stg1_0 t) (stgWhole1_0 t) (stg1_1 t) (stgWhole1_1 t) (stg1_2 t) (stgWhole1_2 t) (stg1_3 t) (stgWhole1_3 t) (fun h => h0 ((cond1First_iff t).mp h)) ((cond1Last_iff t).mpr h1) (iblk1 V c 0 t) (iblk1 V c 1 t) (degAt V c (t.val - 1) (Nat.lt_of_le_of_lt (Nat.sub_le _ _) t.isLt)) _ _
    · rw [degAt1_middle V c t h0 h1]; unfold tile1
      simp only [before1_deg_kept V c t h0]
      iintro ⟨HΦ, Ho, ⟨%d0, H0⟩, ⟨%d1, H1⟩, ⟨%d2, H2⟩, ⟨%d3, H3⟩⟩
      iapply ((run1Middle c (grid1.coords t) (stg1_0 t) (stgWhole1_0 t) (stg1_1 t) (stgWhole1_1 t) (stg1_2 t) (stgWhole1_2 t) (stg1_3 t) (stgWhole1_3 t) (fun h => h0 ((cond1First_iff t).mp h)) (fun h => h1 ((cond1Last_iff t).mp h)) (iblk1 V c 0 t) (iblk1 V c 1 t) (degAt V c (t.val - 1) (Nat.lt_of_le_of_lt (Nat.sub_le _ _) t.isLt))).2.2 Set.univ _)
      isplitl [H0]; · iexact H0
      isplitl [H1]; · iexact H1
      isplitl [H2]; · iexists _; iexact H2
      isplitl [H3]; · iexact H3
      iintro ⟨H0, H1, ⟨%e2, H2⟩, ⟨%e3, H3⟩⟩
      isplitl [HΦ]; · iexact HΦ
      isplitl [Ho]; · iexact Ho
      isplitl [H0]; · iexact H0
      isplitl [H1]; · iexact H1
      isplitl [H2]
      · unfold owns; iexists _; isplitr
        swap; · iexact H2
        ipureintro
        exact read1Middle2 c (grid1.coords t) (stg1_0 t) (stgWhole1_0 t) (stg1_1 t) (stgWhole1_1 t) (stg1_2 t) (stgWhole1_2 t) (stg1_3 t) (stgWhole1_3 t) (fun h => h0 ((cond1First_iff t).mp h)) (fun h => h1 ((cond1Last_iff t).mp h)) (iblk1 V c 0 t) (iblk1 V c 1 t) (degAt V c (t.val - 1) (Nat.lt_of_le_of_lt (Nat.sub_le _ _) t.isLt)) _ _
      unfold owns; iexists _; isplitr
      swap; · iexact H3
      ipureintro
      exact read1Middle3 c (grid1.coords t) (stg1_0 t) (stgWhole1_0 t) (stg1_1 t) (stgWhole1_1 t) (stg1_2 t) (stgWhole1_2 t) (stg1_3 t) (stgWhole1_3 t) (fun h => h0 ((cond1First_iff t).mp h)) (fun h => h1 ((cond1Last_iff t).mp h)) (iblk1 V c 0 t) (iblk1 V c 1 t) (degAt V c (t.val - 1) (Nat.lt_of_le_of_lt (Nat.sub_le _ _) t.isLt)) _ _

/-- The library's body obligation for region 1, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiSeg1.lean ====
/-
  Region 1 as a segment of the run: entered from every unscoped buffer at the contents the item before it left, it leaves
  them at those contents with its output arrays replaced by what its write-backs leave. Its windows' arrays are split out of
  the unscoped buffers on entry and put back on exit; the one array that two of its windows read is dealt to them at
  complementary halves of the full share, and joined again on exit; the generator register goes into the invariant and comes back;
  nothing is owed; the kernel has no semaphore of its own.
-/
import proofs.«126364_j5334349382038_1_alg».proof.Proof.KiRun
import proofs.«126364_j5334349382038_1_alg».proof.Proof.KiBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The buffers behind region 1's arrays, listed. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3_0) ↦{fullShare} V main_v3_0) ∗ (((c : Thread nD τ).loc main_v3_1) ↦{fullShare} V main_v3_1)) := by
  unfold Pipeline.arrBufs
  exact bigSep_eq_bigSepL_of_eq [main_v2, main_v3_0, main_v3_1] (by decide) (by decide) _

/-- Region 1's arrays window by window: the two windows on z's array hold it at the two halves of the full share,
    the two output windows hold theirs whole. -/
theorem arrays1_eq (c : Dev nD)
    (G : (w : Fin cfg1.W) → Buf (Elt F) ((cfg1.win w).arr.view.loc (c : Thread nD τ))) :
    ((dat1 V c).arrays G : sProp 𝕄)
      = iprop((((c : Thread nD τ).loc main_v2) ↦{fullShare.left} G 0) ∗ (((c : Thread nD τ).loc main_v2) ↦{fullShare.right} G 1)
          ∗ (((c : Thread nD τ).loc main_v3_0) ↦{fullShare} G 2) ∗ (((c : Thread nD τ).loc main_v3_1) ↦{fullShare} G 3)) := by
  unfold Dat.arrays
  rw [Gen.bigSep_W1]
  rw [(Gen.arr_whole1 0).set_eq_univ, (Gen.arr_whole1 2).set_eq_univ, (Gen.arr_whole1 3).set_eq_univ]
  rfl

/-- A core's unscoped buffers are the buffers behind region 1's arrays and the rest. -/
theorem unscopedBufs1_split (c : Dev nD) (V : (b : Ref sig .tc) → Buf (Elt F) ((c : Thread nD τ).loc b)) :
    (unscopedBufs (Ix := Unit) (Name := ℕ) (U := UR sig nD τ) (Lvl := ℕ) c V : sProp 𝕄)
      = iprop(Pipeline.arrBufs (Ix := Unit) (Name := ℕ) (U := UR sig nD τ) (Lvl := ℕ) spec1 c V
          ∗ Pipeline.unscopedRest (Ix := Unit) (Name := ℕ) (U := UR sig nD τ) (Lvl := ℕ) spec1 c V) :=
  Pipeline.unscopedBufs_split₀ cfgs 1 Gen.winFacts₀1.arr_unscoped c V

/-- ENTRY, the arrays' part: a core's unscoped buffers at contents V are region 1's arrays at the proof data's entry
    contents and the unscoped rest; the one array two windows read is dealt to them at the two halves of the full share. -/
theorem arrays1_of_unscopedBufs (c : Dev nD) :
    (unscopedBufs (Ix := Unit) (Name := ℕ) (U := UR sig nD τ) (Lvl := ℕ) c (V c) : sProp 𝕄)
      ⊢ iprop((dat1 V c).arrays (dat1 V c).A ∗ Pipeline.unscopedRest (Ix := Unit) (Name := ℕ) (U := UR sig nD τ) (Lvl := ℕ) spec1 c (V c)) := by
  rw [unscopedBufs1_split, arrBufs1_eq, arrays1_eq]
  iintro ⟨⟨Hz, Ha, Hd⟩, Hrest⟩
  ihave Hz2 := (pointsTo_share (PosShare.mem_left_op_right fullShare)).1 $$ Hz
  icases Hz2 with ⟨Hl, Hr⟩
  isplitr [Hrest]
  · isplitl [Hl]; · iexact Hl
    isplitl [Hr]; · iexact Hr
    isplitl [Ha]; · iexact Ha
    iexact Hd
  iexact Hrest

/-- EXIT, the arrays' part: region 1's arrays at contents G and the unscoped rest at V₀ are the core's unscoped buffers at
    any contents V' that has the arrays at G and agrees with V₀ off them; the two halves of the shared array, at the
    same contents, join to its full share. -/
theorem unscopedBufs_of_arrays1 (c : Dev nD) (V₀ V' : (b : Ref sig .tc) → Buf (Elt F) ((c : Thread nD τ).loc b))
    (G : (w : Fin cfg1.W) → Buf (Elt F) ((cfg1.win w).arr.view.loc (c : Thread nD τ)))
    (h0 : G 0 = V' main_v2) (h1 : G 1 = V' main_v2) (h2 : G 2 = V' main_v3_0) (h3 : G 3 = V' main_v3_1)
    (hrest : ∀ b, b ∉ Finset.univ.image (Pipeline.arrRef spec1) → V' b = V₀ b) :
    iprop((dat1 V c).arrays G ∗ Pipeline.unscopedRest (Ix := Unit) (Name := ℕ) (U := UR sig nD τ) (Lvl := ℕ) spec1 c V₀)
      ⊢ (unscopedBufs (Ix := Unit) (Name := ℕ) (U := UR sig nD τ) (Lvl := ℕ) c V' : sProp 𝕄) := by
  have hr : (Pipeline.unscopedRest (Ix := Unit) (Name := ℕ) (U := UR sig nD τ) (Lvl := ℕ) spec1 c V₀ : sProp 𝕄)
      = Pipeline.unscopedRest (Ix := Unit) (Name := ℕ) (U := UR sig nD τ) (Lvl := ℕ) spec1 c V' := by
    unfold Pipeline.unscopedRest
    exact bigSep_congr fun b hb => by rw [hrest b (Finset.mem_sdiff.mp hb).2]
  rw [unscopedBufs1_split, arrBufs1_eq, arrays1_eq, h0, h1, h2, h3, hr]
  iintro ⟨⟨Hl, Hr, Ha, Hd⟩, Hrest⟩
  isplitr [Hrest]
  · isplitl [Hl Hr]
    · iapply (pointsTo_share (PosShare.mem_left_op_right fullShare)).2
      isplitl [Hl]; · iexact Hl
      iexact Hr
    isplitl [Ha]; · iexact Ha
    iexact Hd
  iexact Hrest

variable (m : (ℓ : Loc nD τ sig) → Buf (Elt F) ℓ)

/-- Region 1 leaves z's array as it found it, -/
theorem W3_v2 (c : Dev nD) : W3 m c (Proc.devRef .tc main_v2) = W2 m c (Proc.devRef .tc main_v2) := by
  show Function.update (Function.update (W2 m c) _ _) _ _ _ = _
  rw [Function.update_of_ne (StableHlo.devRef_ne_of_ne (by decide)), Function.update_of_ne (StableHlo.devRef_ne_of_ne (by decide))]
/-- the adjacency's array at what its write-backs leave, -/
theorem W3_v3_0 (c : Dev nD) : W3 m c (Proc.devRef .tc main_v3_0) = adjOut m c := by
  show Function.update (Function.update (W2 m c) _ _) _ _ _ = _
  rw [Function.update_of_ne (StableHlo.devRef_ne_of_ne (by decide)), Function.update_self]
/-- the degree column's array at what its write-backs leave, -/
theorem W3_v3_1 (c : Dev nD) : W3 m c (Proc.devRef .tc main_v3_1) = degOut m c := by
  show Function.update (Function.update (W2 m c) _ _) _ _ _ = _
  rw [Function.update_self]
/-- and every buffer that is no array of its windows as it found it. -/
theorem W3_rest (c : Dev nD) (b : Ref sig .tc) (hb : b ∉ Finset.univ.image (Pipeline.arrRef spec1)) :
    W3 m c (Proc.devRef .tc b) = W2 m c (Proc.devRef .tc b) := by
  have h30 : b ≠ main_v3_0 := fun e => hb (Finset.mem_image.mpr ⟨2, Finset.mem_univ _, e.symm⟩)
  have h31 : b ≠ main_v3_1 := fun e => hb (Finset.mem_image.mpr ⟨3, Finset.mem_univ _, e.symm⟩)
  show Function.update (Function.update (W2 m c) _ _) _ _ _ = _
  rw [Function.update_of_ne (StableHlo.devRef_ne_of_ne h31), Function.update_of_ne (StableHlo.devRef_ne_of_ne h30)]

set_option backward.isDefEq.respectTransparency.types false in
/-- Region 1 over the thread state. -/
def reg1 : Pipeline.RegionSeg (pcfgs (F := F)) Gen.adm (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (body_obligation1 (E2 m) c).loose
  hwaits := Pipeline.hwaits_of_owed_zero _ _ _ _ L lv 1 fun _ _ => rfl
  pre c := TS (W2 m) c
  post c := TS (W3 m) c
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := arrays1_of_unscopedBufs (E2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := unscopedBufs_of_arrays1 (E2 m) c (E2 m c) (E3 m c) ((dat1 (E2 m) c).arrAt · cfg1.N)
      (((dat1 (E2 m) c).arrAt_in 0 rfl _).trans (W3_v2 m c).symm)
      (((dat1 (E2 m) c).arrAt_in 1 rfl _).trans (W3_v2 m c).symm)
      (W3_v3_0 m c).symm (W3_v3_1 m c).symm (W3_rest m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

end Cert.KernelIdeal.Hand

end
-- ==== Proof.KiBody2.lean ====
/-
  Region 2's body obligation: at every grid point the kernel body, started from the invariant and its windows' current
  staging buffers at what the proof data says they hold, ends with each buffer at what the proof data says it leaves.
  The body loads the adjacency tile and the two degree blocks, and stores (row scale · tile) · column scale over the
  whole output tile.
-/
import proofs.«126364_j5334349382038_1_alg».proof.Proof.KiData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input windows' staging buffers hold their blocks -/

/-- The offsets of every rectangle the body touches are the zero offsets. -/
theorem origin2 : (![0, 0] : Fin 2 → Nat) = fun _ => 0 := funext fun a => by fin_cases a <;> rfl

/-- The adjacency tile sits in window 0's current staging buffer at every point: the body leaves it in place. -/
theorem holds2_adj (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)

/-- The degree block of the tile's rows sits in window 1's staging buffer at every point: fetched when the row block
    changes, its block index does not move in between and the body leaves it in place. -/
theorem holds2_row (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)

/-- The degree block of the tile's columns sits in window 2's current staging buffer at every point. -/
theorem holds2_col (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-! ## The body's triple -/

set_option maxHeartbeats 1000000 in
/-- The body on whole staging memrefs, the three inputs at contents a (tile), r (row degrees) and s (column degrees)
    and the output at anything, runs to the continuation holding the inputs as they were and the output at the scaled
    tile's payload of a, r and s: its one store covers the whole tile, so the tile afterwards is the stored payload,
    and each load through the whole block reads the contents. -/
theorem scale_triple (c : Dev nD) (E : Set ℕ) (i : grid2.Coords)
    (a2 : Memref sig .tc .vmem S512x512 .f32) (ha2 : a2.IsWhole)
    (a3 : Memref sig .tc .vmem S512x1 .f32) (ha3 : a3.IsWhole)
    (a4 : Memref sig .tc .vmem S512x1 .f32) (ha4 : a4.IsWhole)
    (a5 : Memref sig .tc .vmem S512x512 .f32) (ha5 : a5.IsWhole)
    (a : Vec F S512x512 .f32) (r : Vec F S512x1 .f32) (s : Vec F S512x1 .f32) (K : PUnit → sProp 𝕄) :
    iprop(owns (c : Thread nD τ) a2 fullShare a ∗ owns (c : Thread nD τ) a3 fullShare r
        ∗ owns (c : Thread nD τ) a4 fullShare s
        ∗ (∃ d, owns (c : Thread nD τ) a5 fullShare d)
        ∗ (iprop(owns (c : Thread nD τ) a2 fullShare a ∗ owns (c : Thread nD τ) a3 fullShare r
            ∗ owns (c : Thread nD τ) a4 fullShare s
            ∗ owns (c : Thread nD τ) a5 fullShare (k2_pay1 a r s)) -∗ K ⟨⟩))
      ⊢ wp frame (wpE (defs₀ (F := F)) Variants.none c none) E (cc2__k3 i a2 ha2 a3 ha3 a4 ha4 a5 ha5) K := by
  simp only [cc2__k3_eq_skeleton]; unfold cc2__k3_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _
    (fun y => ⟨_, List.mem_singleton_self _, View.mem_set_unit_zero origin2 inb_S512x512_S512x512_0_0 y⟩)).trans ?_
  rw [View.canon_unit_zero origin2]
  simp only [View.readAt_eq_ld, View.ld_unit_zero (S := S512x512) origin2, View.ld_unit_zero (S := S512x1) origin2]

/-! ## The body obligation, at a generic point -/

/-- What the body is called with at point t: the invariant, what the core owes, and each window's current staging
    buffer at what it then holds. -/
def enter2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- What it returns: the same invariant and debt, each buffer at what the body leaves. -/
def leave2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so the triple applies at those blocks; the invariant
    and the debt pass through unread. -/
theorem body_at2 (c : Dev nD) (t : Fin cfg2.N) :
    enter2 V c t ⊢ wp frame (wpE (defs₀ (F := F)) Variants.none c none) Set.univ (bodyAt2 t) (fun _ => leave2 V c t) := by
  unfold enter2 leave2 bodyAt2
  simp only [holds2_adj, holds2_row, holds2_col]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (scale_triple c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation for region 2, at every point. -/
theorem body_obligation2 (c : Dev nD) : BodyObligation (dat2 (F := F) V c) (defs₀ (F := F)) Variants.none () Set.univ := by
  intro t
  rw [bigSep_W2, bigSep_W2]
  exact body_at2 V c t

end Cert.KernelIdeal.Hand

end
-- ==== Proof.KiSeg2.lean ====
/-
  Region 2 as a segment of the run: entered from every unscoped buffer at the contents the item before it left, it leaves
  them at those contents with its output arrays replaced by what its write-backs leave. Its windows' arrays are split out of
  the unscoped buffers on entry and put back on exit; the one array that two of its windows read is dealt to them at
  complementary halves of the full share, and joined again on exit; the generator register goes into the invariant and comes back;
  nothing is owed; the kernel has no semaphore of its own.
-/
import proofs.«126364_j5334349382038_1_alg».proof.Proof.KiRun
import proofs.«126364_j5334349382038_1_alg».proof.Proof.KiBody2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 2's arrays among a core's unscoped buffers

Four windows stand on three buffers: the adjacency (window 0), the degree column (windows 1 and 2, its row block and
its column block) and the normalised adjacency (window 3, the output). The proof data holds the degree column at
the left half of the full share for window 1 and at the right half for window 2; the two halves compose to the
full share, so the buffer is dealt to the two windows on entry and the two parts, at equal contents, rejoin on exit. -/

section Arrays

variable (B : (c : Dev nD) → (b : Ref sig .tc) → Buf (Elt F) ((c : Thread nD τ).loc b))

/-- The buffers behind region 2's windows, each once. -/
theorem reg2_arrBufs_eq (c : Dev nD) (X : (b : Ref sig .tc) → Buf (Elt F) ((c : Thread nD τ).loc b)) :
    (Pipeline.arrBufs (Ix := Unit) (Name := ℕ) (U := UR sig nD τ) (Lvl := ℕ) spec2 c X : sProp 𝕄)
      = iprop((((c : Thread nD τ).loc main_v3_0) ↦{fullShare} X main_v3_0)
          ∗ (((c : Thread nD τ).loc main_v3_1) ↦{fullShare} X main_v3_1)
          ∗ (((c : Thread nD τ).loc main_v4) ↦{fullShare} X main_v4)) := by
  unfold Pipeline.arrBufs
  exact bigSep_eq_bigSepL_of_eq [main_v3_0, main_v3_1, main_v4] (by decide) (by decide) _

/-- The proof data's arrays window by window, each a whole buffer at its window's share. -/
theorem reg2_arrays_eq (c : Dev nD)
    (G : (w : Fin cfg2.W) → Buf (Elt F) ((cfg2.win w).arr.view.loc (c : Thread nD τ))) :
    ((dat2 B c).arrays G : sProp 𝕄)
      = iprop((((c : Thread nD τ).loc main_v3_0) ↦{fullShare} G 0)
          ∗ (((c : Thread nD τ).loc main_v3_1) ↦{fullShare.left} G 1)
          ∗ (((c : Thread nD τ).loc main_v3_1) ↦{fullShare.right} G 2)
          ∗ (((c : Thread nD τ).loc main_v4) ↦{fullShare} G 3)) := by
  unfold Dat.arrays
  rw [Gen.bigSep_W2]
  rw [(Gen.arr_whole2 0).set_eq_univ, (Gen.arr_whole2 1).set_eq_univ, (Gen.arr_whole2 3).set_eq_univ]
  rfl

/-- A core's unscoped buffers are those three buffers and the rest. -/
theorem reg2_unscopedBufs_split (c : Dev nD) (X : (b : Ref sig .tc) → Buf (Elt F) ((c : Thread nD τ).loc b)) :
    (unscopedBufs (Ix := Unit) (Name := ℕ) (U := UR sig nD τ) (Lvl := ℕ) c X : sProp 𝕄)
      = iprop(Pipeline.arrBufs (Ix := Unit) (Name := ℕ) (U := UR sig nD τ) (Lvl := ℕ) spec2 c X
          ∗ Pipeline.unscopedRest (Ix := Unit) (Name := ℕ) (U := UR sig nD τ) (Lvl := ℕ) spec2 c X) :=
  Pipeline.unscopedBufs_split₀ cfgs 2 Gen.winFacts₀2.arr_unscoped c X

/-- Entry: a core's unscoped buffers at the contents the region is entered from are the proof data's arrays at their
    entry contents beside the rest, the degree column's full share cut in its two halves. -/
theorem reg2_arrays_of_unscopedBufs (c : Dev nD) :
    (unscopedBufs (Ix := Unit) (Name := ℕ) (U := UR sig nD τ) (Lvl := ℕ) c (B c) : sProp 𝕄)
      ⊢ iprop((dat2 B c).arrays (dat2 B c).A
          ∗ Pipeline.unscopedRest (Ix := Unit) (Name := ℕ) (U := UR sig nD τ) (Lvl := ℕ) spec2 c (B c)) := by
  rw [reg2_unscopedBufs_split, reg2_arrBufs_eq, reg2_arrays_eq]
  iintro ⟨⟨Hadj, Hdeg, Hout⟩, Hoff⟩
  ihave Hhalves := (pointsTo_share (PosShare.mem_left_op_right fullShare)).1 $$ Hdeg
  icases Hhalves with ⟨Hrow, Hcol⟩
  isplitr [Hoff]
  · isplitl [Hadj]; · iexact Hadj
    isplitl [Hrow]; · iexact Hrow
    isplitl [Hcol]; · iexact Hcol
    iexact Hout
  iexact Hoff

/-- Exit: the arrays at contents G beside the rest at contents X₀ are the core's unscoped buffers at any contents X₁ that
    holds G at the arrays (the two windows on the degree column at one and the same contents, so that the halves
    join) and X₀ everywhere else. -/
theorem reg2_unscopedBufs_of_arrays (c : Dev nD) (X₀ X₁ : (b : Ref sig .tc) → Buf (Elt F) ((c : Thread nD τ).loc b))
    (G : (w : Fin cfg2.W) → Buf (Elt F) ((cfg2.win w).arr.view.loc (c : Thread nD τ)))
    (hadj : G 0 = X₁ main_v3_0) (hrow : G 1 = X₁ main_v3_1) (hcol : G 2 = X₁ main_v3_1) (hout : G 3 = X₁ main_v4)
    (hoff : ∀ b, b ∉ Finset.univ.image (Pipeline.arrRef spec2) → X₁ b = X₀ b) :
    iprop((dat2 B c).arrays G ∗ Pipeline.unscopedRest (Ix := Unit) (Name := ℕ) (U := UR sig nD τ) (Lvl := ℕ) spec2 c X₀)
      ⊢ (unscopedBufs (Ix := Unit) (Name := ℕ) (U := UR sig nD τ) (Lvl := ℕ) c X₁ : sProp 𝕄) := by
  have hrest : (Pipeline.unscopedRest (Ix := Unit) (Name := ℕ) (U := UR sig nD τ) (Lvl := ℕ) spec2 c X₀ : sProp 𝕄)
      = Pipeline.unscopedRest (Ix := Unit) (Name := ℕ) (U := UR sig nD τ) (Lvl := ℕ) spec2 c X₁ := by
    unfold Pipeline.unscopedRest
    exact bigSep_congr fun b hb => by rw [hoff b (Finset.mem_sdiff.mp hb).2]
  rw [reg2_unscopedBufs_split, reg2_arrBufs_eq, reg2_arrays_eq, hadj, hrow, hcol, hout, hrest]
  iintro ⟨⟨Hadj, Hrow, Hcol, Hout⟩, Hoff⟩
  isplitr [Hoff]
  · isplitl [Hadj]; · iexact Hadj
    isplitl [Hrow Hcol]
    · iapply (pointsTo_share (PosShare.mem_left_op_right fullShare)).2
      isplitl [Hrow]; · iexact Hrow
      iexact Hcol
    iexact Hout
  iexact Hoff

end Arrays

variable (m : (ℓ : Loc nD τ sig) → Buf (Elt F) ℓ)

/-! ## The exit contents at region 2's arrays and off them -/

/-- The update at the output array leaves the adjacency's array alone, -/
theorem reg2_exit_adj (c : Dev nD) : E3 m c main_v3_0 = W4 m c main_v3_0 :=
  (Function.update_of_ne (f := W3 m c) (StableHlo.devRef_ne_of_ne (by decide)) (nrmOut m c)).symm
/-- and the degree column's; -/
theorem reg2_exit_deg (c : Dev nD) : E3 m c main_v3_1 = W4 m c main_v3_1 :=
  (Function.update_of_ne (f := W3 m c) (StableHlo.devRef_ne_of_ne (by decide)) (nrmOut m c)).symm
/-- at the output array it is what the write-backs leave there; -/
theorem reg2_exit_out (c : Dev nD) : nrmOut m c = W4 m c main_v4 :=
  (Function.update_self (Proc.devRef .tc main_v4 : DevRef τ sig) (nrmOut m c) (W3 m c)).symm
/-- and it leaves every buffer that is no array of the region alone. -/
theorem reg2_exit_off (c : Dev nD) (b : Ref sig .tc) (hb : b ∉ Finset.univ.image (Pipeline.arrRef spec2)) :
    W4 m c b = E3 m c b :=
  Function.update_of_ne (f := W3 m c) (StableHlo.devRef_ne_of_ne fun e =>
    hb (Finset.mem_image.mpr ⟨3, Finset.mem_univ _, e.symm⟩)) (nrmOut m c)

set_option backward.isDefEq.respectTransparency.types false in
/-- Region 2 over the thread state. -/
def reg2 : Pipeline.RegionSeg (pcfgs (F := F)) Gen.adm (pdats m) () defs₀ 𝒱₀ L lv 2 where
  win := Gen.winFacts₀2
  block_pos := Gen.block_pos2
  stage_whole := Gen.stage_whole2
  K := PEmpty
  osem k := k.elim
  ho := Pipeline.OwnSemFacts.none _
  hbody c := (body_obligation2 (E3 m) c).loose
  hwaits := Pipeline.hwaits_of_owed_zero _ _ _ _ L lv 2 fun _ _ => rfl
  pre c := TS (W3 m) c
  post c := TS (W4 m) c
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hdeal := reg2_arrays_of_unscopedBufs (E3 m) c
    rw [Pipeline.unscopedBufs_held] at hdeal
    iintro ⟨⟨Hbufs, Hreg, Howes⟩, -, -⟩
    ihave H := hdeal $$ Hbufs
    icases H with ⟨Harr, Hoff⟩
    imodintro
    isplitl [Harr]; · iexact Harr
    isplitr; · unfold Pipeline.prefHeld; rw [show (Finset.univ : Finset (Fin 0)) = ∅ from rfl, BI.bigSep_empty]; iempintro
    isplitl [Howes]
    · unfold Pipeline.Dat.owesAt Pipeline.owesWithin
      icases Howes with ⟨%W, Howes⟩; iexists W; isplitr; · ipureintro; exact fun _ _ => Or.inl trivial
      iexact Howes
    isplitl [Hreg]; · iexact Hreg
    iexact Hoff
  hin c := by
    rw [show (pdats m 2 c).Φ 0 = Pipeline.ΦA spec2 c from rfl]; unfold Pipeline.ΦA
    iintro ⟨Hreg, -, Hscoped⟩
    isplitl [Hscoped]; · iexact Hscoped
    iexact Hreg
  hout c := by
    rw [Pipeline.ownSems0_none, show (pdats m 2 c).Φ (Fin.last _) = Pipeline.ΦA spec2 c from rfl]; unfold Pipeline.ΦA
    iintro ⟨Hscoped, Hreg⟩
    isplitl [Hreg]; · iexact Hreg
    isplitr; · iempintro
    iexact Hscoped
  hexit c := by
    have hjoin : iprop((pdats m 2 c).arrays ((pdats m 2 c).arrAt · cfg2.N)
          ∗ Pipeline.unscopedRest (Ix := Unit) (Name := ℕ) (U := UR sig nD τ) (Lvl := ℕ) spec2 c (E3 m c))
        ⊢ (unscopedBufs (Ix := Unit) (Name := ℕ) (U := UR sig nD τ) (Lvl := ℕ) c (fun b => W4 m c b) : sProp 𝕄) :=
      reg2_unscopedBufs_of_arrays (E3 m) c (E3 m c) (fun b => W4 m c b) ((dat2 (E3 m) c).arrAt · cfg2.N)
      (((dat2 (E3 m) c).arrAt_in 0 rfl _).trans (reg2_exit_adj m c))
      (((dat2 (E3 m) c).arrAt_in 1 rfl _).trans (reg2_exit_deg m c))
      (((dat2 (E3 m) c).arrAt_in 2 rfl _).trans (reg2_exit_deg m c))
      (reg2_exit_out m c) (reg2_exit_off m c)
    rw [Pipeline.unscopedBufs_held] at hjoin
    iintro ⟨Harr, Howes, Hreg, Hoff⟩
    imodintro
    isplitl [Harr Hoff]
    · iapply hjoin; isplitl [Harr] <;> iassumption
    isplitl [Hreg]; · iexact Hreg
    unfold Pipeline.Dat.owesAt Pipeline.owesWithin
    icases Howes with ⟨%W, -, Howes⟩; iexists W; iexact Howes

end Cert.KernelIdeal.Hand

end
-- ==== Proof.KiSegs.lean ====
/-
  The whole run of the program: the host stretch, then the three kernel regions in order, each entered from the buffer
  contents the item before it left; at the end every unscoped buffer is read back off the last contents.
-/
import proofs.«126364_j5334349382038_1_alg».proof.Proof.KiSeg0
import proofs.«126364_j5334349382038_1_alg».proof.Proof.KiSeg1
import proofs.«126364_j5334349382038_1_alg».proof.Proof.KiSeg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The last contents read at the results and at the arguments -/

/-- An unscoped reference of the core is among those the thread state holds. -/
private theorem mem_uc (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- The normalised adjacency's array ends at what region 2 leaves: the last update is at it. -/
private theorem W4_v4 (c : Dev nD) : W4 m c main_v4 = nrmOut m c :=
  Function.update_self (Proc.devRef .tc main_v4 : DevRef τ sig) (nrmOut m c) (W3 m c)

/-- The adjacency's array ends at what region 1 leaves: region 2's update and the degree column's are elsewhere. -/
private theorem W4_v3_0 (c : Dev nD) : W4 m c main_v3_0 = adjOut m c :=
  (Function.update_of_ne (f := W3 m c) (StableHlo.devRef_ne_of_ne (by decide)) (nrmOut m c)).trans <|
    (Function.update_of_ne (f := Function.update (W2 m c) main_v3_0 (adjOut m c)) (StableHlo.devRef_ne_of_ne (by decide)) (degOut m c)).trans <|
      Function.update_self (Proc.devRef .tc main_v3_0 : DevRef τ sig) (adjOut m c) (W2 m c)

/-- A buffer no region's update is at and the host stretch does not write ends as launched. -/
private theorem W4_of (c : Dev nD) (r : Ref sig .tc) (h4 : r ≠ main_v4) (h31 : r ≠ main_v3_1) (h30 : r ≠ main_v3_0) (h2 : r ≠ main_v2)
    (hh : r ∉ Gen.hostOps0_W) : W4 m c r = m ((c.tc : Thread nD τ).loc r) :=
  (Function.update_of_ne (f := W3 m c) (StableHlo.devRef_ne_of_ne h4) (nrmOut m c)).trans <|
    (Function.update_of_ne (f := Function.update (W2 m c) main_v3_0 (adjOut m c)) (StableHlo.devRef_ne_of_ne h31) (degOut m c)).trans <|
      (Function.update_of_ne (f := W2 m c) (StableHlo.devRef_ne_of_ne h30) (adjOut m c)).trans <|
        (Function.update_of_ne (f := W1 m c) (StableHlo.devRef_ne_of_ne h2) (zOut m c)).trans <|
          (Gen.V1_of m c r hh).trans rfl

/-! ## The program as its items, and the launch -/

/-- The program's four items in order: the host stretch from the launch contents, then the three regions. -/
private abbrev runSegs : List (Pipeline.Seg (pcfgs (F := F)) Gen.adm (pdats m) () defs₀ 𝒱₀ L lv) :=
  [ .host (Gen.seg0 m 𝒱₀ L lv (fun _ => R)),
    .region (reg0 m),
    .region (reg1 m),
    .region (reg2 m) ]

set_option backward.isDefEq.respectTransparency.types false in
/-- Every weakly fair execution of the program terminates, faulting nowhere, with the two results at what regions 2 and 1
    leave and the two arguments as launched. -/
theorem run_all : θ_run defs (onTc (τ := τ) (main (F := F))) ⟨m, fun _ => 0, ρ⟩ (fun r => ∀ c : Dev nD,
      r.2.mem ((c.tc : Thread nD τ).loc main_v4) = nrmOut m c
      ∧ r.2.mem ((c.tc : Thread nD τ).loc main_v3_0) = adjOut m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) Gen.adm (pdats m) () Gen.cellOf_inj emb₁ defs₀ 𝒱₀ L lv m ρ main (runSegs m)
    (fun c Q => by
      rewrite [Gen.main_chain c, Pipeline.Seg.run_eq_chain,
        show (runSegs m).map Pipeline.Seg.prog = [
          StableHlo.seq Gen.hostOps0,
          Prog.lift (.customCall (Pipeline.entry 0) ()),
          Prog.lift (.customCall (Pipeline.entry 1) ()),
          Prog.lift (.customCall (Pipeline.entry 2) ()) ] from rfl]
      exact .rfl)
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => TS (fun c => Gen.V0 m c) c)
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      show TS (W4 m) c ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v4 (by decide))).trans (W4_v4 m c),
       (h c _ (mem_uc main_v3_0 (by decide))).trans (W4_v3_0 m c),
       (h c _ (mem_uc main_arg0 (by decide))).trans (W4_of m c main_arg0 (by decide) (by decide) (by decide) (by decide) (by decide)),
       (h c _ (mem_uc main_arg1 (by decide))).trans (W4_of m c main_arg1 (by decide) (by decide) (by decide) (by decide) (by decide))⟩)

end Cert.KernelIdeal.Hand

end
-- ==== Proof.Spec.lean ====
/-
  The mathematics both programs compute, as functions of the two argument arrays over the extended reals.
  With z = x·p (a row of x against a column of p, summed over the 2048 shared coordinates):
    sqn z r      = Σ_k z(r,k)²                      the squared norm of row r
    gram z r c   = Σ_k z(r,k)·z(c,k)                the inner product of rows r and c
    dist2 z r c  = max((sqn r + sqn c) − 2·gram r c, 0)
    adj z r c    = exp(−1 · d)  with d = 0 on the diagonal and √dist2 off it (the inner select keeps √ away from the diagonal)
    deg z r      = rsqrt(Σ_c adj z r c)             the inverse square root of row r's degree
    nrm z r c    = (deg r · adj r c) · deg c        the symmetrically normalised adjacency
  The float literals stay the words the programs print; only the zero word is ever evaluated.
-/
import Idealize.ShloMosaic.PureOps.Ideal
import Idealize.ShloMosaic.Lib.ValueIdx

noncomputable section

open scoped BigOperators

namespace Cert.Spec

open Idealize.ShloMosaic Idealize.ShloMosaic.ValueIdx

/-- The features' shape, and z's. -/
abbrev SF : Shape := ⟨2, ![4096, 2048]⟩
/-- The projection's shape. -/
abbrev SW : Shape := ⟨2, ![2048, 2048]⟩
/-- The pairwise arrays' shape. -/
abbrev SQ : Shape := ⟨2, ![4096, 4096]⟩
/-- The degree column's shape. -/
abbrev SC : Shape := ⟨2, ![4096, 1]⟩

/-- The literals of the distance chain, as the words both programs print. -/
def two : EReal := Ideal.ofBits .f32 0x40000000#32
def zero : EReal := Ideal.ofBits .f32 0x00000000#32
def one : EReal := Ideal.ofBits .f32 0x3F800000#32
def negOne : EReal := Ideal.ofBits .f32 0xBF800000#32

/-- z = x·p at row r, column k. -/
def proj (x : SF.Idx → EReal) (p : SW.Idx → EReal) (r : Fin 4096) (k : Fin 2048) : EReal :=
  ∑ j : Fin 2048, x (ix2 r j) * p (ix2 j k)

/-- The squared norm of row r of z. -/
def sqn (z : Fin 4096 → Fin 2048 → EReal) (r : Fin 4096) : EReal := ∑ k : Fin 2048, z r k * z r k

/-- The inner product of rows r and c of z. -/
def gram (z : Fin 4096 → Fin 2048 → EReal) (r c : Fin 4096) : EReal := ∑ k : Fin 2048, z r k * z c k

/-- The clamped squared distance between rows r and c. -/
def dist2 (z : Fin 4096 → Fin 2048 → EReal) (r c : Fin 4096) : EReal :=
  max ((sqn z r + sqn z c) - two * gram z r c) zero

/-- The adjacency before normalisation. -/
def adj (z : Fin 4096 → Fin 2048 → EReal) (r c : Fin 4096) : EReal :=
  Ideal.exp (negOne * (if r.val = c.val then zero else Ideal.sqrt (if r.val = c.val then one else dist2 z r c)))

/-- The inverse square root of row r's degree. -/
def deg (z : Fin 4096 → Fin 2048 → EReal) (r : Fin 4096) : EReal := Ideal.rsqrt (∑ c : Fin 4096, adj z r c)

/-- The normalised adjacency. -/
def nrm (z : Fin 4096 → Fin 2048 → EReal) (r c : Fin 4096) : EReal := (deg z r * adj z r c) * deg z c

/-- An adjacency array a scaled by a degree column d on both sides: (d(r) · a(r, c)) · d(c). -/
def scale (a : SQ.Idx → EReal) (d : SC.Idx → EReal) : SQ.Idx → EReal :=
  fun i => (d (ix2 (i 0) (0 : Fin 1)) * a i) * d (ix2 (i 1) (0 : Fin 1))

/-- The four arrays, as functions of the arguments. -/
def zArr (x : SF.Idx → EReal) (p : SW.Idx → EReal) : SF.Idx → EReal := fun i => proj x p (i 0) (i 1)
def adjArr (x : SF.Idx → EReal) (p : SW.Idx → EReal) : SQ.Idx → EReal := fun i => adj (proj x p) (i 0) (i 1)
def degArr (x : SF.Idx → EReal) (p : SW.Idx → EReal) : SC.Idx → EReal := fun i => deg (proj x p) (i 0)
def nrmArr (x : SF.Idx → EReal) (p : SW.Idx → EReal) : SQ.Idx → EReal := fun i => nrm (proj x p) (i 0) (i 1)

end Cert.Spec

end
-- ==== Proof.KiVal0.lean ====
/-
  What region 0 leaves in z's array, over the extended reals: entry (r, k) is row r of x against column k of p.
-/
import proofs.«126364_j5334349382038_1_alg».proof.Proof.KiData
import proofs.«126364_j5334349382038_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The two arrays region 0 reads, at their literal types. -/
abbrev xArr (c : Dev nD) : FVec Ideal S4096x2048 .bf16 := V c main_v0
abbrev pArr (c : Dev nD) : FVec Ideal S2048x2048 .bf16 := V c main_v1

/-- The product's left operand index on its row axis is the output's row. -/
theorem zdot_lhs_0 (i : S512x2048.Idx) (q : dot_S512x2048_S2048x2048_S512x2048_1_0_0_1_n_n.contr.Idx) :
    (dot_S512x2048_S2048x2048_S512x2048_1_0_0_1_n_n.lhsIdx i q 0).val = (i 0).val := by
  unfold DotDims.lhsIdx
  rw [dif_neg (show ¬(0 : Fin S512x2048.rank) ∈ dot_S512x2048_S2048x2048_S512x2048_1_0_0_1_n_n.lhsBatch by decide), dif_pos (show (0 : Fin S512x2048.rank) ∈ dot_S512x2048_S2048x2048_S512x2048_1_0_0_1_n_n.lhsNonContracting by decide)]
  rfl
/-- … and on its column axis the summation index. -/
theorem zdot_lhs_1 (i : S512x2048.Idx) (q : dot_S512x2048_S2048x2048_S512x2048_1_0_0_1_n_n.contr.Idx) :
    (dot_S512x2048_S2048x2048_S512x2048_1_0_0_1_n_n.lhsIdx i q 1).val = (q ⟨0, by decide⟩).val :=
  dot_S512x2048_S2048x2048_S512x2048_1_0_0_1_n_n.lhsIdx_val_of_single rfl i q
/-- The right operand index on its row axis is the summation index … -/
theorem zdot_rhs_0 (i : S512x2048.Idx) (q : dot_S512x2048_S2048x2048_S512x2048_1_0_0_1_n_n.contr.Idx) :
    (dot_S512x2048_S2048x2048_S512x2048_1_0_0_1_n_n.rhsIdx i q 0).val = (q ⟨0, by decide⟩).val :=
  dot_S512x2048_S2048x2048_S512x2048_1_0_0_1_n_n.rhsIdx_val_of_single rfl i q
/-- … and on its column axis the output's column. -/
theorem zdot_rhs_1 (i : S512x2048.Idx) (q : dot_S512x2048_S2048x2048_S512x2048_1_0_0_1_n_n.contr.Idx) :
    (dot_S512x2048_S2048x2048_S512x2048_1_0_0_1_n_n.rhsIdx i q 1).val = (i 1).val := by
  unfold DotDims.rhsIdx
  rw [dif_neg (show ¬(1 : Fin S2048x2048.rank) ∈ dot_S512x2048_S2048x2048_S512x2048_1_0_0_1_n_n.rhsBatch by decide), dif_pos (show (1 : Fin S2048x2048.rank) ∈ dot_S512x2048_S2048x2048_S512x2048_1_0_0_1_n_n.rhsNonContracting by decide)]
  rfl

/-- The product's payload at row p, column q: row p of the left block against column q of the right block. -/
theorem k0_pay1_apply (x0 : FVec Ideal S512x2048 .bf16) (x2 : FVec Ideal S2048x2048 .bf16) (p : Fin 512) (q : Fin 2048) :
    k0_pay1 (F := Ideal) x0 x2 (ix2 p q) = ∑ k : Fin 2048, x0 (ix2 p k) * x2 (ix2 k q) := by
  unfold k0_pay1
  rw [shapeCast_self, shapeCast_self]
  refine (Ideal.matmul_constant_zero_apply dot_S512x2048_S2048x2048_S512x2048_1_0_0_1_n_n none x0 x2 (ix2 p q)).trans ?_
  rw [← Equiv.sum_comp (contrEquiv1 dot_S512x2048_S2048x2048_S512x2048_1_0_0_1_n_n 2048 rfl rfl).symm]
  refine Finset.sum_congr rfl fun k _ => ?_
  have hk := contrEquiv1_symm_val dot_S512x2048_S2048x2048_S512x2048_1_0_0_1_n_n 2048 rfl rfl k
  have el : dot_S512x2048_S2048x2048_S512x2048_1_0_0_1_n_n.lhsIdx (ix2 p q) ((contrEquiv1 dot_S512x2048_S2048x2048_S512x2048_1_0_0_1_n_n 2048 rfl rfl).symm k) = ix2 p k := funext fun a => Fin.ext (by
    match a with
    | ⟨0, _⟩ => exact zdot_lhs_0 _ _
    | ⟨1, _⟩ => exact (zdot_lhs_1 _ _).trans hk)
  have er : dot_S512x2048_S2048x2048_S512x2048_1_0_0_1_n_n.rhsIdx (ix2 p q) ((contrEquiv1 dot_S512x2048_S2048x2048_S512x2048_1_0_0_1_n_n 2048 rfl rfl).symm k) = ix2 k q := funext fun a => Fin.ext (by
    match a with
    | ⟨0, _⟩ => exact (zdot_rhs_0 _ _).trans hk
    | ⟨1, _⟩ => exact zdot_rhs_1 _ _)
  rw [el, er]

/-- The index maps over the grid: the left window and the output move one row block per point, the right window stays. -/
theorem zidx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left window's block at point t is rows 512·t … 512·t + 511 of the array it reads. -/
theorem zblk0_apply (c : Dev nD) (t : Fin cfg0.N) (y : S512x2048.Idx) (i : S4096x2048.Idx)
    (h0 : (i 0).val = 512 * t.val + (y 0).val) (h1 : (i 1).val = (y 1).val) :
    (iblk0 V c 0 t : Vec Ideal S512x2048 .bf16) y = (V c main_v0 : Vec Ideal S4096x2048 .bf16) i := by
  obtain ⟨e0, e1, -⟩ := zidx_facts t
  unfold iblk0
  rw [View.read_apply]
  show V c main_v0 _ = V c main_v0 _
  congr 1
  funext a
  apply Fin.ext
  match a with
  | ⟨0, _⟩ => show win0_0.index t (0 : Fin 2) * 512 + 1 * (y 0).val = (i 0).val; rw [e0, h0]; omega
  | ⟨1, _⟩ => show win0_0.index t (1 : Fin 2) * 2048 + 1 * (y 1).val = (i 1).val; rw [e1, h1]; omega

/-- The right window's block at every point is the whole array it reads. -/
theorem zblk1_apply (c : Dev nD) (t : Fin cfg0.N) (y : S2048x2048.Idx) :
    (iblk0 V c 1 t : Vec Ideal S2048x2048 .bf16) y = (V c main_v1 : Vec Ideal S2048x2048 .bf16) y := by
  obtain ⟨-, -, e2, e3, -⟩ := zidx_facts t
  unfold iblk0
  rw [View.read_apply]
  show V c main_v1 _ = V c main_v1 _
  congr 1
  funext a
  apply Fin.ext
  match a with
  | ⟨0, _⟩ => show win0_1.index t (0 : Fin 2) * 2048 + 1 * (y 0).val = (y 0).val; rw [e2]; omega
  | ⟨1, _⟩ => show win0_1.index t (1 : Fin 2) * 2048 + 1 * (y 1).val = (y 1).val; rw [e3]; omega

/-- An entry of point t's output block is the row of the left array it sits on against its column of the right array. -/
theorem z_point (c : Dev nD) (t : Fin cfg0.N) (y : S512x2048.Idx) (i : S4096x2048.Idx)
    (h0 : (i 0).val = 512 * t.val + (y 0).val) (h1 : (i 1).val = (y 1).val) :
    k0_pay1 (F := Ideal) (iblk0 V c 0 t) (iblk0 V c 1 t) y = Cert.Spec.zArr (V c main_v0) (V c main_v1) i := by
  obtain ⟨p, q, rfl⟩ : ∃ (p : Fin 512) (q : Fin 2048), y = ix2 p q := ⟨y 0, y 1, eq_ix2 y⟩
  obtain ⟨r, s, rfl⟩ : ∃ (r : Fin 4096) (s : Fin 2048), i = ix2 r s := ⟨i 0, i 1, eq_ix2 i⟩
  have h0' : r.val = 512 * t.val + p.val := h0
  obtain rfl : s = q := Fin.ext h1
  refine (k0_pay1_apply (iblk0 V c 0 t) (iblk0 V c 1 t) p s).trans ?_
  show _ = ∑ j : Fin 2048, xArr V c (ix2 r j) * pArr V c (ix2 j s)
  refine Finset.sum_congr rfl fun k _ => ?_
  rw [zblk0_apply V c t (ix2 p k) (ix2 r k) h0' rfl, zblk1_apply V c t (ix2 k s)]

/-- What point t writes back is its row block of the product of the two arrays. -/
theorem z_flushed (c : Dev nD) (t : Fin cfg0.N) :
    (dat0 (F := Ideal) V c).flushed 2 t
      = ((cfg0.win 2).blk t).view.read (Elt Ideal) (Cert.Spec.zArr (V c main_v0) (V c main_v1)) := by
  show (cfg0.win 2).cut (grid0.coords t) ((dat0 (F := Ideal) V c).after 2 t) = _
  rw [after0_2]
  obtain ⟨-, -, -, -, e4, e5⟩ := zidx_facts t
  funext y
  refine z_point V c t ((cfg0.win 2).xinj (grid0.coords t) y) (((cfg0.win 2).blk t).view.emb y) ?_ ?_
  · show win0_2.index t (0 : Fin 2) * 512 + 1 * (y 0).val = 512 * t.val + (y 0).val
    rw [e4]; omega
  · show win0_2.index t (1 : Fin 2) * 2048 + 1 * (y 1).val = (y 1).val
    rw [e5]; omega

/-- An index of the output array is in point t's block iff each coordinate is in the block's range on its axis. -/
theorem z_mem_blk (t : Fin cfg0.N) (i : S4096x2048.Idx) :
    i ∈ ((cfg0.win 2).blk t).view.set ↔ ∀ a : Fin 2, win0_2.index t a * S512x2048.size a ≤ (i a).val ∧ (i a).val < win0_2.index t a * S512x2048.size a + S512x2048.size a := by
  show i ∈ ((View.whole main_v2).slice (win0_2.rect t)).set ↔ _
  rw [View.set_slice_whole, Rect.mem_set_unit]
  exact Iff.rfl

/-- Every row block of the output is some point's. -/
theorem zidx_onto : ∀ q0 : Fin 8, ∃ t : Fin cfg0.N, win0_2.index t = ![q0.val, 0] :=
  (by decide +kernel : ∀ q0 : Fin 8, ∃ t : Fin grid0.N, win0_2.index t = ![q0.val, 0])

/-- The row blocks tile the output array: row r is in the block of point r / 512. -/
theorem z_cover (i : S4096x2048.Idx) :
    ∃ t : Fin cfg0.N, (cfg0.win 2).flush t = true ∧ i ∈ ((cfg0.win 2).blk t).view.set := by
  have hi0 : (i 0).val < 4096 := (i 0).isLt
  have hi1 : (i 1).val < 2048 := (i 1).isLt
  obtain ⟨t, ht⟩ := zidx_onto ⟨(i 0).val / 512, by omega⟩
  have q0 : win0_2.index t (0 : Fin 2) = (i 0).val / 512 := congrFun ht 0
  have q1 : win0_2.index t (1 : Fin 2) = 0 := congrFun ht 1
  refine ⟨t, flush0_2 t, ?_⟩
  rw [z_mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 2048 ≤ (i 1).val ∧ (i 1).val < win0_2.index t (1 : Fin 2) * 2048 + 2048; omega

/-- Region 0's output array after the last point is the product of the two arrays it was entered with. -/
theorem z_final (c : Dev nD) :
    (dat0 (F := Ideal) V c).arrAt 2 cfg0.N = Cert.Spec.zArr (V c main_v0) (V c main_v1) :=
  (dat0 (F := Ideal) V c).arrAt_eq_of_cover 2 (Cert.Spec.zArr (V c main_v0) (V c main_v1)) (fun t _ => z_flushed V c t) z_cover

end Cert.KernelIdeal.Hand

end
-- ==== Proof.KiTile.lean ====
/-
  One tile of region 1 over the extended reals. Point t = 16·i + j holds row block i and row block j of z; entry (y, x) of
  its adjacency tile is the specification's adjacency of z's rows 256·i + y and 256·j + x: the two squared norms are the
  lane sums of the blocks' squares, the inner product the blocks' contraction over the 2048 shared coordinates, and the
  diagonal test compares the two global row numbers, which are below 4096 and so do not wrap as 32-bit words.
-/
import proofs.«126364_j5334349382038_1_alg».proof.Proof.KiData
import proofs.«126364_j5334349382038_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## The operations of the distance chain that are not pointwise, each read at an index -/

namespace Tile

/-- A lane sum of a 256×2048 block at row r: the sum over the 2048 lanes. -/
theorem laneSum_apply (src : FVec Ideal S256x2048 .f32) (r : Fin 256) :
    multiReduction .add [1] S256 src 0x00000000#32 reduces_S256x2048_S256 (.inl rfl) rfl (ix1 r)
      = ∑ k : Fin 2048, src (ix2 r k) := by
  refine (Ideal.multiReduction_add_single src 0x00000000#32 reduces_S256x2048_S256 (.inl rfl) rfl (ix1 r)).trans ?_
  refine Finset.sum_congr rfl fun k _ => congrArg src (funext fun a => Fin.ext ?_)
  match a with
  | ⟨0, _⟩ => rfl
  | ⟨1, _⟩ => rfl

/-- A 256-vector cast to a column reads its entry at the row. -/
theorem colCast_apply {α : Type} (v : S256.Idx → α) (r : Fin 256) (u : Fin 1) :
    shapeCast S256x1 v shapeCasts_S256_S256x1 (ix2 r u) = v (ix1 r) :=
  shapeCast_apply v shapeCasts_S256_S256x1 _ _ (by
    have hu : u.val = 0 := by omega
    rw [Shape.rowMajor_val_two, Shape.rowMajor_val_one]
    show r.val = r.val * 1 + u.val
    omega)

/-- A column transposed to a row. -/
theorem colT_apply {α : Type} (v : S256x1.Idx → α) (u : Fin 1) (x : Fin 256) :
    transpose S1x256 [1, 0] v transposes_S256x1_p1_0_S1x256 (ix2 u x) = v (ix2 x u) :=
  transpose_ix2_apply v transposes_S256x1_p1_0_S1x256 u x

/-- A column broadcast over 256 columns reads the column at the row. -/
theorem colBcast_apply {α : Type} (v : S256x1.Idx → α) (y x : Fin 256) :
    broadcastTo S256x256 v broadcasts_S256x1_S256x256 (ix2 y x) = v (ix2 y (0 : Fin 1)) := by
  refine broadcastTo_apply v broadcasts_S256x1_S256x256 (ix2 y x) (ix2 y (0 : Fin 1)) fun ax => ?_
  match ax with
  | ⟨0, _⟩ =>
    show y.val = if (256 : Nat) = 1 then 0 else y.val
    rw [if_neg (by decide)]
  | ⟨1, _⟩ => rfl

/-- A row broadcast over 256 rows reads the row at the column. -/
theorem rowBcast_apply {α : Type} (v : S1x256.Idx → α) (y x : Fin 256) :
    broadcastTo S256x256 v broadcasts_S1x256_S256x256 (ix2 y x) = v (ix2 (0 : Fin 1) x) :=
  broadcastTo_1b_ab_apply v broadcasts_S1x256_S256x256 y x

/-- The square root of a vector over the extended reals, read at an index. -/
theorem vsqrt_apply {s : Shape} {φ : FTy} (a : FVec Ideal s φ) (i : s.Idx) : sqrt a i = Ideal.sqrt (a i) := rfl

/-- The contraction's operand indices, axis by axis: both operands contract their axis 1. -/
theorem lhs_tile_0 (i : S256x256.Idx) (q : dot_S256x2048_S256x2048_S256x256_1_1_0_0_n_n.contr.Idx) :
    (dot_S256x2048_S256x2048_S256x256_1_1_0_0_n_n.lhsIdx i q 0).val = (i 0).val := by
  unfold DotDims.lhsIdx
  rw [dif_neg (show ¬(0 : Fin S256x2048.rank) ∈ dot_S256x2048_S256x2048_S256x256_1_1_0_0_n_n.lhsBatch by decide), dif_pos (show (0 : Fin S256x2048.rank) ∈ dot_S256x2048_S256x2048_S256x256_1_1_0_0_n_n.lhsNonContracting by decide)]
  rfl
theorem lhs_tile_1 (i : S256x256.Idx) (q : dot_S256x2048_S256x2048_S256x256_1_1_0_0_n_n.contr.Idx) :
    (dot_S256x2048_S256x2048_S256x256_1_1_0_0_n_n.lhsIdx i q 1).val = (q ⟨0, by decide⟩).val :=
  dot_S256x2048_S256x2048_S256x256_1_1_0_0_n_n.lhsIdx_val_of_single rfl i q
theorem rhs_tile_0 (i : S256x256.Idx) (q : dot_S256x2048_S256x2048_S256x256_1_1_0_0_n_n.contr.Idx) :
    (dot_S256x2048_S256x2048_S256x256_1_1_0_0_n_n.rhsIdx i q 0).val = (i 1).val := by
  unfold DotDims.rhsIdx
  rw [dif_neg (show ¬(0 : Fin S256x2048.rank) ∈ dot_S256x2048_S256x2048_S256x256_1_1_0_0_n_n.rhsBatch by decide), dif_pos (show (0 : Fin S256x2048.rank) ∈ dot_S256x2048_S256x2048_S256x256_1_1_0_0_n_n.rhsNonContracting by decide)]
  rfl
theorem rhs_tile_1 (i : S256x256.Idx) (q : dot_S256x2048_S256x2048_S256x256_1_1_0_0_n_n.contr.Idx) :
    (dot_S256x2048_S256x2048_S256x256_1_1_0_0_n_n.rhsIdx i q 1).val = (q ⟨0, by decide⟩).val :=
  dot_S256x2048_S256x2048_S256x256_1_1_0_0_n_n.rhsIdx_val_of_single rfl i q

/-- The product of a block with another's transpose, into a zero accumulator, at (y, x): the inner product of row y
    of the first with row x of the second over the 2048 shared coordinates. -/
theorem gramTile_apply (l r : FVec Ideal S256x2048 .bf16) (y x : Fin 256) :
    matmul dot_S256x2048_S256x2048_S256x256_1_1_0_0_n_n none l r (constant (F := Ideal) S256x256 .f32 0x00000000#32) (ix2 y x)
      = ∑ k : Fin 2048, l (ix2 y k) * r (ix2 x k) := by
  refine (Ideal.matmul_constant_zero_apply dot_S256x2048_S256x2048_S256x256_1_1_0_0_n_n none l r (ix2 y x)).trans ?_
  rw [← Equiv.sum_comp (ValueIdx.contrEquiv1 dot_S256x2048_S256x2048_S256x256_1_1_0_0_n_n 2048 rfl rfl).symm]
  refine Finset.sum_congr rfl fun k _ => ?_
  have hk := ValueIdx.contrEquiv1_symm_val dot_S256x2048_S256x2048_S256x256_1_1_0_0_n_n 2048 rfl rfl k
  have el : dot_S256x2048_S256x2048_S256x256_1_1_0_0_n_n.lhsIdx (ix2 y x) ((ValueIdx.contrEquiv1 dot_S256x2048_S256x2048_S256x256_1_1_0_0_n_n 2048 rfl rfl).symm k) = ix2 y k := funext fun a => Fin.ext (by
    match a with
    | ⟨0, _⟩ => exact lhs_tile_0 _ _
    | ⟨1, _⟩ => exact (lhs_tile_1 _ _).trans hk)
  have er : dot_S256x2048_S256x2048_S256x256_1_1_0_0_n_n.rhsIdx (ix2 y x) ((ValueIdx.contrEquiv1 dot_S256x2048_S256x2048_S256x256_1_1_0_0_n_n 2048 rfl rfl).symm k) = ix2 x k := funext fun a => Fin.ext (by
    match a with
    | ⟨0, _⟩ => exact rhs_tile_0 _ _
    | ⟨1, _⟩ => exact (rhs_tile_1 _ _).trans hk)
  rw [el, er]

/-- Two naturals below 2^32 are equal as 32-bit words only if equal. -/
theorem ofNat32_inj {a b : Nat} (ha : a < 4294967296) (hb : b < 4294967296) (h : BitVec.ofNat 32 a = BitVec.ofNat 32 b) : a = b := by
  have h' := congrArg BitVec.toNat h
  rw [BitVec.toNat_ofNat, BitVec.toNat_ofNat] at h'
  have e : (2 : Nat) ^ 32 = 4294967296 := by norm_num
  rw [e, Nat.mod_eq_of_lt ha, Nat.mod_eq_of_lt hb] at h'
  exact h'

/-- The global row number as a word: block index times 256 plus the row inside the block. -/
theorem rowWord (i : Nat) (y : Nat) :
    IntOp.addi (Scalar.muli (BitVec.ofNat 32 i) 256#32) (BitVec.ofNat 32 y) = BitVec.ofNat 32 (256 * i + y) := by
  show BitVec.ofNat 32 i * 256#32 + BitVec.ofNat 32 y = _
  rw [show (256#32 : BitVec 32) = BitVec.ofNat 32 256 from rfl, ← BitVec.ofNat_mul, ← BitVec.ofNat_add, Nat.mul_comm]

/-- The diagonal test of a tile: the two global row numbers, both below 4096, compared as 32-bit words. -/
theorem diag_apply (i j : Nat) (hi : i < 16) (hj : j < 16) (y x : Fin 256) :
    cmpi .eq (addi (broadcast S256x256 (Scalar.muli (BitVec.ofNat 32 i) 256#32)) (iota .tc S256x256 32 [0] iota_S256x256_d0_w32))
             (addi (broadcast S256x256 (Scalar.muli (BitVec.ofNat 32 j) 256#32)) (iota .tc S256x256 32 [1] iota_S256x256_d1_w32)) (ix2 y x) = 1#1
      ↔ 256 * i + y.val = 256 * j + x.val := by
  show IntOp.cmpi .eq (IntOp.addi (Scalar.muli (BitVec.ofNat 32 i) 256#32) (iota .tc S256x256 32 [0] iota_S256x256_d0_w32 (ix2 y x)))
        (IntOp.addi (Scalar.muli (BitVec.ofNat 32 j) 256#32) (iota .tc S256x256 32 [1] iota_S256x256_d1_w32 (ix2 y x))) = 1#1 ↔ _
  rw [iota_single_apply, iota_single_apply]
  show IntOp.cmpi .eq (IntOp.addi (Scalar.muli (BitVec.ofNat 32 i) 256#32) (BitVec.ofNat 32 y.val))
        (IntOp.addi (Scalar.muli (BitVec.ofNat 32 j) 256#32) (BitVec.ofNat 32 x.val)) = 1#1 ↔ _
  rw [rowWord, rowWord]
  show BitVec.ofBool (BitVec.ofNat 32 (256 * i + y.val) == BitVec.ofNat 32 (256 * j + x.val)) = 1#1 ↔ _
  have hy := y.isLt
  have hx := x.isLt
  constructor
  · intro h
    have hb : (BitVec.ofNat 32 (256 * i + y.val) == BitVec.ofNat 32 (256 * j + x.val)) = true := by
      cases hc : (BitVec.ofNat 32 (256 * i + y.val) == BitVec.ofNat 32 (256 * j + x.val)) with
      | true => rfl
      | false => rw [hc] at h; exact absurd h (by decide)
    exact ofNat32_inj (by omega) (by omega) (eq_of_beq hb)
  · intro h
    rw [h, beq_self_eq_true]
    rfl

/-- The exponent tile at (y, x), from the two blocks and the point's coordinates: minus the distance between row y of
    the first block and row x of the second, zero where the two global row numbers agree. -/
theorem pay5_apply (i : grid1.Coords) (v3 v5 : Vec Ideal S256x2048 .bf16) (y x : Fin 256) :
    k1_pay5 (F := Ideal) i v3 v5 (ix2 y x)
      = Ideal.ofBits .f32 0xBF800000#32 *
          (if 256 * (i 0).val + y.val = 256 * (i 1).val + x.val then Ideal.ofBits .f32 0x00000000#32
           else Ideal.sqrt (if 256 * (i 0).val + y.val = 256 * (i 1).val + x.val then Ideal.ofBits .f32 0x3F800000#32
             else max (((∑ k : Fin 2048, v3 (ix2 y k) * v3 (ix2 y k)) + (∑ k : Fin 2048, v5 (ix2 x k) * v5 (ix2 x k)))
                        - Ideal.ofBits .f32 0x40000000#32 * (∑ k : Fin 2048, v3 (ix2 y k) * v5 (ix2 x k)))
                      (Ideal.ofBits .f32 0x00000000#32))) := by
  have hi : (i 0).val < 16 := (i 0).isLt
  have hj : (i 1).val < 16 := (i 1).isLt
  unfold k1_pay5
  simp only [shapeCast_self, mulf_apply, select_apply, broadcast_apply, ValueIdx.subf_apply, ValueIdx.addf_apply, ValueIdx.maximumf_apply, vsqrt_apply]
  rw [colBcast_apply, rowBcast_apply, colT_apply, colCast_apply, colCast_apply, laneSum_apply, laneSum_apply, gramTile_apply]
  simp only [mulf_apply, extf_apply]
  by_cases h : 256 * (i 0).val + y.val = 256 * (i 1).val + x.val
  · have hd := (diag_apply (i 0).val (i 1).val hi hj y x).mpr h
    rw [hd, select_one, if_pos h]
    rfl
  · have hd := eq_zero_of_ne_one (mt (diag_apply (i 0).val (i 1).val hi hj y x).mp h)
    rw [hd, select_zero, select_zero, if_neg h, if_neg h]
    rfl

end Tile

variable (V : (c : Dev nD) → (b : Ref sig .tc) → Buf (Elt Ideal) ((c : Thread nD τ).loc b))

/-- The array z as region 1 finds it, by row and column. -/
abbrev zOf (c : Dev nD) : Fin 4096 → Fin 2048 → EReal := fun r k => V c main_v2 (ix2 r k)

/-- The global row of the tile's row y at point t, and the global row its column x stands for. -/
def rowOf (t : Fin cfg1.N) (y : Fin 256) : Fin 4096 :=
  ⟨256 * (t.val / 16) + y.val, by have := t.isLt; have h : cfg1.N = 256 := N_1; have := y.isLt; omega⟩
def colOf (t : Fin cfg1.N) (x : Fin 256) : Fin 4096 :=
  ⟨256 * (t.val % 16) + x.val, by have := x.isLt; omega⟩

/-! ## The two blocks of a point, read off z -/

namespace Tile

/-- The printed index maps and the grid's coordinates, decided once over the 256 points: point t = 16·i + j reads row
    block i through the first window and row block j through the second, each over all 2048 columns. -/
theorem idx_facts1 : ∀ t : Fin cfg1.N, win1_0.index t (0 : Fin 2) = t.val / 16 ∧ win1_0.index t (1 : Fin 2) = 0
    ∧ win1_1.index t (0 : Fin 2) = t.val % 16 ∧ win1_1.index t (1 : Fin 2) = 0
    ∧ (grid1.coords t 0).val = t.val / 16 ∧ (grid1.coords t 1).val = t.val % 16 :=
  (by decide +kernel : ∀ t : Fin grid1.N, _)

/-- The two blocks of point t: 256 rows of z each, over all 2048 columns. -/
abbrev rowBlk (c : Dev nD) (t : Fin cfg1.N) : Vec Ideal S256x2048 .bf16 := iblk1 V c 0 t
abbrev colBlk (c : Dev nD) (t : Fin cfg1.N) : Vec Ideal S256x2048 .bf16 := iblk1 V c 1 t

/-- Row y of the first block is row 256·i + y of z. -/
theorem rowBlk_apply (c : Dev nD) (t : Fin cfg1.N) (y : Fin 256) (k : Fin 2048) :
    rowBlk V c t (ix2 y k) = zOf V c (rowOf t y) k := by
  obtain ⟨e0, e1, -, -, -, -⟩ := idx_facts1 t
  show V c main_v2 (((cfg1.win 0).blk t).view.emb (ix2 y k)) = V c main_v2 (ix2 (rowOf t y) k)
  refine congrArg (V c main_v2) (funext fun a => Fin.ext ?_)
  match a with
  | ⟨0, _⟩ => show win1_0.index t (0 : Fin 2) * 256 + 1 * y.val = 256 * (t.val / 16) + y.val; omega
  | ⟨1, _⟩ => show win1_0.index t (1 : Fin 2) * 2048 + 1 * k.val = k.val; omega

/-- Row x of the second block is row 256·j + x of z. -/
theorem colBlk_apply (c : Dev nD) (t : Fin cfg1.N) (x : Fin 256) (k : Fin 2048) :
    colBlk V c t (ix2 x k) = zOf V c (colOf t x) k := by
  obtain ⟨-, -, e0, e1, -, -⟩ := idx_facts1 t
  show V c main_v2 (((cfg1.win 1).blk t).view.emb (ix2 x k)) = V c main_v2 (ix2 (colOf t x) k)
  refine congrArg (V c main_v2) (funext fun a => Fin.ext ?_)
  match a with
  | ⟨0, _⟩ => show win1_1.index t (0 : Fin 2) * 256 + 1 * x.val = 256 * (t.val % 16) + x.val; omega
  | ⟨1, _⟩ => show win1_1.index t (1 : Fin 2) * 2048 + 1 * k.val = k.val; omega

end Tile

open Tile in
/-- Entry (y, x) of point t's adjacency tile is the specification's adjacency of the two global rows. -/
theorem adjTile_apply (c : Dev nD) (t : Fin cfg1.N) (y x : Fin 256) :
    k1_pay1 (tile1 (F := Ideal) V c t) (ix2 y x) = Cert.Spec.adj (zOf V c) (rowOf t y) (colOf t x) := by
  obtain ⟨-, -, -, -, g0, g1⟩ := idx_facts1 t
  refine (congrArg Ideal.exp (pay5_apply (grid1.coords t) (rowBlk V c t) (colBlk V c t) y x)).trans ?_
  unfold Cert.Spec.adj Cert.Spec.dist2 Cert.Spec.sqn Cert.Spec.gram Cert.Spec.two Cert.Spec.zero Cert.Spec.one Cert.Spec.negOne
  simp only [rowBlk_apply, colBlk_apply]
  rw [g0, g1]
  rfl

end Cert.KernelIdeal.Hand

end
-- ==== Proof.KiVal1.lean ====
/-
  What region 1 leaves in the adjacency's array and in the degree column's, over the extended reals, as functions of z.
  The adjacency: point t = 16·i + j writes its 256×256 tile to block (i, j); the tile's entry (y, x) is the adjacency of
  the global rows 256·i + y and 256·j + x, and the 256 blocks tile the array, so the array ends holding the adjacency.
  The degree column: along row block i the staged column is zero plus the tile's row sums at j = 0 and the previous column
  plus the row sums after, so after column block j its row y holds the adjacency of row 256·i + y summed over the columns
  of blocks 0 … j; at j = 15 the inverse square root of that sum is taken and written to block i. The sum over 16 blocks
  of 256 columns is the sum over the 4096 columns: the one algebraic law used here.
-/
import proofs.«126364_j5334349382038_1_alg».proof.Proof.KiData
import proofs.«126364_j5334349382038_1_alg».proof.Proof.KiTile
import proofs.«126364_j5334349382038_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

namespace Val1

/-! ## The adjacency's array -/

/-- The printed index maps of the two output windows, decided once over the 256 grid points: the adjacency tile of
    point t sits at block (t / 16, t % 16), the degree column's block at (t / 16, 0). -/
theorem idx2 : ∀ t : Fin cfg1.N, win1_2.index t (0 : Fin 2) = t.val / 16 ∧ win1_2.index t (1 : Fin 2) = t.val % 16 :=
  (by decide +kernel : ∀ t : Fin grid1.N, _)
theorem idx3 : ∀ t : Fin cfg1.N, win1_3.index t (0 : Fin 2) = t.val / 16 ∧ win1_3.index t (1 : Fin 2) = 0 :=
  (by decide +kernel : ∀ t : Fin grid1.N, _)

/-- The adjacency as one function of the array's index. -/
abbrev adjArr (c : Dev nD) : Cert.Spec.SQ.Idx → EReal := fun i => Cert.Spec.adj (zOf V c) (i 0) (i 1)

/-- What point t writes back to the adjacency's array is block t of the adjacency. -/
theorem flushedAdj (c : Dev nD) (t : Fin cfg1.N) :
    (dat1 (F := Ideal) V c).flushed 2 t = ((cfg1.win 2).blk t).view.read (Elt Ideal) (adjArr V c) := by
  show (cfg1.win 2).cut (grid1.coords t) ((dat1 V c).after 2 t) = _
  rw [after1_2]
  funext y
  obtain ⟨p, q, rfl⟩ : ∃ (p q : Fin 256), y = ix2 p q := ⟨y 0, y 1, eq_ix2 y⟩
  show k1_pay1 (tile1 V c t) (ix2 p q) = Cert.Spec.adj (zOf V c) ((((cfg1.win 2).blk t).view.emb (ix2 p q)) 0) ((((cfg1.win 2).blk t).view.emb (ix2 p q)) 1)
  rw [adjTile_apply]
  obtain ⟨e0, e1⟩ := idx2 t
  congr 1
  · apply Fin.ext
    show 256 * (t.val / 16) + p.val = win1_2.index t (0 : Fin 2) * 256 + 1 * p.val
    omega
  · apply Fin.ext
    show 256 * (t.val % 16) + q.val = win1_2.index t (1 : Fin 2) * 256 + 1 * q.val
    omega

/-- An index of the adjacency's array is in point t's block iff each coordinate is in the block's range. -/
theorem mem_blk2 (t : Fin cfg1.N) (i : S4096x4096.Idx) :
    i ∈ ((cfg1.win 2).blk t).view.set ↔ ∀ a : Fin 2, win1_2.index t a * S256x256.size a ≤ (i a).val ∧ (i a).val < win1_2.index t a * S256x256.size a + S256x256.size a := by
  show i ∈ ((View.whole main_v3_0).slice (win1_2.rect t)).set ↔ _
  rw [View.set_slice_whole, Rect.mem_set_unit]
  exact Iff.rfl

/-- Entry (r, c) lies in the block of point 16·(r / 256) + c / 256. -/
theorem cover2 (i : S4096x4096.Idx) : ∃ t : Fin cfg1.N, (cfg1.win 2).flush t = true ∧ i ∈ ((cfg1.win 2).blk t).view.set := by
  have h0 : (i 0).val < 4096 := (i 0).isLt
  have h1 : (i 1).val < 4096 := (i 1).isLt
  have hN : cfg1.N = 256 := N_1
  refine ⟨⟨16 * ((i 0).val / 256) + (i 1).val / 256, by omega⟩, flush1_2 _, ?_⟩
  rw [mem_blk2]
  obtain ⟨e0, e1⟩ := idx2 ⟨16 * ((i 0).val / 256) + (i 1).val / 256, by omega⟩
  intro a
  match a with
  | ⟨0, _⟩ =>
    show win1_2.index _ (0 : Fin 2) * 256 ≤ (i 0).val ∧ (i 0).val < win1_2.index _ (0 : Fin 2) * 256 + 256
    rw [e0]; dsimp only; omega
  | ⟨1, _⟩ =>
    show win1_2.index _ (1 : Fin 2) * 256 ≤ (i 1).val ∧ (i 1).val < win1_2.index _ (1 : Fin 2) * 256 + 256
    rw [e1]; dsimp only; omega

/-! ## The one algebraic law: a sum over 4096 columns is the sum over 16 blocks of 256 -/

/-- Column x of column block n, as a global column (n below 16; reduced modulo 4096 so that it is total). -/
def colAt (n : ℕ) (x : Fin 256) : Fin 4096 := ⟨(256 * n + x.val) % 4096, Nat.mod_lt _ (by decide)⟩
/-- Row y of row block n, as a global row. -/
def rowAt (n : ℕ) (y : Fin 256) : Fin 4096 := ⟨(256 * n + y.val) % 4096, Nat.mod_lt _ (by decide)⟩

/-- Summing a function of the 4096 columns block by block, 16 blocks of 256, sums it over all columns. -/
theorem sum_col_blocks {M : Type*} [AddCommMonoid M] (f : Fin 4096 → M) :
    ∑ n ∈ Finset.range 16, ∑ x : Fin 256, f (colAt n x) = ∑ c : Fin 4096, f c := by
  rw [← Fin.sum_univ_eq_sum_range (fun n => ∑ x : Fin 256, f (colAt n x)) 16, ← Fintype.sum_prod_type']
  refine Fintype.sum_equiv (finProdFinEquiv (m := 16) (n := 256)) _ _ fun p => congrArg f (Fin.ext ?_)
  have h1 := p.1.isLt
  have h2 := p.2.isLt
  show (256 * p.1.val + p.2.val) % 4096 = p.2.val + 256 * p.1.val
  omega

/-! ## The three degree payloads read at an entry of the column -/

/-- A vector cast to a one-column matrix reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The zero column. -/
theorem pay4_apply (y : Fin 256) : (k1_pay4 (F := Ideal)) (ix2 y (0 : Fin 1)) = 0 := by
  unfold k1_pay4
  exact Ideal.ofBits_zero_f32

/-- The accumulating step: the carried column plus the tile's row sums. -/
theorem pay2_apply (v40 : FVec Ideal S256x256 .f32) (v43 : Vec Ideal S256x1 .f32) (y : Fin 256) :
    k1_pay2 v40 v43 (ix2 y (0 : Fin 1)) = v43 (ix2 y (0 : Fin 1)) + ∑ x : Fin 256, k1_pay1 v40 (ix2 y x) := by
  unfold k1_pay2
  refine (addf_apply _ _ _).trans ?_
  refine congrArg₂ (· + ·) (congrFun (shapeCast_self v43 _) _) ?_
  refine (shapeCast_a_a1_apply _ _ y 0).trans ?_
  refine (Ideal.multiReduction_add_single (k1_pay1 v40) 0x00000000#32 reduces_S256x256_S256 (.inl rfl) rfl (ix1 y)).trans ?_
  show ∑ x : Fin 256, k1_pay1 v40 (reduces_S256x256_S256.lift (ix1 y) x) = _
  refine Finset.sum_congr rfl fun x _ => congrArg (k1_pay1 v40) ?_
  funext a
  match a with
  | ⟨0, _⟩ => rfl
  | ⟨1, _⟩ => rfl

/-- The closing step: the inverse square root of the carried column. -/
theorem pay3_apply (v52 : Vec Ideal S256x1 .f32) (y : Fin 256) :
    k1_pay3 v52 (ix2 y (0 : Fin 1)) = Ideal.rsqrt (v52 (ix2 y (0 : Fin 1))) := by
  unfold k1_pay3
  exact congrArg Ideal.rsqrt (congrFun (shapeCast_self v52 _) _)

/-! ## The degree column along one row block -/

/-- Row y of row block i: its adjacency summed over column block n. -/
def blkSum (c : Dev nD) (i : ℕ) (y : Fin 256) (n : ℕ) : EReal :=
  ∑ x : Fin 256, Cert.Spec.adj (zOf V c) (rowAt i y) (colAt n x)

/-- The row sums of point t's adjacency tile are the adjacency summed over the point's column block. -/
theorem tile_rowsum (c : Dev nD) (t : Fin cfg1.N) (y : Fin 256) :
    ∑ x : Fin 256, k1_pay1 (tile1 (F := Ideal) V c t) (ix2 y x) = blkSum V c (t.val / 16) y (t.val % 16) := by
  have ht := t.isLt
  have hN : cfg1.N = 256 := N_1
  refine Finset.sum_congr rfl fun x _ => ?_
  rw [adjTile_apply]
  have hx := x.isLt
  have hy := y.isLt
  congr 1
  · apply Fin.ext
    show 256 * (t.val / 16) + y.val = (256 * (t.val / 16) + y.val) % 4096
    omega
  · apply Fin.ext
    show 256 * (t.val % 16) + x.val = (256 * (t.val % 16) + x.val) % 4096
    omega

/-- After position n the staged column holds, at row y, the partial sum over the column blocks met so far in n's row
    block; at the last column block of a row block, the inverse square root of the whole sum. By induction on n. -/
theorem degAt_val (c : Dev nD) (y : Fin 256) : ∀ (n : ℕ) (h : n < cfg1.N),
    (n % 16 ≠ 15 → degAt V c n h (ix2 y (0 : Fin 1)) = ∑ k ∈ Finset.range (n % 16 + 1), blkSum V c (n / 16) y k)
    ∧ (n % 16 = 15 → degAt V c n h (ix2 y (0 : Fin 1)) = Ideal.rsqrt (∑ k ∈ Finset.range 16, blkSum V c (n / 16) y k))
  | 0, h => by
    refine ⟨fun _ => ?_, fun h15 => absurd h15 (by decide)⟩
    rw [degAt]
    refine (pay2_apply _ _ y).trans ?_
    rw [pay4_apply, zero_add, tile_rowsum]
    show blkSum V c (0 / 16) y (0 % 16) = ∑ k ∈ Finset.range 1, blkSum V c (0 / 16) y k
    rw [Finset.sum_range_one]
  | n + 1, h => by
    obtain ⟨ih1, ih2⟩ := degAt_val c y n (Nat.lt_of_succ_lt h)
    rw [degAt]
    by_cases h0 : (n + 1) % 16 = 0
    · rw [if_pos h0]
      refine ⟨fun _ => ?_, fun h15 => by omega⟩
      refine (pay2_apply _ _ y).trans ?_
      rw [pay4_apply, zero_add, tile_rowsum]
      show blkSum V c ((n + 1) / 16) y ((n + 1) % 16) = _
      rw [h0, Finset.sum_range_one]
    · rw [if_neg h0]
      by_cases h15 : (n + 1) % 16 = 15
      · rw [if_pos h15]
        refine ⟨fun hne => absurd h15 hne, fun _ => ?_⟩
        refine (pay3_apply _ y).trans (congrArg Ideal.rsqrt ?_)
        refine (pay2_apply _ _ y).trans ?_
        rw [ih1 (by omega), tile_rowsum]
        show _ + blkSum V c ((n + 1) / 16) y ((n + 1) % 16) = _
        have e1 : (n + 1) / 16 = n / 16 := by omega
        have e2 : n % 16 + 1 = 15 := by omega
        rw [e1, h15, e2, ← Finset.sum_range_succ]
      · rw [if_neg h15]
        refine ⟨fun _ => ?_, fun h => absurd h h15⟩
        refine (pay2_apply _ _ y).trans ?_
        rw [ih1 (by omega), tile_rowsum]
        show _ + blkSum V c ((n + 1) / 16) y ((n + 1) % 16) = _
        have e1 : (n + 1) / 16 = n / 16 := by omega
        have e2 : (n + 1) % 16 = n % 16 + 1 := by omega
        rw [e1, e2, ← Finset.sum_range_succ]

/-! ## The degree column's array -/

/-- The degree column as one function of the array's index. -/
abbrev degArr (c : Dev nD) : Cert.Spec.SC.Idx → EReal := fun i => Cert.Spec.deg (zOf V c) (i 0)

/-- What a point at the last column block of its row block writes back is its block of the degree column. -/
theorem flushedDeg (c : Dev nD) (t : Fin cfg1.N) (hf : (cfg1.win 3).flush t = true) :
    (dat1 (F := Ideal) V c).flushed 3 t = ((cfg1.win 3).blk t).view.read (Elt Ideal) (degArr V c) := by
  have h15 : t.val % 16 = 15 := (flush1_3 t).mp hf
  have ht := t.isLt
  have hN : cfg1.N = 256 := N_1
  show (cfg1.win 3).cut (grid1.coords t) ((dat1 V c).after 3 t) = _
  rw [after1_3]
  funext y
  obtain ⟨p, q, rfl⟩ : ∃ (p : Fin 256) (q : Fin 1), y = ix2 p q := ⟨y 0, y 1, eq_ix2 y⟩
  obtain rfl : q = 0 := Subsingleton.elim _ _
  show degAt V c t.val t.isLt (ix2 p (0 : Fin 1)) = Cert.Spec.deg (zOf V c) ((((cfg1.win 3).blk t).view.emb (ix2 p (0 : Fin 1))) 0)
  have hrow : (((cfg1.win 3).blk t).view.emb (ix2 p (0 : Fin 1))) 0 = rowAt (t.val / 16) p := by
    apply Fin.ext
    show win1_3.index t (0 : Fin 2) * 256 + 1 * p.val = (256 * (t.val / 16) + p.val) % 4096
    have e0 := (idx3 t).1
    have hp := p.isLt
    omega
  rw [hrow, (degAt_val V c p t.val t.isLt).2 h15]
  unfold Cert.Spec.deg
  exact congrArg Ideal.rsqrt (sum_col_blocks fun c' => Cert.Spec.adj (zOf V c) (rowAt (t.val / 16) p) c')

/-- An index of the degree column's array is in point t's block iff each coordinate is in the block's range. -/
theorem mem_blk3 (t : Fin cfg1.N) (i : S4096x1.Idx) :
    i ∈ ((cfg1.win 3).blk t).view.set ↔ ∀ a : Fin 2, win1_3.index t a * S256x1.size a ≤ (i a).val ∧ (i a).val < win1_3.index t a * S256x1.size a + S256x1.size a := by
  show i ∈ ((View.whole main_v3_1).slice (win1_3.rect t)).set ↔ _
  rw [View.set_slice_whole, Rect.mem_set_unit]
  exact Iff.rfl

/-- Row r lies in the block written back at point 16·(r / 256) + 15. -/
theorem cover3 (i : S4096x1.Idx) : ∃ t : Fin cfg1.N, (cfg1.win 3).flush t = true ∧ i ∈ ((cfg1.win 3).blk t).view.set := by
  have h0 : (i 0).val < 4096 := (i 0).isLt
  have h1 : (i 1).val < 1 := (i 1).isLt
  have hN : cfg1.N = 256 := N_1
  refine ⟨⟨16 * ((i 0).val / 256) + 15, by omega⟩, (flush1_3 _).mpr (by dsimp only; omega), ?_⟩
  rw [mem_blk3]
  obtain ⟨e0, e1⟩ := idx3 ⟨16 * ((i 0).val / 256) + 15, by omega⟩
  intro a
  match a with
  | ⟨0, _⟩ =>
    show win1_3.index _ (0 : Fin 2) * 256 ≤ (i 0).val ∧ (i 0).val < win1_3.index _ (0 : Fin 2) * 256 + 256
    rw [e0]; dsimp only; omega
  | ⟨1, _⟩ =>
    show win1_3.index _ (1 : Fin 2) * 1 ≤ (i 1).val ∧ (i 1).val < win1_3.index _ (1 : Fin 2) * 1 + 1
    rw [e1]; omega

end Val1

/-- Region 1's adjacency array after the last point. -/
theorem adj_final (c : Dev nD) :
    (dat1 (F := Ideal) V c).arrAt 2 cfg1.N = fun i : Cert.Spec.SQ.Idx => Cert.Spec.adj (zOf V c) (i 0) (i 1) :=
  (dat1 (F := Ideal) V c).arrAt_eq_of_cover 2 (Val1.adjArr V c) (fun t _ => Val1.flushedAdj V c t) Val1.cover2

/-- Region 1's degree column after the last point. -/
theorem deg_final (c : Dev nD) :
    (dat1 (F := Ideal) V c).arrAt 3 cfg1.N = fun i : Cert.Spec.SC.Idx => Cert.Spec.deg (zOf V c) (i 0) :=
  (dat1 (F := Ideal) V c).arrAt_eq_of_cover 3 (Val1.degArr V c) (Val1.flushedDeg V c) Val1.cover3

end Cert.KernelIdeal.Hand

end
-- ==== Proof.KiVal2.lean ====
/-
  What region 2 leaves in its output array, over the extended reals: entry (r, c) is (d(r) · a(r, c)) · d(c) for the
  adjacency a and the degree column d it was entered with.
-/
import proofs.«126364_j5334349382038_1_alg».proof.Proof.KiData
import proofs.«126364_j5334349382038_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

/-- The tile's payload as the two scalings of the tile: the same-shape casts are the identity. -/
theorem nrm_pay_eq (v0 : Vec Ideal S512x512 .f32) (v2 v4 : Vec Ideal S512x1 .f32) :
    k2_pay1 (F := Ideal) v0 v2 v4
      = mulf (mulf (broadcastTo S512x512 v2 broadcasts_S512x1_S512x512) v0)
          (broadcastTo S512x512 (transpose S1x512 [1, 0] v4 transposes_S512x1_p1_0_S1x512) broadcasts_S1x512_S512x512) := by
  unfold k2_pay1
  simp only [shapeCast_self]

/-- The tile's payload at (p, q): the row scale at p times the tile's entry, times the column scale at q. -/
theorem nrm_pay_at (v0 : Vec Ideal S512x512 .f32) (v2 v4 : Vec Ideal S512x1 .f32) (p q : Fin 512) :
    k2_pay1 (F := Ideal) v0 v2 v4 (ix2 p q) = (v2 (ix2 p (0 : Fin 1)) * v0 (ix2 p q)) * v4 (ix2 q (0 : Fin 1)) := by
  rw [nrm_pay_eq, mulf_apply, mulf_apply]
  have hl : broadcastTo S512x512 v2 broadcasts_S512x1_S512x512 (ix2 p q) = v2 (ix2 p (0 : Fin 1)) :=
    broadcastTo_apply v2 broadcasts_S512x1_S512x512 (ix2 p q) (ix2 p (0 : Fin 1)) (fun a => match a with
      | ⟨0, _⟩ => rfl
      | ⟨1, _⟩ => rfl)
  have hr : broadcastTo S512x512 (transpose S1x512 [1, 0] v4 transposes_S512x1_p1_0_S1x512) broadcasts_S1x512_S512x512 (ix2 p q)
      = v4 (ix2 q (0 : Fin 1)) :=
    (broadcastTo_apply (transpose S1x512 [1, 0] v4 transposes_S512x1_p1_0_S1x512) broadcasts_S1x512_S512x512 (ix2 p q)
      (ix2 (0 : Fin 1) q) (fun a => match a with
      | ⟨0, _⟩ => rfl
      | ⟨1, _⟩ => rfl)).trans
    (transpose_apply [1, 0] v4 transposes_S512x1_p1_0_S1x512 (ix2 (0 : Fin 1) q) (ix2 q (0 : Fin 1)) (fun b => match b with
      | ⟨0, _⟩ => rfl
      | ⟨1, _⟩ => rfl))
  rw [hl, hr]

/-- The index maps over the grid: the tile window moves with the output, the row-scale window follows the output's row
    block and the column-scale window its column block, and the output's block indices stay below 8. -/
theorem nrm_idx_facts : ∀ t : Fin cfg2.N,
    win2_0.index t (0 : Fin 2) = win2_3.index t (0 : Fin 2) ∧ win2_0.index t (1 : Fin 2) = win2_3.index t (1 : Fin 2)
    ∧ win2_1.index t (0 : Fin 2) = win2_3.index t (0 : Fin 2) ∧ win2_1.index t (1 : Fin 2) = 0
    ∧ win2_2.index t (0 : Fin 2) = win2_3.index t (1 : Fin 2) ∧ win2_2.index t (1 : Fin 2) = 0
    ∧ win2_3.index t (0 : Fin 2) ≤ 7 ∧ win2_3.index t (1 : Fin 2) ≤ 7 :=
  (by decide +kernel : ∀ t : Fin grid2.N, _)

/-- Every pair of block indices below 8 is some point's. -/
theorem nrm_idx_onto : ∀ (q0 q1 : Fin 8), ∃ t : Fin cfg2.N, win2_3.index t = ![q0.val, q1.val] :=
  (by decide +kernel : ∀ (q0 q1 : Fin 8), ∃ t : Fin grid2.N, win2_3.index t = ![q0.val, q1.val])

/-- The adjacency tile of point t at (p, q) is the adjacency array at the output tile's rows and columns. -/
theorem nrm_tile_at (c : Dev nD) (t : Fin cfg2.N) (p q : Fin 512) (k : S4096x4096.Idx)
    (hk0 : (k 0).val = win2_3.index t (0 : Fin 2) * 512 + p.val) (hk1 : (k 1).val = win2_3.index t (1 : Fin 2) * 512 + q.val) :
    (iblk2 (F := Ideal) V c 0 t : Vec Ideal S512x512 .f32) (ix2 p q) = (V c main_v3_0 : S4096x4096.Idx → EReal) k := by
  obtain ⟨e0, e1, -⟩ := nrm_idx_facts t
  unfold iblk2
  rw [View.read_apply]
  show V c main_v3_0 _ = V c main_v3_0 k
  congr 1
  funext a
  apply Fin.ext
  match a with
  | ⟨0, _⟩ => show win2_0.index t (0 : Fin 2) * 512 + 1 * p.val = (k 0).val; rw [e0, hk0]; omega
  | ⟨1, _⟩ => show win2_0.index t (1 : Fin 2) * 512 + 1 * q.val = (k 1).val; rw [e1, hk1]; omega

/-- The row-scale block of point t at p is the degree column at the output tile's rows. -/
theorem nrm_rowScale_at (c : Dev nD) (t : Fin cfg2.N) (p : Fin 512) (k : S4096x1.Idx)
    (hk0 : (k 0).val = win2_3.index t (0 : Fin 2) * 512 + p.val) :
    (iblk2 (F := Ideal) V c 1 t : Vec Ideal S512x1 .f32) (ix2 p (0 : Fin 1)) = (V c main_v3_1 : S4096x1.Idx → EReal) k := by
  obtain ⟨-, -, e2, e3, -⟩ := nrm_idx_facts t
  unfold iblk2
  rw [View.read_apply]
  show V c main_v3_1 _ = V c main_v3_1 k
  congr 1
  funext a
  apply Fin.ext
  match a with
  | ⟨0, _⟩ => show win2_1.index t (0 : Fin 2) * 512 + 1 * p.val = (k 0).val; rw [e2, hk0]; omega
  | ⟨1, _⟩ => show win2_1.index t (1 : Fin 2) * 1 + 1 * 0 = (k 1).val; have hlt : (k 1).val < 1 := (k 1).isLt; rw [e3]; omega

/-- The column-scale block of point t at q is the degree column at the output tile's columns. -/
theorem nrm_colScale_at (c : Dev nD) (t : Fin cfg2.N) (q : Fin 512) (k : S4096x1.Idx)
    (hk0 : (k 0).val = win2_3.index t (1 : Fin 2) * 512 + q.val) :
    (iblk2 (F := Ideal) V c 2 t : Vec Ideal S512x1 .f32) (ix2 q (0 : Fin 1)) = (V c main_v3_1 : S4096x1.Idx → EReal) k := by
  obtain ⟨-, -, -, -, e4, e5, -⟩ := nrm_idx_facts t
  unfold iblk2
  rw [View.read_apply]
  show V c main_v3_1 _ = V c main_v3_1 k
  congr 1
  funext a
  apply Fin.ext
  match a with
  | ⟨0, _⟩ => show win2_2.index t (0 : Fin 2) * 512 + 1 * q.val = (k 0).val; rw [e4, hk0]; omega
  | ⟨1, _⟩ => show win2_2.index t (1 : Fin 2) * 1 + 1 * 0 = (k 1).val; have hlt : (k 1).val < 1 := (k 1).isLt; rw [e5]; omega

/-- What point t writes back is its block of the scaled adjacency array. -/
theorem nrm_flushed (c : Dev nD) (t : Fin cfg2.N) :
    (dat2 (F := Ideal) V c).flushed 3 t
      = ((cfg2.win 3).blk t).view.read (Elt Ideal) (Cert.Spec.scale (V c main_v3_0) (V c main_v3_1)) := by
  show (cfg2.win 3).cut (grid2.coords t) ((dat2 (F := Ideal) V c).after 3 t) = _
  rw [after2_3]
  funext y
  obtain ⟨p, q, rfl⟩ : ∃ (p q : Fin 512), y = ix2 p q := ⟨y 0, y 1, eq_ix2 y⟩
  rw [View.read_apply]
  show k2_pay1 (F := Ideal) (iblk2 (F := Ideal) V c 0 t) (iblk2 (F := Ideal) V c 1 t) (iblk2 (F := Ideal) V c 2 t) (ix2 p q)
    = Cert.Spec.scale (V c main_v3_0) (V c main_v3_1) (((cfg2.win 3).blk t).view.emb (ix2 p q))
  refine (nrm_pay_at (iblk2 (F := Ideal) V c 0 t) (iblk2 (F := Ideal) V c 1 t) (iblk2 (F := Ideal) V c 2 t) p q).trans ?_
  have h0 : ((((cfg2.win 3).blk t).view.emb (ix2 p q)) 0).val = win2_3.index t (0 : Fin 2) * 512 + p.val := by
    show win2_3.index t (0 : Fin 2) * 512 + 1 * p.val = _
    omega
  have h1 : ((((cfg2.win 3).blk t).view.emb (ix2 p q)) 1).val = win2_3.index t (1 : Fin 2) * 512 + q.val := by
    show win2_3.index t (1 : Fin 2) * 512 + 1 * q.val = _
    omega
  unfold Cert.Spec.scale
  rw [nrm_tile_at V c t p q (((cfg2.win 3).blk t).view.emb (ix2 p q)) h0 h1,
    nrm_rowScale_at V c t p (ix2 ((((cfg2.win 3).blk t).view.emb (ix2 p q)) 0) (0 : Fin 1)) h0,
    nrm_colScale_at V c t q (ix2 ((((cfg2.win 3).blk t).view.emb (ix2 p q)) 1) (0 : Fin 1)) h1]

/-- An index of the array is in point t's block exactly when each coordinate is in the block's range on its axis. -/
theorem nrm_mem_blk (t : Fin cfg2.N) (i : S4096x4096.Idx) :
    i ∈ ((cfg2.win 3).blk t).view.set
      ↔ ∀ a : Fin 2, win2_3.index t a * S512x512.size a ≤ (i a).val
          ∧ (i a).val < win2_3.index t a * S512x512.size a + S512x512.size a := by
  show i ∈ ((View.whole main_v4).slice (win2_3.rect t)).set ↔ _
  rw [View.set_slice_whole, Rect.mem_set_unit]
  exact Iff.rfl

/-- Every entry (r, c) of the array is in the block of the point whose block indices are (r / 512, c / 512). -/
theorem nrm_cover (i : S4096x4096.Idx) :
    ∃ t : Fin cfg2.N, (cfg2.win 3).flush t = true ∧ i ∈ ((cfg2.win 3).blk t).view.set := by
  have hi0 : (i 0).val < 4096 := (i 0).isLt
  have hi1 : (i 1).val < 4096 := (i 1).isLt
  obtain ⟨t, ht⟩ := nrm_idx_onto ⟨(i 0).val / 512, by omega⟩ ⟨(i 1).val / 512, by omega⟩
  have q0 : win2_3.index t (0 : Fin 2) = (i 0).val / 512 := congrFun ht 0
  have q1 : win2_3.index t (1 : Fin 2) = (i 1).val / 512 := congrFun ht 1
  refine ⟨t, flush2_3 t, ?_⟩
  rw [nrm_mem_blk]
  intro a
  match a with
  | ⟨0, _⟩ =>
    show win2_3.index t (0 : Fin 2) * 512 ≤ (i 0).val ∧ (i 0).val < win2_3.index t (0 : Fin 2) * 512 + 512
    omega
  | ⟨1, _⟩ =>
    show win2_3.index t (1 : Fin 2) * 512 ≤ (i 1).val ∧ (i 1).val < win2_3.index t (1 : Fin 2) * 512 + 512
    omega

/-- Region 2's output array after the last point. -/
theorem nrm_final (c : Dev nD) :
    (dat2 (F := Ideal) V c).arrAt 3 cfg2.N
      = Cert.Spec.scale (V c main_v3_0) (V c main_v3_1) := by
  exact (dat2 (F := Ideal) V c).arrAt_eq_of_cover 3 (Cert.Spec.scale (V c main_v3_0) (V c main_v3_1))
    (fun t _ => nrm_flushed V c t) nrm_cover

end Cert.KernelIdeal.Hand

end
-- ==== Proof.KiValue.lean ====
/-
  The kernel program's two results, over the extended reals, are the specification's arrays of its two arguments:
  region 0 leaves z = x·p (the two casts before it are the identity on extended reals), region 1 leaves the adjacency and
  the degree column of that z, region 2 scales the adjacency by the degree column on both sides.
-/
import proofs.«126364_j5334349382038_1_alg».proof.Proof.KiRun
import proofs.«126364_j5334349382038_1_alg».proof.Proof.KiVal0
import proofs.«126364_j5334349382038_1_alg».proof.Proof.KiVal1
import proofs.«126364_j5334349382038_1_alg».proof.Proof.KiVal2
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The two arguments, as the specification's functions take them. -/
abbrev xArg (c : Dev nD) : Cert.Spec.SF.Idx → EReal := m ((c.tc : Thread nD τ).loc main_arg0)
abbrev pArg (c : Dev nD) : Cert.Spec.SW.Idx → EReal := m ((c.tc : Thread nD τ).loc main_arg1)

/-- The host stretch's cast of x is x: a change of float format is the identity on extended reals. -/
theorem E1_v0 (c : Dev nD) : (E1 m c main_v0 : Cert.Spec.SF.Idx → EReal) = xArg m c := by
  show StableHlo.after hostOps0 (fun b => m (c, b)) (Proc.devRef .tc main_v0) = _
  after_results
  rfl

/-- The host stretch's cast of p is p. -/
theorem E1_v1 (c : Dev nD) : (E1 m c main_v1 : Cert.Spec.SW.Idx → EReal) = pArg m c := by
  show StableHlo.after hostOps0 (fun b => m (c, b)) (Proc.devRef .tc main_v1) = _
  after_results
  rfl

/-- Region 0 leaves z = x·p. -/
theorem zOut_eq (c : Dev nD) : (zOut (F := Ideal) m c : Cert.Spec.SF.Idx → EReal) = Cert.Spec.zArr (xArg m c) (pArg m c) := by
  unfold zOut
  rw [z_final (E1 m) c, E1_v0, E1_v1]

/-- Region 1 is entered with z's array at what region 0 left. -/
theorem E2_v2 (c : Dev nD) : E2 (F := Ideal) m c main_v2 = zOut m c := Function.update_self ..

/-- The rows of the array region 1 finds are the specification's z. -/
theorem zOf_E2 (c : Dev nD) : zOf (E2 m) c = Cert.Spec.proj (xArg m c) (pArg m c) := by
  funext r k
  show E2 m c main_v2 (ix2 r k) = _
  rw [E2_v2, zOut_eq]
  rfl

/-- What region 1 leaves in the adjacency's array is the specification's adjacency of the arguments. -/
theorem adjOut_eq (c : Dev nD) :
    adjOut (F := Ideal) m c = Cert.Spec.adjArr (m ((c.tc : Thread nD τ).loc main_arg0)) (m ((c.tc : Thread nD τ).loc main_arg1)) := by
  unfold adjOut
  rw [adj_final (E2 m) c, zOf_E2]
  rfl

/-- What region 1 leaves in the degree column's array is the specification's degree column of the arguments. -/
theorem degOut_eq (c : Dev nD) :
    degOut (F := Ideal) m c = Cert.Spec.degArr (xArg m c) (pArg m c) := by
  unfold degOut
  rw [deg_final (E2 m) c, zOf_E2]
  rfl

/-- Region 2 is entered with the adjacency's and the degree column's arrays at what region 1 left. -/
theorem E3_v3_0 (c : Dev nD) : E3 (F := Ideal) m c main_v3_0 = adjOut m c :=
  (Function.update_of_ne (StableHlo.devRef_ne_of_ne (by decide) : (Proc.devRef .tc main_v3_0 : DevRef τ sig) ≠ Proc.devRef .tc main_v3_1) ..).trans
    (Function.update_self ..)
theorem E3_v3_1 (c : Dev nD) : E3 (F := Ideal) m c main_v3_1 = degOut m c := Function.update_self ..

/-- What region 2 leaves in its output array is the specification's normalised adjacency of the arguments. -/
theorem nrmOut_eq (c : Dev nD) :
    nrmOut (F := Ideal) m c = Cert.Spec.nrmArr (m ((c.tc : Thread nD τ).loc main_arg0)) (m ((c.tc : Thread nD τ).loc main_arg1)) := by
  unfold nrmOut
  rw [nrm_final (E3 m) c, E3_v3_0, E3_v3_1, adjOut_eq, degOut_eq]
  rfl

end Cert.KernelIdeal.Hand

end
-- ==== Proof.RefVal.lean ====
/-
  The reference's two results are the specification's arrays of its two arguments: stage by stage the host program
  computes z = x·p, the squared norms and inner products of z's rows, the clamped squared distance, the two selects on the
  diagonal, exp of minus the distance, the row sums' inverse square root and the two-sided scaling.
-/
import proofs.«126364_j5334349382038_1_alg».proof.Defs
import proofs.«126364_j5334349382038_1_alg».proof.Proof.Gen.ReferenceIdeal.Run
import proofs.«126364_j5334349382038_1_alg».proof.Proof.Gen.ReferenceIdeal.Read
import proofs.«126364_j5334349382038_1_alg».proof.Proof.Spec
import Idealize.ShloMosaic.Lib.ValueIdx
import Idealize.ShloMosaic.Lib.Pipeline.Value
import Idealize.ShloMosaic.PureOps.Ideal.Laws

noncomputable section

namespace Cert.ReferenceIdeal.RefVal

open Idealize.ShloMosaic Idealize.ShloMosaic.TcCoe Idealize.SL.Sem Idealize.ShloMosaic.ValueIdx
open Cert.ReferenceIdeal Cert.ReferenceIdeal.Gen
open scoped BigOperators

section Stages

variable (x0 : (⟨S4096x2048, .f32⟩ : BufTy).Contents (Elt Ideal)) (x1 : (⟨S2048x2048, .f32⟩ : BufTy).Contents (Elt Ideal))

/-- The product stage at (r, k) is the specification's z: a row of x against a column of p. -/
theorem z_at (r : Fin 4096) (k : Fin 2048) :
    Read.val_main_v0 (F := Ideal) x0 x1 (ix2 r k) = Cert.Spec.proj x0 x1 r k := by
  rw [Read.val_main_v0_apply]
  unfold Cert.Spec.proj
  refine Finset.sum_congr rfl fun j _ => ?_
  have el : Read.lidx_main_v0 (ix2 r k) j = ix2 r j :=
    funext fun a => Fin.ext (by match a with | ⟨0, _⟩ => rfl | ⟨1, _⟩ => rfl)
  have er : Read.ridx_main_v0 (ix2 r k) j = ix2 j k :=
    funext fun a => Fin.ext (by match a with | ⟨0, _⟩ => rfl | ⟨1, _⟩ => rfl)
  rw [el, er]

/-- The row reduction of the squares at r is the squared norm of row r of z. -/
theorem sqn_at (r : Fin 4096) :
    Read.val_main_v2 (F := Ideal) x0 x1 (ix1 r) = Cert.Spec.sqn (Cert.Spec.proj x0 x1) r := by
  rw [Read.val_main_v2_apply, Read.val_main_cst_apply, Ideal.ofBits_def, Ideal.ofBits_zero_f32, zero_add]
  unfold Cert.Spec.sqn
  refine Finset.sum_congr rfl fun k _ => ?_
  have e : Read.idx_main_v2 (ix1 r) k = ix2 r k :=
    funext fun a => Fin.ext (by match a with | ⟨0, _⟩ => rfl | ⟨1, _⟩ => rfl)
  rw [e, Read.val_main_v1_apply, Ideal.mulf_def, z_at]

/-- The product of z with its transpose at (r, c) is the inner product of rows r and c. -/
theorem gram_at (r c : Fin 4096) :
    Read.val_main_v9 (F := Ideal) x0 x1 (ix2 r c) = Cert.Spec.gram (Cert.Spec.proj x0 x1) r c := by
  rw [Read.val_main_v9_apply]
  unfold Cert.Spec.gram
  refine Finset.sum_congr rfl fun k _ => ?_
  have el : Read.lidx_main_v9 (ix2 r c) k = ix2 r k :=
    funext fun a => Fin.ext (by match a with | ⟨0, _⟩ => rfl | ⟨1, _⟩ => rfl)
  have er : Read.ridx_main_v9 (ix2 r c) k = ix2 k c :=
    funext fun a => Fin.ext (by match a with | ⟨0, _⟩ => rfl | ⟨1, _⟩ => rfl)
  have et : Read.idx_main_v8 (ix2 k c) = ix2 c k :=
    funext fun a => Fin.ext (by match a with | ⟨0, _⟩ => rfl | ⟨1, _⟩ => rfl)
  rw [el, er, Read.val_main_v8_apply, et, z_at, z_at]

end Stages

section Distance

variable (x0 : (⟨S4096x2048, .f32⟩ : BufTy).Contents (Elt Ideal)) (x1 : (⟨S2048x2048, .f32⟩ : BufTy).Contents (Elt Ideal))

/-- The two broadcasts of the squared norms, added at (r, c): row r's norm plus row c's. -/
theorem sqn_sum_at (r c : Fin 4096) :
    Read.val_main_v7 (F := Ideal) x0 x1 (ix2 r c)
      = Cert.Spec.sqn (Cert.Spec.proj x0 x1) r + Cert.Spec.sqn (Cert.Spec.proj x0 x1) c := by
  have e5 : Read.idx_main_v3 (Read.idx_main_v5 (ix2 r c)) = ix1 r :=
    funext fun a => Fin.ext (by match a with | ⟨0, _⟩ => rfl)
  have e6 : Read.idx_main_v4 (Read.idx_main_v6 (ix2 r c)) = ix1 c :=
    funext fun a => Fin.ext (by match a with | ⟨0, _⟩ => rfl)
  rw [Read.val_main_v7_apply, Read.val_main_v5_apply, Read.val_main_v3_apply, Read.val_main_v6_apply,
    Read.val_main_v4_apply, e5, e6, Ideal.addf_def, sqn_at, sqn_at]

/-- The clamped squared distance at (r, c). -/
theorem dist2_at (r c : Fin 4096) :
    Read.val_main_v14 (F := Ideal) x0 x1 (ix2 r c) = Cert.Spec.dist2 (Cert.Spec.proj x0 x1) r c := by
  rw [Read.val_main_v14_apply, Read.val_main_v12_apply, Read.val_main_v11_apply, Read.val_main_v10_apply,
    Read.val_main_cst_0_apply, Read.val_main_v13_apply, Read.val_main_cst_1_apply, sqn_sum_at, gram_at]
  simp only [Ideal.maximumf_def, Ideal.subf_def, Ideal.mulf_def, Ideal.ofBits_def]
  rfl

end Distance

section Adjacency

variable (x0 : (⟨S4096x2048, .f32⟩ : BufTy).Contents (Elt Ideal)) (x1 : (⟨S2048x2048, .f32⟩ : BufTy).Contents (Elt Ideal))

/-- Two positions below 4096 have the same 32-bit word exactly when they are the same position. -/
theorem word_eq_iff (r c : Fin 4096) : BitVec.ofNat 32 r.val = BitVec.ofNat 32 c.val ↔ r.val = c.val := by
  constructor
  · intro h
    have h3 := congrArg BitVec.toNat h
    simp only [BitVec.toNat_ofNat] at h3
    have hr := r.isLt
    have hc := c.isLt
    omega
  · intro h
    rw [h]

/-- The diagonal test at (r, c): the row position's word (plus the zero word) equals the column position's word
    exactly on the diagonal. -/
theorem diag_at (r c : Fin 4096) :
    Read.val_main_v19 (F := Ideal) (ix2 r c) = if r.val = c.val then 1#1 else 0#1 := by
  rw [Read.val_main_v19_apply, Read.val_main_v18_apply, Read.val_main_v15_apply, Read.val_main_v17_apply,
    Read.val_main_c_apply, Read.val_main_v16_apply]
  show IntOp.cmpi .eq (IntOp.addi (BitVec.ofNat 32 r.val) 0#32) (BitVec.ofNat 32 c.val) = _
  have hadd : IntOp.addi (BitVec.ofNat 32 r.val) 0#32 = BitVec.ofNat 32 r.val := by
    unfold IntOp.addi
    exact BitVec.add_zero _
  rw [hadd]
  unfold IntOp.cmpi
  by_cases h : r.val = c.val
  · rw [if_pos h, h]
    simp only [beq_self_eq_true, BitVec.ofBool_true]
    rfl
  · rw [if_neg h]
    have hne : ¬ BitVec.ofNat 32 r.val = BitVec.ofNat 32 c.val := fun e => h ((word_eq_iff r c).mp e)
    simp only [beq_eq_false_iff_ne.mpr hne, BitVec.ofBool_false]
    rfl

/-- The adjacency stage at (r, c): exp of minus the distance, the two selects keeping zero on the diagonal. -/
theorem adj_at (r c : Fin 4096) :
    Read.val_main_v25 (F := Ideal) x0 x1 (ix2 r c) = Cert.Spec.adj (Cert.Spec.proj x0 x1) r c := by
  rw [Read.val_main_v25_apply, Read.val_main_v24_apply, Read.val_main_v23_apply, Read.val_main_cst_4_apply,
    Read.val_main_v22_apply, Read.val_main_call1_v1_apply, Read.val_main_call1_v0_apply, Read.val_main_cst_3_apply,
    Read.val_main_v21_apply, Read.val_main_v20_apply, Read.val_main_call0_v1_apply, Read.val_main_call0_v0_apply,
    Read.val_main_cst_2_apply, diag_at, dist2_at]
  unfold Cert.Spec.adj Cert.Spec.negOne Cert.Spec.zero Cert.Spec.one
  simp only [Ideal.hostUnary_exp_def, Ideal.hostUnary_sqrt_def, Ideal.mulf_def, Ideal.ofBits_def]
  by_cases h : r.val = c.val
  · simp only [if_pos h, select_one]
  · simp only [if_neg h, select_zero]

end Adjacency

section Degree

variable (x0 : (⟨S4096x2048, .f32⟩ : BufTy).Contents (Elt Ideal)) (x1 : (⟨S2048x2048, .f32⟩ : BufTy).Contents (Elt Ideal))

/-- The inverse square root of the adjacency's row sum at r is the specification's degree factor. -/
theorem deg_at (r : Fin 4096) :
    Read.val_main_v27 (F := Ideal) x0 x1 (ix1 r) = Cert.Spec.deg (Cert.Spec.proj x0 x1) r := by
  rw [Read.val_main_v27_apply, Read.val_main_v26_apply, Read.val_main_cst_5_apply, Ideal.ofBits_def,
    Ideal.ofBits_zero_f32, zero_add, Ideal.hostUnary_rsqrt_def]
  unfold Cert.Spec.deg
  refine congrArg Ideal.rsqrt (Finset.sum_congr rfl fun c _ => ?_)
  have e : Read.idx_main_v26 (ix1 r) c = ix2 r c :=
    funext fun a => Fin.ext (by match a with | ⟨0, _⟩ => rfl | ⟨1, _⟩ => rfl)
  rw [e, adj_at]

/-- The last stage at (r, c): the adjacency scaled by row r's degree factor on the left and row c's on the right. -/
theorem nrm_at (r c : Fin 4096) :
    Read.val_main_v33 (F := Ideal) x0 x1 (ix2 r c) = Cert.Spec.nrm (Cert.Spec.proj x0 x1) r c := by
  have el : Read.idx_main_v28 (Read.idx_main_v29 (ix2 r c)) = ix1 r :=
    funext fun a => Fin.ext (by match a with | ⟨0, _⟩ => rfl)
  have er : Read.idx_main_v31 (Read.idx_main_v32 (ix2 r c)) = ix1 c :=
    funext fun a => Fin.ext (by match a with | ⟨0, _⟩ => rfl)
  rw [Read.val_main_v33_apply, Read.val_main_v30_apply, Read.val_main_v29_apply, Read.val_main_v28_apply,
    Read.val_main_v32_apply, Read.val_main_v31_apply, el, er, deg_at, deg_at, adj_at, Ideal.mulf_def, Ideal.mulf_def]
  rfl

end Degree

/-- The reference's adjacency stage is the specification's adjacency array. -/
theorem adj_ref (x0 : (⟨S4096x2048, .f32⟩ : BufTy).Contents (Elt Ideal)) (x1 : (⟨S2048x2048, .f32⟩ : BufTy).Contents (Elt Ideal)) :
    Cert.ReferenceIdeal.Read.val_main_v25 (F := Ideal) x0 x1 = Cert.Spec.adjArr x0 x1 := by
  funext i
  obtain ⟨r, c, rfl⟩ : ∃ (r : Fin 4096) (c : Fin 4096), i = ix2 r c := ⟨i 0, i 1, eq_ix2 i⟩
  exact adj_at x0 x1 r c

/-- The reference's last stage is the specification's normalised adjacency array. -/
theorem nrm_ref (x0 : (⟨S4096x2048, .f32⟩ : BufTy).Contents (Elt Ideal)) (x1 : (⟨S2048x2048, .f32⟩ : BufTy).Contents (Elt Ideal)) :
    Cert.ReferenceIdeal.Read.val_main_v33 (F := Ideal) x0 x1 = Cert.Spec.nrmArr x0 x1 := by
  funext i
  obtain ⟨r, c, rfl⟩ : ∃ (r : Fin 4096) (c : Fin 4096), i = ix2 r c := ⟨i 0, i 1, eq_ix2 i⟩
  exact nrm_at x0 x1 r c

end Cert.ReferenceIdeal.RefVal

end
-- ==== Proof.lean ====
/-
  The certificate. Both kernel programs (the printed one at the word level, its idealization over the extended reals)
  are the same text: a host stretch of two casts, then three kernel regions. Their frames are one run, written once for
  any float instance: region 0 multiplies x by p block row by block row; region 1 computes, tile by tile, the adjacency
  exp(−distance) of z's rows and carries each row block's degree across the column tiles, ending in its inverse square
  root; region 2 scales the adjacency by that column on both sides. Over the extended reals the run's two results are the
  specification's arrays of the arguments, and so are the reference's; the one law between the two sides is that a row's
  degree summed tile by tile is the row's sum, which is associativity and commutativity of addition.
-/
import proofs.«126364_j5334349382038_1_alg».proof.Defs
import proofs.«126364_j5334349382038_1_alg».proof.Proof.Gen.Kernel
import proofs.«126364_j5334349382038_1_alg».proof.Proof.Gen.KernelIdeal
import proofs.«126364_j5334349382038_1_alg».proof.Proof.Gen.ReferenceIdeal
import proofs.«126364_j5334349382038_1_alg».proof.Proof.Gen.Pre_finite_inputs
import proofs.«126364_j5334349382038_1_alg».proof.Proof.KbSegs
import proofs.«126364_j5334349382038_1_alg».proof.Proof.KiSegs
import proofs.«126364_j5334349382038_1_alg».proof.Proof.KiValue
import proofs.«126364_j5334349382038_1_alg».proof.Proof.RefVal

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) := fun m ρ _ =>
  (θ_run Cert.Kernel.defs _ _).mono (fun _ h c => (h c).2.2) (Cert.Kernel.Hand.run_all (F := Bits) m ρ)

theorem frame_ki : Cert.frame_KernelIdeal (hKernelIdeal := Cert.KernelIdeal.Gen.facts) (hPre_finite_inputs := Cert.Pre_finite_inputs.Gen.facts) := fun m ρ _ =>
  (θ_run Cert.KernelIdeal.defs _ _).mono (fun _ h c => (h c).2.2) (Cert.KernelIdeal.Hand.run_all (F := Ideal) m ρ)

theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2.2) (Cert.ReferenceIdeal.Value.run (F := Ideal) m ρ)

/-- Both programs end at the specification's two arrays of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.nrmOut (F := Ideal) m c, fun c => Cert.KernelIdeal.Hand.adjOut (F := Ideal) m c,
    Cert.KernelIdeal.Hand.run_all (F := Ideal) m ρ, ?_⟩
  refine (θ_run Cert.ReferenceIdeal.defs _ _).mono (fun _ h c => ⟨?_, ?_, (h c).2.2.1, (h c).2.2.2⟩)
    (Cert.ReferenceIdeal.Value.run (F := Ideal) m' ρ')
  · show _ = Cert.KernelIdeal.Hand.nrmOut (F := Ideal) m c
    rw [(h c).1, Cert.ReferenceIdeal.Read.val_main_v33_eq, Cert.ReferenceIdeal.RefVal.nrm_ref, (hagree c).1, (hagree c).2]
    exact (Cert.KernelIdeal.Hand.nrmOut_eq m c).symm
  · show _ = Cert.KernelIdeal.Hand.adjOut (F := Ideal) m c
    rw [(h c).2.1, Cert.ReferenceIdeal.Read.val_main_v25_eq, Cert.ReferenceIdeal.RefVal.adj_ref, (hagree c).1, (hagree c).2]
    exact (Cert.KernelIdeal.Hand.adjOut_eq m c).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
